-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S1048576 : Shape := ⟨1, ![1048576]⟩
abbrev S32x128 : Shape := ⟨2, ![32, 128]⟩
abbrev S32 : Shape := ⟨1, ![32]⟩
abbrev S128x32 : Shape := ⟨2, ![128, 32]⟩
abbrev S128 : Shape := ⟨1, ![128]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S128x32 : S_.BroadcastsInDim S128x32 (![] : Fin 0 → Fin S128x32.rank)
  reducesTo_S128x32_S_d0_1 : S128x32.ReducesTo [0, 1] S_
  bcast_S_S128 : S_.BroadcastsInDim S128 (![] : Fin 0 → Fin S128.rank)
  reducesTo_S128_S_d0 : S128.ReducesTo [0] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_arg1 : IVec S1048576 32) (main_arg5 : FVec F S128 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S1048576 32 := broadcastInDim S1048576 ![] bcast_S_S1048576 main_c_8
  let main_v25 : IVec S1048576 1 := cmpi .sge main_arg1 main_v24
  let main_c_9 : IVec S_ 1 := constantI S_ 1 1#1
  let main_v26 : IVec S_ 1 := (fun x v => Host.reduce IntOp.andi x v reducesTo_S1048576_S_d0 h_S_) main_v25 main_c_9
  let main_v27 : IVec S_ 1 := andi main_v23 main_v26
  let main_c_10 : IVec S_ 32 := constantI S_ 32 1024#32
  let main_v28 : IVec S1048576 32 := broadcastInDim S1048576 ![] bcast_S_S1048576 main_c_10
  let main_v29 : IVec S1048576 1 := cmpi .slt main_arg1 main_v28
  let main_c_11 : IVec S_ 1 := constantI S_ 1 1#1
  let main_v30 : IVec S_ 1 := (fun x v => Host.reduce IntOp.andi x v reducesTo_S1048576_S_d0 h_S_) main_v29 main_c_11
  let main_v31 : IVec S_ 1 := andi main_v27 main_v30
  main_v31

def fn {F : FTy → Type} [FloatOps F] (main_arg0 : FVec F S1048576x128 .f32) (main_arg1 : IVec S1048576 32) (main_arg2 : FVec F S32x128 .f32) (main_arg3 : FVec F S32 .f32) (main_arg4 : FVec F S128x32 .f32) (main_arg5 : FVec F S128 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S128x32 .f32 := Host.absf main_arg4
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg1 main_arg5 main_v13 main_v16
-- ==== Kernel.lean ====
abbrev S1048576x128 : Shape := ⟨2, ![1048576, 128]⟩
abbrev S1048576 : Shape := ⟨1, ![1048576]⟩
abbrev S32x128 : Shape := ⟨2, ![32, 128]⟩
abbrev S32 : Shape := ⟨1, ![32]⟩
abbrev S128x32 : Shape := ⟨2, ![128, 32]⟩
abbrev S128 : Shape := ⟨1, ![128]⟩
abbrev S1048576x1 : Shape := ⟨2, ![1048576, 1]⟩
abbrev S1x32 : Shape := ⟨2, ![1, 32]⟩
abbrev S1x128 : Shape := ⟨2, ![1, 128]⟩
abbrev S1024x128 : Shape := ⟨2, ![1024, 128]⟩
abbrev S1024x1 : Shape := ⟨2, ![1024, 1]⟩
abbrev S4096x128 : Shape := ⟨2, ![4096, 128]⟩
abbrev S4096x1 : Shape := ⟨2, ![4096, 1]⟩
abbrev S128x128 : Shape := ⟨2, ![128, 128]⟩
abbrev S128x1 : Shape := ⟨2, ![128, 1]⟩
abbrev S1024x32 : Shape := ⟨2, ![1024, 32]⟩

abbrev nBuf : Space → Nat
  | .hbm => 13
  | .vmem => 20
  | .smem => 0
  | _ => 0

abbrev bufTy : (tb : Table) → Fin (tcTables nBuf tb) → BufTy
  | .hbm, ⟨0, _⟩ => ⟨S1048576x128, .f32⟩
  | .hbm, ⟨1, _⟩ => ⟨S1048576, .i32⟩
  | .hbm, ⟨2, _⟩ => ⟨S32x128, .f32⟩
  | .hbm, ⟨3, _⟩ => ⟨S32, .f32⟩
  | .hbm, ⟨4, _⟩ => ⟨S128x32, .f32⟩
  | .hbm, ⟨5, _⟩ => ⟨S128, .f32⟩
  | .hbm, ⟨6, _⟩ => ⟨S1048576x1, .i32⟩
  | .hbm, ⟨7, _⟩ => ⟨S1x32, .f32⟩
  | .hbm, ⟨8, _⟩ => ⟨S1x128, .f32⟩
  | .hbm, ⟨9, _⟩ => ⟨S1024x128, .f32⟩
  | .hbm, ⟨10, _⟩ => ⟨S1024x1, .f32⟩
  | .hbm, ⟨11, _⟩ => ⟨S1024x128, .f32⟩
  | .hbm, ⟨12, _⟩ => ⟨S1048576x128, .f32⟩
  | .local _ .vmem, ⟨0, _⟩ => ⟨S4096x128, .f32⟩
  | .local _ .vmem, ⟨1, _⟩ => ⟨S4096x128, .f32⟩
  | .local _ .vmem, ⟨2, _⟩ => ⟨S4096x1, .i32⟩
  | .local _ .vmem, ⟨3, _⟩ => ⟨S4096x1, .i32⟩
  | .local _ .vmem, ⟨4, _⟩ => ⟨S1024x128, .f32⟩
  | .local _ .vmem, ⟨5, _⟩ => ⟨S1024x1, .f32⟩
  | .local _ .vmem, ⟨6, _⟩ => ⟨S1024x128, .f32⟩
  | .local _ .vmem, ⟨7, _⟩ => ⟨S1024x1, .f32⟩
  | .local _ .vmem, ⟨8, _⟩ => ⟨S32x128, .f32⟩
  | .local _ .vmem, ⟨9, _⟩ => ⟨S1x32, .f32⟩
  | .local _ .vmem, ⟨10, _⟩ => ⟨S128x32, .f32⟩
  | .local _ .vmem, ⟨11, _⟩ => ⟨S1x128, .f32⟩
  | .local _ .vmem, ⟨12, _⟩ => ⟨S1024x128, .f32⟩
  | .local _ .vmem, ⟨13, _⟩ => ⟨S4096x128, .f32⟩
  | .local _ .vmem, ⟨14, _⟩ => ⟨S4096x128, .f32⟩
  | .local _ .vmem, ⟨15, _⟩ => ⟨S4096x1, .i32⟩
  | .local _ .vmem, ⟨16, _⟩ => ⟨S4096x1, .i32⟩
  | .local _ .vmem, ⟨17, _⟩ => ⟨S1024x128, .f32⟩
  | .local _ .vmem, ⟨18, _⟩ => ⟨S4096x128, .f32⟩
  | .local _ .vmem, ⟨19, _⟩ => ⟨S4096x128, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![256], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S1048576_S1048576x1 : S1048576.ShapeCasts S1048576x1
  shapeCasts_S32_S1x32 : S32.ShapeCasts S1x32
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  inb_S1024x1_S1024x1_0_0 : ∀ a, (![0, 0] : Fin 2 → Nat) a + S1024x1.size a ≤ S1024x1.size a
  h_S1024x1 : 0 < S1024x1.numel
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x128_d1_w32 : S4096x128.Iotas .tc 32 [1]
  broadcasts_S4096x1_S4096x128 : S4096x1.Broadcasts S4096x128
  natLt_1_32 : 1 < 32
  inb_S1024x128_S128x128_0_0 : ∀ a, (![0, 0] : Fin 2 → Nat) a + S128x128.size a ≤ S1024x128.size a
  h_S128x128 : 0 < S128x128.numel
  shapeCasts_S128x128_S128x128 : S128x128.ShapeCasts S128x128
  inb_S1024x1_S128x1_0_0 : ∀ a, (![0, 0] : Fin 2 → Nat) a + S128x1.size a ≤ S1024x1.size a
  h_S128x1 : 0 < S128x1.numel
  shapeCasts_S128x1_S128x1 : S128x1.ShapeCasts S128x1
  inb_S1024x128_S128x128_128_0 : ∀ a, (![128, 0] : Fin 2 → Nat) a + S128x128.size a ≤ S1024x128.size a
  inb_S1024x1_S128x1_128_0 : ∀ a, (![128, 0] : Fin 2 → Nat) a + S128x1.size a ≤ S1024x1.size a
  inb_S1024x128_S128x128_256_0 : ∀ a, (![256, 0] : Fin 2 → Nat) a + S128x128.size a ≤ S1024x128.size a
  inb_S1024x1_S128x1_256_0 : ∀ a, (![256, 0] : Fin 2 → Nat) a + S128x1.size a ≤ S1024x1.size a
  inb_S1024x128_S128x128_384_0 : ∀ a, (![384, 0] : Fin 2 → Nat) a + S128x128.size a ≤ S1024x128.size a
  inb_S1024x1_S128x1_384_0 : ∀ a, (![384, 0] : Fin 2 → Nat) a + S128x1.size a ≤ S1024x1.size a
  inb_S1024x128_S128x128_512_0 : ∀ a, (![512, 0] : Fin 2 → Nat) a + S128x128.size a ≤ S1024x128.size a
  inb_S1024x1_S128x1_512_0 : ∀ a, (![512, 0] : Fin 2 → Nat) a + S128x1.size a ≤ S1024x1.size a
  inb_S1024x128_S128x128_640_0 : ∀ a, (![640, 0] : Fin 2 → Nat) a + S128x128.size a ≤ S1024x128.size a
  inb_S1024x1_S128x1_640_0 : ∀ a, (![640, 0] : Fin 2 → Nat) a + S128x1.size a ≤ S1024x1.size a
  inb_S1024x128_S128x128_768_0 : ∀ a, (![768, 0] : Fin 2 → Nat) a + S128x128.size a ≤ S1024x128.size a
  inb_S1024x1_S128x1_768_0 : ∀ a, (![768, 0] : Fin 2 → Nat) a + S128x1.size a ≤ S1024x1.size a
  inb_S1024x128_S128x128_896_0 : ∀ a, (![896, 0] : Fin 2 → Nat) a + S128x128.size a ≤ S1024x128.size a
  inb_S1024x1_S128x1_896_0 : ∀ a, (![896, 0] : Fin 2 → Nat) a + S128x1.size a ≤ S1024x1.size a
  shapeCasts_S1024x128_S1024x128 : S1024x128.ShapeCasts S1024x128
  shapeCasts_S1024x1_S1024x1 : S1024x1.ShapeCasts S1024x1
  broadcasts_S1024x1_S1024x128 : S1024x1.Broadcasts S1024x128
  inb_S32x128_S32x128_0_0 : ∀ a, (![0, 0] : Fin 2 → Nat) a + S32x128.size a ≤ S32x128.size a
  h_S32x128 : 0 < S32x128.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S128x32_S128x32_0_0 : ∀ a, (![0, 0] : Fin 2 → Nat) a + S128x32.size a ≤ S128x32.size a
  h_S128x32 : 0 < S128x32.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x32_S1024x32 : S1x32.Broadcasts S1024x32
  broadcasts_S1x128_S1024x128 : S1x128.Broadcasts S1024x128
  dot_S4096x128_S4096x128_S128x128_0_0_1_1_n_n_wf : DotDims.WF S4096x128 S4096x128 S128x128 [0] [0] [1] [1] [] []
  dot_S4096x128_S4096x1_S128x1_0_0_1_1_n_n_wf : DotDims.WF S4096x128 S4096x1 S128x1 [0] [0] [1] [1] [] []
  dot_S1024x128_S32x128_S1024x32_1_1_0_0_n_n_wf : DotDims.WF S1024x128 S32x128 S1024x32 [1] [1] [0] [0] [] []
  dot_S1024x32_S128x32_S1024x128_1_1_0_0_n_n_wf : DotDims.WF S1024x32 S128x32 S1024x128 [1] [1] [0] [0] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1048576x128.size a
  hwx0_0 : ∀ i : grid0.Coords, EltTy.bits .f32 = 32 ∨ (Rect.block (s := S1048576x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S1048576x1.size a
  hwx0_1 : ∀ i : grid0.Coords, EltTy.bits .i32 = 32 ∨ (Rect.block (s := S1048576x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .f32 = 32 ∨ (Rect.block (s := S1024x1) S1024x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S1024x128.size a
  hwx1_0 : ∀ i : grid1.Coords, EltTy.bits .f32 = 32 ∨ (Rect.block (s := S1024x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S1024x1.size a
  hwx1_1 : ∀ i : grid1.Coords, EltTy.bits .f32 = 32 ∨ (Rect.block (s := S1024x1) S1024x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S32x128.size a
  hwx1_2 : ∀ i : grid1.Coords, EltTy.bits .f32 = 32 ∨ (Rect.block (s := S32x128) S32x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x32.size a ≤ S128x32.size a
  hwx1_4 : ∀ i : grid1.Coords, EltTy.bits .f32 = 32 ∨ (Rect.block (s := S128x32) S128x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S1024x128.size a
  hwx1_6 : ∀ i : grid1.Coords, EltTy.bits .f32 = 32 ∨ (Rect.block (s := S1024x128) S1024x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S1048576x128.size a
  hwx2_0 : ∀ i : grid2.Coords, EltTy.bits .f32 = 32 ∨ (Rect.block (s := S1048576x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S1048576x1.size a
  hwx2_1 : ∀ i : grid2.Coords, EltTy.bits .i32 = 32 ∨ (Rect.block (s := S1048576x1) S4096x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S1024x128.size a
  hwx2_2 : ∀ i : grid2.Coords, EltTy.bits .f32 = 32 ∨ (Rect.block (s := S1024x128) S1024x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S1048576x128.size a
  hwx2_3 : ∀ i : grid2.Coords, EltTy.bits .f32 = 32 ∨ (Rect.block (s := S1048576x128) S4096x128.size (cc2_transform_3 i) (hinb2_3 i)).WholeWords (EltTy.packing .f32)

variable [Facts₀]

def dot_S4096x128_S4096x128_S128x128_0_0_1_1_n_n : DotDims S4096x128 S4096x128 S128x128 where
  lhsContracting := [0]
  rhsContracting := [0]
  lhsNonContracting := [1]
  rhsNonContracting := [1]
  lhsBatch := []
  rhsBatch := []
  wf := dot_S4096x128_S4096x128_S128x128_0_0_1_1_n_n_wf
def dot_S4096x128_S4096x1_S128x1_0_0_1_1_n_n : DotDims S4096x128 S4096x1 S128x1 where
  lhsContracting := [0]
  rhsContracting := [0]
  lhsNonContracting := [1]
  rhsNonContracting := [1]
  lhsBatch := []
  rhsBatch := []
  wf := dot_S4096x128_S4096x1_S128x1_0_0_1_1_n_n_wf
def dot_S1024x128_S32x128_S1024x32_1_1_0_0_n_n : DotDims S1024x128 S32x128 S1024x32 where
  lhsContracting := [1]
  rhsContracting := [1]
  lhsNonContracting := [0]
  rhsNonContracting := [0]
  lhsBatch := []
  rhsBatch := []
  wf := dot_S1024x128_S32x128_S1024x32_1_1_0_0_n_n_wf
def dot_S1024x32_S128x32_S1024x128_1_1_0_0_n_n : DotDims S1024x32 S128x32 S1024x128 where
  lhsContracting := [1]
  rhsContracting := [1]
  lhsNonContracting := [0]
  rhsNonContracting := [0]
  lhsBatch := []
  rhsBatch := []
  wf := dot_S1024x32_S128x32_S1024x128_1_1_0_0_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1024x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1024x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3_0) S1024x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1024x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S32x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1024x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg0) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S4096x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1024x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S4096x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1048576x128 : Shape := ⟨2, ![1048576, 128]⟩
abbrev S1048576 : Shape := ⟨1, ![1048576]⟩
abbrev S32x128 : Shape := ⟨2, ![32, 128]⟩
abbrev S32 : Shape := ⟨1, ![32]⟩
abbrev S128x32 : Shape := ⟨2, ![128, 32]⟩
abbrev S128 : Shape := ⟨1, ![128]⟩
abbrev S_ : Shape := ⟨0, ![]⟩
abbrev S1024x128 : Shape := ⟨2, ![1024, 128]⟩
abbrev S1048576x1 : Shape := ⟨2, ![1048576, 1]⟩
abbrev S1024 : Shape := ⟨1, ![1024]⟩
abbrev S1024x1 : Shape := ⟨2, ![1024, 1]⟩
abbrev S1024x32 : Shape := ⟨2, ![1024, 32]⟩
abbrev S1x32 : Shape := ⟨2, ![1, 32]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576, .i32⟩
  | .hbm, ⟨2, _⟩ => ⟨S32x128, .f32⟩
  | .hbm, ⟨3, _⟩ => ⟨S32, .f32⟩
  | .hbm, ⟨4, _⟩ => ⟨S128x32, .f32⟩
  | .hbm, ⟨5, _⟩ => ⟨S128, .f32⟩
  | .hbm, ⟨6, _⟩ => ⟨S_, .f32⟩
  | .hbm, ⟨7, _⟩ => ⟨S1024x128, .f32⟩
  | .hbm, ⟨8, _⟩ => ⟨S1048576x1, .i32⟩
  | .hbm, ⟨9, _⟩ => ⟨S1024x128, .f32⟩
  | .hbm, ⟨10, _⟩ => ⟨S_, .f32⟩
  | .hbm, ⟨11, _⟩ => ⟨S1048576, .f32⟩
  | .hbm, ⟨12, _⟩ => ⟨S_, .f32⟩
  | .hbm, ⟨13, _⟩ => ⟨S1024, .f32⟩
  | .hbm, ⟨14, _⟩ => ⟨S1048576x1, .i32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S1024x1, .f32⟩
  | .hbm, ⟨20, _⟩ => ⟨S1024x128, .f32⟩
  | .hbm, ⟨21, _⟩ => ⟨S1024x128, .f32⟩
  | .hbm, ⟨22, _⟩ => ⟨S128x32, .f32⟩
  | .hbm, ⟨23, _⟩ => ⟨S1024x32, .f32⟩
  | .hbm, ⟨24, _⟩ => ⟨S1x32, .f32⟩
  | .hbm, ⟨25, _⟩ => ⟨S1024x32, .f32⟩
  | .hbm, ⟨26, _⟩ => ⟨S1024x32, .f32⟩
  | .hbm, ⟨27, _⟩ => ⟨S_, .f32⟩
  | .hbm, ⟨28, _⟩ => ⟨S1024x32, .f32⟩
  | .hbm, ⟨29, _⟩ => ⟨S1024x32, .f32⟩
  | .hbm, ⟨30, _⟩ => ⟨S32x128, .f32⟩
  | .hbm, ⟨31, _⟩ => ⟨S1024x128, .f32⟩
  | .hbm, ⟨32, _⟩ => ⟨S1x128, .f32⟩
  | .hbm, ⟨33, _⟩ => ⟨S1024x128, .f32⟩
  | .hbm, ⟨34, _⟩ => ⟨S1024x128, .f32⟩
  | .hbm, ⟨35, _⟩ => ⟨S1024x128, .f32⟩
  | .hbm, ⟨36, _⟩ => ⟨S1024x128, .f32⟩
  | .hbm, ⟨37, _⟩ => ⟨S_, .f32⟩
  | .hbm, ⟨38, _⟩ => ⟨S1024x128, .f32⟩
  | .hbm, ⟨39, _⟩ => ⟨S1024x128, .f32⟩
  | .hbm, ⟨40, _⟩ => ⟨S_, .f32⟩
  | .hbm, ⟨41, _⟩ => ⟨S1024x128, .f32⟩
  | .hbm, ⟨42, _⟩ => ⟨S1024x128, .f32⟩
  | .hbm, ⟨43, _⟩ => ⟨S_, .i32⟩
  | .hbm, ⟨44, _⟩ => ⟨S1048576, .i32⟩
  | .hbm, ⟨45, _⟩ => ⟨S1048576, .i1⟩
  | .hbm, ⟨46, _⟩ => ⟨S_, .i32⟩
  | .hbm, ⟨47, _⟩ => ⟨S1048576, .i32⟩
  | .hbm, ⟨48, _⟩ => ⟨S1048576, .i32⟩
  | .hbm, ⟨49, _⟩ => ⟨S1048576, .i32⟩
  | .hbm, ⟨50, _⟩ => ⟨S1048576x1, .i32⟩
  | .hbm, ⟨51, _⟩ => ⟨S1048576x128, .f32⟩
  | .hbm, ⟨52, _⟩ => ⟨S1048576x128, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_c : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S_S1024x128 : S_.BroadcastsInDim S1024x128 (![] : Fin 0 → Fin S1024x128.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  transposes_S32x128_S128x32_1_0 : S32x128.Transposes [1, 0] S128x32
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  transposes_S128x32_S32x128_1_0 : S128x32.Transposes [1, 0] S32x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  scatter_S1024x128_S1048576x1_S1048576x128_1_0_0_1_wf : ScatterDims.WF S1024x128 S1048576x1 S1048576x128 [1] [0] [0] 1
  scatter_S1024_S1048576x1_S1048576_n_0_0_1_wf : ScatterDims.WF S1024 S1048576x1 S1048576 [] [0] [0] 1
  dot_S1024x128_S128x32_S1024x32_1_0_0_1_n_n_wf : DotDims.WF S1024x128 S128x32 S1024x32 [1] [0] [0] [1] [] []
  dot_S1024x32_S32x128_S1024x128_1_0_0_1_n_n_wf : DotDims.WF S1024x32 S32x128 S1024x128 [1] [0] [0] [1] [] []
  gather_S1024x128_S1048576x1_S1048576x128_1_0_n_n_0_1_1128_wf : GatherDims.WF S1024x128 S1048576x1 S1048576x128 [1] [0] [] [0] [] 1 ![1, 128]

variable [Facts₀]

def scatter_S1024x128_S1048576x1_S1048576x128_1_0_0_1 : ScatterDims S1024x128 S1048576x1 S1048576x128 where
  updateWindowDims := [1]
  insertedWindowDims := [0]
  scatterDimsToOperandDims := [0]
  indexVectorDim := 1
  wf := scatter_S1024x128_S1048576x1_S1048576x128_1_0_0_1_wf
def scatter_S1024_S1048576x1_S1048576_n_0_0_1 : ScatterDims S1024 S1048576x1 S1048576 where
  updateWindowDims := []
  insertedWindowDims := [0]
  scatterDimsToOperandDims := [0]
  indexVectorDim := 1
  wf := scatter_S1024_S1048576x1_S1048576_n_0_0_1_wf
def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf
def dot_S1024x32_S32x128_S1024x128_1_0_0_1_n_n : DotDims S1024x32 S32x128 S1024x128 where
  lhsContracting := [1]
  rhsContracting := [0]
  lhsNonContracting := [0]
  rhsNonContracting := [1]
  lhsBatch := []
  rhsBatch := []
  wf := dot_S1024x32_S32x128_S1024x128_1_0_0_1_n_n_wf
def gather_S1024x128_S1048576x1_S1048576x128_1_0_n_n_0_1_1128 : GatherDims S1024x128 S1048576x1 S1048576x128 where
  offsetDims := [1]
  collapsedSliceDims := [0]
  operandBatchingDims := []
  startIndicesBatchingDims := []
  startIndexMap := [0]
  indexVectorDim := 1
  sliceSizes := ![1, 128]
  wf := gather_S1024x128_S1048576x1_S1048576x128_1_0_n_n_0_1_1128_wf

class Facts : Prop extends Facts₀ where

variable [Facts]
-- ==== Proof.Spec.lean ====
/-
  The gate of a squeeze-and-excitation layer over segments, as plain functions of the coordinates.

  A million rows `x n` of 128 channels each carry a segment id `b n`, a 32-bit word. For each of 1024 segments `g` the rows
  with that id are summed channel by channel (`segSum`) and counted (`segCount`); the segment's mean (the sum over the
  count, the count raised to one where the segment is empty) goes through two small affine layers, the first followed by
  a clamp at zero and the second by the logistic function (`gate`); and every row is multiplied, channel by channel, by
  the gate of its own segment (`scaled`).

  Membership of row `n` in segment `g` is written as the number `hot (b n) g`: one when the word `b n` is `g`, zero
  otherwise. A sum of `hot a g * E g` over all `g` picks the one term `E a` when the word `a` is below 1024
  (`sum_hot_mul`), and is zero otherwise: on the extended reals `0 * y = 0` and `1 * y = y` for every `y`, the
  infinities included, so nothing here needs a finite value.
-/
import Mathlib.Algebra.BigOperators.Fin
import Mathlib.Algebra.BigOperators.Group.Finset.Basic
import Mathlib.Data.EReal.Operations
import Idealize.ShloMosaic.PureOps.Ideal

open scoped BigOperators

noncomputable section

namespace Cert.SegGate

open Idealize.ShloMosaic

/-- One when the two words are the same word, zero otherwise. -/
def hot (a b : BitVec 32) : EReal := if a = b then 1 else 0

theorem hot_self (a : BitVec 32) : hot a a = 1 := if_pos rfl

theorem hot_of_ne {a b : BitVec 32} (h : a ≠ b) : hot a b = 0 := if_neg h

/-- The word of a segment number. -/
abbrev seg (g : Fin 1024) : BitVec 32 := BitVec.ofNat 32 g.val

/-- Two segment numbers with the same word are the same number. -/
theorem seg_injective : Function.Injective seg := by
  intro g g' h
  have := congrArg BitVec.toNat h
  simp only [seg, BitVec.toNat_ofNat] at this
  have hg : g.val % 2 ^ 32 = g.val := Nat.mod_eq_of_lt (lt_trans g.isLt (by decide))
  have hg' : g'.val % 2 ^ 32 = g'.val := Nat.mod_eq_of_lt (lt_trans g'.isLt (by decide))
  exact Fin.ext (by omega)

/-- The segment number of a word (taken modulo 1024: exact for a word below 1024). -/
def segOf (a : BitVec 32) : Fin 1024 := ⟨a.toNat % 1024, Nat.mod_lt _ (by decide)⟩

/-- A word below 1024 is the word of its segment number. -/
theorem seg_segOf {a : BitVec 32} (h : a.toNat < 1024) : seg (segOf a) = a := by
  apply BitVec.eq_of_toNat_eq
  simp only [seg, segOf, BitVec.toNat_ofNat]
  omega

/-- The sum over all segments of `hot a g * E g` is the one term of `a`'s own segment. -/
theorem sum_hot_mul {a : BitVec 32} (h : a.toNat < 1024) (E : Fin 1024 → EReal) :
    ∑ g : Fin 1024, hot a (seg g) * E g = E (segOf a) := by
  rw [Finset.sum_eq_single (segOf a)]
  · rw [seg_segOf h, hot_self, one_mul]
  · intro g _ hg
    rw [hot_of_ne, zero_mul]
    intro e
    exact hg (seg_injective (e.symm.trans (seg_segOf h).symm))
  · intro hn; exact absurd (Finset.mem_univ _) hn

/-- The sum, channel `k`, of the rows whose segment id is `g`. -/
def segSum (x : Fin 1048576 → Fin 128 → EReal) (b : Fin 1048576 → BitVec 32) (g : Fin 1024) (k : Fin 128) : EReal :=
  ∑ n : Fin 1048576, hot (b n) (seg g) * x n k

/-- The number of rows whose segment id is `g`. -/
def segCount (b : Fin 1048576 → BitVec 32) (g : Fin 1024) : EReal :=
  ∑ n : Fin 1048576, hot (b n) (seg g)

/-- The gate of segment `g`, channel `c`, from the segments' sums `S` and counts `C`: the mean `S g k / max (C g) 1`
    through `Ws` and `bs` and a clamp at zero (32 hidden values), then through `We` and `be` and the logistic function. -/
def gate (S : Fin 1024 → Fin 128 → EReal) (C : Fin 1024 → EReal) (Ws : Fin 32 → Fin 128 → EReal) (bs : Fin 32 → EReal)
    (We : Fin 128 → Fin 32 → EReal) (be : Fin 128 → EReal) (g : Fin 1024) (c : Fin 128) : EReal :=
  Ideal.logistic
    ((∑ s : Fin 32, max ((∑ k : Fin 128, Ideal.div (S g k) (max (C g) 1) * Ws s k) + bs s) 0 * We c s) + be c)

/-- Row `n`, channel `k`, times the sum over all segments of membership times the segment's gate: what picking the
    row's own gate looks like before the segment id is known to be below 1024. -/
def scaledSum (x : Fin 1048576 → Fin 128 → EReal) (b : Fin 1048576 → BitVec 32) (E : Fin 1024 → Fin 128 → EReal)
    (n : Fin 1048576) (k : Fin 128) : EReal :=
  x n k * ∑ g : Fin 1024, hot (b n) (seg g) * E g k

/-- Row `n`, channel `k`, times the gate of the row's own segment. -/
def scaled (x : Fin 1048576 → Fin 128 → EReal) (b : Fin 1048576 → BitVec 32) (E : Fin 1024 → Fin 128 → EReal)
    (n : Fin 1048576) (k : Fin 128) : EReal :=
  x n k * E (segOf (b n)) k

/-- With every segment id below 1024 the sum over the segments picks the row's own gate. -/
theorem scaledSum_eq (x : Fin 1048576 → Fin 128 → EReal) (b : Fin 1048576 → BitVec 32) (E : Fin 1024 → Fin 128 → EReal)
    (hb : ∀ n, (b n).toNat < 1024) (n : Fin 1048576) (k : Fin 128) : scaledSum x b E n k = scaled x b E n k := by
  unfold scaledSum scaled
  rw [sum_hot_mul (hb n) (fun g => E g k)]

/-- The whole layer: every row times the gate of its segment, the gate computed from the segment sums and counts. -/
def layer (x : Fin 1048576 → Fin 128 → EReal) (b : Fin 1048576 → BitVec 32) (Ws : Fin 32 → Fin 128 → EReal)
    (bs : Fin 32 → EReal) (We : Fin 128 → Fin 32 → EReal) (be : Fin 128 → EReal) (n : Fin 1048576) (k : Fin 128) : EReal :=
  scaled x b (gate (segSum x b) (segCount b) Ws bs We be) n k

end Cert.SegGate

end
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.KSums.lean ====
/-
  The first region: the segments' sums and counts.

  The grid has 256 points; point `t` sees rows `4096 t … 4096 t + 4095` and their segment ids. The two output blocks
  are the whole arrays at every point: the first point zeroes them, every point adds, for each of the 1024 segments, the
  rows of its block that carry the segment's id (and their number), and the arrays are written back once, after the last
  point. So after the region the sums array holds, at segment `g` and channel `k`, the sum over ALL rows with id `g` of
  channel `k`, and the counts array their number: 256 blocks of 4096 rows are all 1048576 rows.
-/
import proofs.«410003_j3539053052006_1_alg».proof.Proof.Gen.KernelIdeal.Frame
import proofs.«410003_j3539053052006_1_alg».proof.Proof.Spec
import proofs.«410003_j3539053052006_1_alg».proof.Proof.LibSums
import Idealize.ShloMosaic.Lib.Pipeline.Value
import Idealize.ShloMosaic.Lib.Pipeline.CanonAppend
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.SumsValue

open Cert.KernelIdeal Cert.KernelIdeal.Gen Cert.SegGate
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The rows as the region finds them. -/
abbrev xIn (c : Dev nD) : Vec Ideal S1048576x128 .f32 := V c main_arg0
/-- The rows' segment ids as the region finds them (one column). -/
abbrev bIn (c : Dev nD) : Vec Ideal S1048576x1 .i32 := V c main_v0

/-! ## Membership as a float: the compare, widened and converted -/

/-- A compare for equality, widened to a word and converted, is one when the words agree and zero otherwise. -/
private theorem sitofp_cmpi_eq (a b : BitVec 32) :
    (FloatOps.sitofp (F := Ideal) .f32 ((IntOp.cmpi .eq a b).setWidth 32) : Ideal .f32) = hot a b := by
  show (((((IntOp.cmpi .eq a b).setWidth 32).toInt : ℝ)) : EReal) = hot a b
  unfold hot IntOp.cmpi
  by_cases h : a = b
  · rw [if_pos h, show (a == b) = true from by simpa using h]
    show ((((1#1 : BitVec 1).setWidth 32).toInt : ℝ) : EReal) = 1
    rw [show ((1#1 : BitVec 1).setWidth 32).toInt = 1 from by decide]
    norm_num
  · rw [if_neg h, show (a == b) = false from by simpa using h]
    show ((((0#1 : BitVec 1).setWidth 32).toInt : ℝ) : EReal) = 0
    rw [show ((0#1 : BitVec 1).setWidth 32).toInt = 0 from by decide]
    norm_num

/-- The lane number plus the chunk's first segment number, as a word, is the word of the segment. -/
private theorem lane_add (j : Fin 128) (o : ℕ) (ho : o + 128 ≤ 1024) :
    IntOp.addi (BitVec.ofNat 32 j.val) (BitVec.ofNat 32 o) = seg ⟨o + j.val, by have := j.isLt; omega⟩ := by
  unfold IntOp.addi
  apply BitVec.eq_of_toNat_eq
  have := j.isLt
  simp only [seg, BitVec.toNat_add, BitVec.toNat_ofNat]
  omega

/-- The compare mask of one chunk of 128 segments at row r, lane j: the row's id word against the word of
    segment o + j. -/
private theorem mask_apply (v6 : IVec S4096x1 32) (o : ℕ) (ho : o + 128 ≤ 1024) (r : Fin 4096) (j : Fin 128) :
    cmpi .eq (broadcastTo S4096x128 v6 broadcasts_S4096x1_S4096x128)
        (addi (iota .tc S4096x128 32 [1] iota_S4096x128_d1_w32) (broadcast S4096x128 (BitVec.ofNat 32 o))) (ix2 r j)
      = IntOp.cmpi .eq (v6 (ix2 r 0)) (seg ⟨o + j.val, by have := j.isLt; omega⟩) := by
  show IntOp.cmpi .eq (broadcastTo S4096x128 v6 broadcasts_S4096x1_S4096x128 (ix2 r j))
      (IntOp.addi (iota .tc S4096x128 32 [1] iota_S4096x128_d1_w32 (ix2 r j)) (BitVec.ofNat 32 o)) = _
  rw [iota_single_apply, ← lane_add j o ho]
  rw [broadcastTo_apply v6 broadcasts_S4096x1_S4096x128 (ix2 r j) (ix2 r 0) (fun a => by
    match a with
    | ⟨0, _⟩ => rfl
    | ⟨1, _⟩ => rfl)]

/-! ## The product over the rows: a contraction of axis 0 of both operands -/

private theorem lhs_rows_0 (i : S128x128.Idx) (q : dot_S4096x128_S4096x128_S128x128_0_0_1_1_n_n.contr.Idx) :
    (dot_S4096x128_S4096x128_S128x128_0_0_1_1_n_n.lhsIdx i q 0).val = (q ⟨0, by decide⟩).val :=
  dot_S4096x128_S4096x128_S128x128_0_0_1_1_n_n.lhsIdx_val_of_single rfl i q
private theorem lhs_rows_1 (i : S128x128.Idx) (q : dot_S4096x128_S4096x128_S128x128_0_0_1_1_n_n.contr.Idx) :
    (dot_S4096x128_S4096x128_S128x128_0_0_1_1_n_n.lhsIdx i q 1).val = (i 0).val := by
  unfold DotDims.lhsIdx
  rw [dif_neg (show ¬(1 : Fin S4096x128.rank) ∈ dot_S4096x128_S4096x128_S128x128_0_0_1_1_n_n.lhsBatch by decide), dif_pos (show (1 : Fin S4096x128.rank) ∈ dot_S4096x128_S4096x128_S128x128_0_0_1_1_n_n.lhsNonContracting by decide)]
  rfl
private theorem rhs_rows_0 (i : S128x128.Idx) (q : dot_S4096x128_S4096x128_S128x128_0_0_1_1_n_n.contr.Idx) :
    (dot_S4096x128_S4096x128_S128x128_0_0_1_1_n_n.rhsIdx i q 0).val = (q ⟨0, by decide⟩).val :=
  dot_S4096x128_S4096x128_S128x128_0_0_1_1_n_n.rhsIdx_val_of_single rfl i q
private theorem rhs_rows_1 (i : S128x128.Idx) (q : dot_S4096x128_S4096x128_S128x128_0_0_1_1_n_n.contr.Idx) :
    (dot_S4096x128_S4096x128_S128x128_0_0_1_1_n_n.rhsIdx i q 1).val = (i 1).val := by
  unfold DotDims.rhsIdx
  rw [dif_neg (show ¬(1 : Fin S4096x128.rank) ∈ dot_S4096x128_S4096x128_S128x128_0_0_1_1_n_n.rhsBatch by decide), dif_pos (show (1 : Fin S4096x128.rank) ∈ dot_S4096x128_S4096x128_S128x128_0_0_1_1_n_n.rhsNonContracting by decide)]
  rfl

/-- Into a zero accumulator the product, at lane j and channel k, is the sum over the rows of the two operands'
    entries in that row. -/
private theorem rows_matmul_apply (A B : FVec Ideal S4096x128 .bf16) (j k : Fin 128) :
    matmul dot_S4096x128_S4096x128_S128x128_0_0_1_1_n_n none A B (constant S128x128 .f32 0x00000000#32) (ix2 j k)
      = ∑ r : Fin 4096, A (ix2 r j) * B (ix2 r k) := by
  show FloatOps.matmul dot_S4096x128_S4096x128_S128x128_0_0_1_1_n_n none A B (constant S128x128 .f32 0x00000000#32) (ix2 j k) = _
  rw [Ideal.matmul_constant_zero_apply, ← Equiv.sum_comp (contrEquiv1 dot_S4096x128_S4096x128_S128x128_0_0_1_1_n_n 4096 rfl rfl).symm]
  refine Finset.sum_congr rfl fun r _ => ?_
  have hk := contrEquiv1_symm_val dot_S4096x128_S4096x128_S128x128_0_0_1_1_n_n 4096 rfl rfl r
  have el : dot_S4096x128_S4096x128_S128x128_0_0_1_1_n_n.lhsIdx (ix2 j k) ((contrEquiv1 dot_S4096x128_S4096x128_S128x128_0_0_1_1_n_n 4096 rfl rfl).symm r) = ix2 r j := funext fun a => Fin.ext (by
    match a with
    | ⟨0, _⟩ => exact (lhs_rows_0 _ _).trans hk
    | ⟨1, _⟩ => exact lhs_rows_1 _ _)
  have er : dot_S4096x128_S4096x128_S128x128_0_0_1_1_n_n.rhsIdx (ix2 j k) ((contrEquiv1 dot_S4096x128_S4096x128_S128x128_0_0_1_1_n_n 4096 rfl rfl).symm r) = ix2 r k := funext fun a => Fin.ext (by
    match a with
    | ⟨0, _⟩ => exact (rhs_rows_0 _ _).trans hk
    | ⟨1, _⟩ => exact rhs_rows_1 _ _)
  rw [el, er]

/-! ## One chunk of 128 segments -/

/-- What the body stores for the chunk of segments o … o + 127: the rows it loaded of the sums block, plus the product
    over the block's rows of the chunk's membership matrix and the rows' channels. -/
private def chunkVal (x0 : Vec Ideal S4096x128 .f32) (x1 : Vec Ideal S4096x1 .i32) (v : Vec Ideal S128x128 .f32) (o : ℕ) :
    FVec Ideal S128x128 .f32 :=
  addf (shapeCast S128x128 v shapeCasts_S128x128_S128x128)
    (matmul dot_S4096x128_S4096x128_S128x128_0_0_1_1_n_n none
      (truncf .bf16 (sitofp .f32 (extui 32 (cmpi .eq
        (broadcastTo S4096x128 (shapeCast S4096x1 x1 shapeCasts_S4096x1_S4096x1) broadcasts_S4096x1_S4096x128)
        (addi (iota .tc S4096x128 32 [1] iota_S4096x128_d1_w32) (broadcast S4096x128 (BitVec.ofNat 32 o)))) natLt_1_32))
        bitsLt_bf16_f32)
      (truncf .bf16 x0 bitsLt_bf16_f32) (constant S128x128 .f32 0x00000000#32))

/-- At lane j, channel k it is the loaded entry plus the sum over the block's rows of membership in segment o + j
    times the row's channel k. -/
private theorem chunkVal_apply (x0 : Vec Ideal S4096x128 .f32) (x1 : Vec Ideal S4096x1 .i32) (v : Vec Ideal S128x128 .f32)
    (o : ℕ) (ho : o + 128 ≤ 1024) (j k : Fin 128) :
    chunkVal x0 x1 v o (ix2 j k)
      = v (ix2 j k) + ∑ r : Fin 4096, hot (x1 (ix2 r 0)) (seg ⟨o + j.val, by have := j.isLt; omega⟩) * x0 (ix2 r k) := by
  unfold chunkVal
  rw [addf_apply, rows_matmul_apply, shapeCast_self, shapeCast_self]
  refine congrArg (v (ix2 j k) + ·) (Finset.sum_congr rfl fun r _ => ?_)
  rw [truncf_apply, truncf_apply, sitofp_apply, extui_apply, mask_apply x1 o ho r j, sitofp_cmpi_eq]

private theorem pay10_eq (x0 : Vec Ideal S4096x128 .f32) (x1 : Vec Ideal S4096x1 .i32) (v : Vec Ideal S128x128 .f32) :
    k0_pay10 (F := Ideal) x0 x1 v = chunkVal x0 x1 v 0 := rfl
private theorem pay14_eq (x0 : Vec Ideal S4096x128 .f32) (x1 : Vec Ideal S4096x1 .i32) (v : Vec Ideal S128x128 .f32) :
    k0_pay14 (F := Ideal) (k0_pay13 x0 x1) v = chunkVal x0 x1 v 128 := rfl
private theorem pay17_eq (x0 : Vec Ideal S4096x128 .f32) (x1 : Vec Ideal S4096x1 .i32) (v : Vec Ideal S128x128 .f32) :
    k0_pay17 (F := Ideal) (k0_pay6 x0) (k0_pay7 x1) v = chunkVal x0 x1 v 256 := rfl
private theorem pay20_eq (x0 : Vec Ideal S4096x128 .f32) (x1 : Vec Ideal S4096x1 .i32) (v : Vec Ideal S128x128 .f32) :
    k0_pay20 (F := Ideal) (k0_pay6 x0) (k0_pay19 (k0_pay7 x1)) (constant S128x128 .f32 0x00000000#32) v = chunkVal x0 x1 v 384 := rfl
private theorem pay23_eq (x0 : Vec Ideal S4096x128 .f32) (x1 : Vec Ideal S4096x1 .i32) (v : Vec Ideal S128x128 .f32) :
    k0_pay23 (F := Ideal) (k0_pay6 x0) (k0_pay7 x1) v = chunkVal x0 x1 v 512 := rfl
private theorem pay27_eq (x0 : Vec Ideal S4096x128 .f32) (x1 : Vec Ideal S4096x1 .i32) (v : Vec Ideal S128x128 .f32) :
    k0_pay27 (F := Ideal) (k0_pay6 x0) (k0_pay25 (k0_pay7 x1)) v = chunkVal x0 x1 v 640 := rfl
private theorem pay30_eq (x0 : Vec Ideal S4096x128 .f32) (x1 : Vec Ideal S4096x1 .i32) (v : Vec Ideal S128x128 .f32) :
    k0_pay30 (F := Ideal) (k0_pay6 x0) (k0_pay7 x1) v = chunkVal x0 x1 v 768 := rfl
private theorem pay2_eq (x0 : Vec Ideal S4096x128 .f32) (x1 : Vec Ideal S4096x1 .i32) (v : Vec Ideal S128x128 .f32) :
    k0_pay2 (F := Ideal) (k0_pay6 x0) (k0_pay32 (k0_pay7 x1)) v = chunkVal x0 x1 v 896 := rfl

/-! ## The sums block after the body -/

private theorem hz2 : (![0, 0] : Fin 2 → Nat) = fun _ => 0 := funext fun a => by fin_cases a <;> rfl

/-- The sums block after the body as ONE function of the block's index, over what it held before: at segment y 0,
    channel y 1 the earlier entry plus the sum over the block's rows of membership times the row's channel. -/
private def sumsG (x0 : Vec Ideal S4096x128 .f32) (x1 : Vec Ideal S4096x1 .i32) (xo2 : Vec Ideal S1024x128 .f32) :
    S1024x128.Idx → Ideal .f32 := fun y =>
  xo2 y + ∑ r : Fin 4096, hot (x1 (ix2 r 0)) (seg ⟨(y 0).val, idx2_lt0 y⟩) * x0 (ix2 r ⟨(y 1).val, idx2_lt1 y⟩)

/-- The chunk stored at rows o … o + 127, computed from those rows of the earlier contents, is that function there. -/
private theorem chunk_piece (x0 : Vec Ideal S4096x128 .f32) (x1 : Vec Ideal S4096x1 .i32) (xo2 : Vec Ideal S1024x128 .f32)
    (o : ℕ) (ho : o + 128 ≤ 1024) (inb : ∀ a, (![o, 0] : Fin 2 → ℕ) a + (![128, 128] : Fin 2 → ℕ) a ≤ S1024x128.size a)
    (v : Vec Ideal S128x128 .f32) (hv : v = View.ld xo2 (Rect.unit (s := S1024x128) ![o, 0] ![128, 128] inb))
    (x : S128x128.Idx) :
    chunkVal x0 x1 v o x = sumsG x0 x1 xo2 ((Rect.unit (s := S1024x128) ![o, 0] ![128, 128] inb).emb x) := by
  subst hv
  obtain ⟨j, k, rfl⟩ : ∃ (j : Fin 128) (k : Fin 128), x = ix2 j k := ⟨x 0, x 1, eq_ix2 x⟩
  rw [chunkVal_apply x0 x1 _ o ho j k]
  unfold sumsG
  have e0 : (((Rect.unit (s := S1024x128) ![o, 0] ![128, 128] inb).emb (ix2 j k)) 0).val = o + j.val := by
    show o + 1 * j.val = _; omega
  have e1 : (((Rect.unit (s := S1024x128) ![o, 0] ![128, 128] inb).emb (ix2 j k)) 1).val = k.val := by
    show 0 + 1 * k.val = _; omega
  refine congrArg₂ (· + ·) rfl (Finset.sum_congr rfl fun r _ => ?_)
  exact congrArg₂ (· * ·) (congrArg (hot (x1 (ix2 r 0))) (congrArg seg (Fin.ext e0.symm)))
    (congrArg x0 (congrArg (ix2 r) (Fin.ext e1.symm)))

/-- What a later point leaves in the sums block: what the point before left, plus the same sum over this block's rows. -/
theorem pieceB (c : Dev nD) (i : grid0.Coords) (arg1 : Memref sig .tc .vmem S4096x128 .f32) (harg1 : arg1.IsWhole) (arg2 : Memref sig .tc .vmem S4096x1 .i32) (harg2 : arg2.IsWhole) (arg3 : Memref sig .tc .vmem S1024x128 .f32) (harg3 : arg3.IsWhole) (arg4 : Memref sig .tc .vmem S1024x1 .f32) (harg4 : arg4.IsWhole) (hc0 : ¬cond0_0 i)
    (x0 : Vec Ideal S4096x128 .f32) (x1 : Vec Ideal S4096x1 .i32) (xo2 : Vec Ideal S1024x128 .f32) (xo3 : Vec Ideal S1024x1 .f32)
    (g : Fin 1024) (k : Fin 128) :
    out0_B_2 (F := Ideal) c i arg1 harg1 arg2 harg2 arg3 harg3 arg4 harg4 hc0 x0 x1 xo2 xo3 (ix2 g k)
      = xo2 (ix2 g k) + ∑ r : Fin 4096, hot (x1 (ix2 r 0)) (seg g) * x0 (ix2 r k) := by
  unfold out0_B_2
  rw [View.read_writes_eq_canon _ _ _ (cover0_B_2 c i arg1 harg1 arg2 harg2 arg3 harg3 arg4 harg4 hc0 x0 x1 xo2 xo3)]
  refine (View.canon_apply_of_pieces (sumsG x0 x1 xo2) _ ?_ (ix2 g k)
    (cover0_B_2 c i arg1 harg1 arg2 harg2 arg3 harg3 arg4 harg4 hc0 x0 x1 xo2 xo3 (ix2 g k))).trans ?_
  · unfold kernelRun0_B
    dsimp only
    sl_unfold_words
    simp only [View.readAt_eq_ld, harg1.read_unread, harg2.read_unread, harg3.read_unread,
      View.ld_unit_zero (S := S4096x128) hz2, View.ld_unit_zero (S := S4096x1) hz2]
    rw [pay2_eq, pay30_eq, pay27_eq, pay23_eq, pay20_eq, pay17_eq, pay14_eq, pay10_eq]
    refine List.forall_mem_cons.mpr ⟨fun x => chunk_piece x0 x1 xo2 896 (by omega) _ _ rfl x, ?_⟩
    refine List.forall_mem_cons.mpr ⟨fun x => chunk_piece x0 x1 xo2 768 (by omega) _ _ rfl x, ?_⟩
    refine List.forall_mem_cons.mpr ⟨fun x => chunk_piece x0 x1 xo2 640 (by omega) _ _ rfl x, ?_⟩
    refine List.forall_mem_cons.mpr ⟨fun x => chunk_piece x0 x1 xo2 512 (by omega) _ _ rfl x, ?_⟩
    refine List.forall_mem_cons.mpr ⟨fun x => chunk_piece x0 x1 xo2 384 (by omega) _ _ rfl x, ?_⟩
    refine List.forall_mem_cons.mpr ⟨fun x => chunk_piece x0 x1 xo2 256 (by omega) _ _ rfl x, ?_⟩
    refine List.forall_mem_cons.mpr ⟨fun x => chunk_piece x0 x1 xo2 128 (by omega) _ _ rfl x, ?_⟩
    refine List.forall_mem_cons.mpr ⟨fun x => chunk_piece x0 x1 xo2 0 (by omega) _ _ rfl x, ?_⟩
    exact fun _ h => absurd h List.not_mem_nil
  · rfl

/-! ## The first point: the block zeroed, then the chunks -/

/-- The zeroed block. -/
private def zeroBlock : Vec Ideal S1024x128 .f32 := fun _ => (0 : EReal)

private theorem pay4_apply (y : S1024x128.Idx) : k0_pay4 (F := Ideal) y = 0 := by
  show Ideal.ofBits .f32 0x00000000#32 = 0
  exact Ideal.ofBits_zero_f32

/-- A row at or after row o is in no chunk that ends at or before row o. -/
private theorem not_mem_chunk (o' : ℕ) (inb' : ∀ a, (![o', 0] : Fin 2 → ℕ) a + (![128, 128] : Fin 2 → ℕ) a ≤ S1024x128.size a)
    (y : S1024x128.Idx) (h : o' + 128 ≤ (y 0).val) :
    y ∉ (Rect.unit (s := S1024x128) ![o', 0] ![128, 128] inb').set := by
  intro hm
  have h0 := (Rect.mem_set_unit.mp hm) 0
  have e1 : (![o', 0] : Fin 2 → ℕ) 0 = o' := rfl
  have e2 : (![128, 128] : Fin 2 → ℕ) 0 = 128 := rfl
  rw [e1, e2] at h0
  omega

/-- A list of stores: chunks that end at or before row o, the newest first, over the zeroing of the whole block. -/
private inductive ChunksOverZero (o : ℕ) : List (View.Piece (Elt Ideal) S1024x128 .f32) → Prop
  | zero (inbz : ∀ a, (![0, 0] : Fin 2 → ℕ) a + S1024x128.size a ≤ S1024x128.size a) :
      ChunksOverZero o [⟨Rect.unit (s := S1024x128) ![0, 0] S1024x128.size inbz, k0_pay4 (F := Ideal)⟩]
  | cons (o' : ℕ) (inb' : ∀ a, (![o', 0] : Fin 2 → ℕ) a + (![128, 128] : Fin 2 → ℕ) a ≤ S1024x128.size a)
      (w : S128x128.Idx → Ideal .f32) (L : List (View.Piece (Elt Ideal) S1024x128 .f32)) (h : o' + 128 ≤ o) :
      ChunksOverZero o L → ChunksOverZero o (⟨Rect.unit (s := S1024x128) ![o', 0] ![128, 128] inb', w⟩ :: L)

/-- After such stores a row at or after row o still holds zero. -/
private theorem canon_chunksOverZero (o : ℕ) (y : S1024x128.Idx) (hy : o ≤ (y 0).val)
    (L : List (View.Piece (Elt Ideal) S1024x128 .f32)) (hL : ChunksOverZero o L) : View.canon L y = 0 := by
  induction hL with
  | zero inbz =>
    exact (congrFun (View.canon_unit_zero (Val := Elt Ideal) (S := S1024x128) (e := .f32) hz2 inbz (k0_pay4 (F := Ideal))) y).trans
      (pay4_apply y)
  | cons o' inb' w L h _ ih =>
    have hn : y ∉ (Rect.unit (s := S1024x128) ![o', 0] ![128, 128] inb').set := not_mem_chunk o' inb' y (by omega)
    exact (View.canon_cons_of_not_mem (Val := Elt Ideal) (s := S1024x128) (e := .f32)
      ⟨Rect.unit (s := S1024x128) ![o', 0] ![128, 128] inb', w⟩ L hn).trans ih

/-- So a load of rows o … o + 127 after such stores reads zeros. -/
private theorem readCov_chunksOverZero {sig' : RefSig} (vw : View sig' .tc .vmem S1024x128 .f32) (o : ℕ)
    (inb : ∀ a, (![o, 0] : Fin 2 → ℕ) a + (![128, 128] : Fin 2 → ℕ) a ≤ S1024x128.size a)
    (L : List (View.Piece (Elt Ideal) S1024x128 .f32)) (hL : ChunksOverZero o L) :
    vw.readCov L (Rect.unit (s := S1024x128) ![o, 0] ![128, 128] inb).toLoadRect
      = View.ld zeroBlock (Rect.unit (s := S1024x128) ![o, 0] ![128, 128] inb) := by
  rw [View.readCov_eq_canon']
  funext x
  exact canon_chunksOverZero o _ (by show o ≤ o + 1 * (x 0).val; omega) L hL

/-- Eight stores that each hold their rows of one function, over any earlier stores, leave that function wherever one
    of the eight covers. -/
private theorem canon_eight (G : S1024x128.Idx → Elt Ideal .f32) (p7 p6 p5 p4 p3 p2 p1 p0 : View.Piece (Elt Ideal) S1024x128 .f32)
    (L' : List (View.Piece (Elt Ideal) S1024x128 .f32))
    (h : ∀ p ∈ [p7, p6, p5, p4, p3, p2, p1, p0], ∀ x : p.1.shape.Idx, p.2 x = G (p.1.emb x)) (y : S1024x128.Idx)
    (hc : ∃ p ∈ [p7, p6, p5, p4, p3, p2, p1, p0], y ∈ p.1.set) :
    View.canon (p7 :: p6 :: p5 :: p4 :: p3 :: p2 :: p1 :: p0 :: L') y = G y :=
  View.canon_append_of_pieces (Val := Elt Ideal) (S := S1024x128) (e := .f32) G L' [p7, p6, p5, p4, p3, p2, p1, p0] h y hc

/-- The eight chunks cover the block. -/
private theorem cover_chunks (w7 w6 w5 w4 w3 w2 w1 w0 : S128x128.Idx → Ideal .f32) (y : S1024x128.Idx) :
    ∃ p ∈ ([⟨Rect.unit (s := S1024x128) ![896, 0] ![128, 128] inb_S1024x128_S128x128_896_0, w7⟩,
        ⟨Rect.unit (s := S1024x128) ![768, 0] ![128, 128] inb_S1024x128_S128x128_768_0, w6⟩,
        ⟨Rect.unit (s := S1024x128) ![640, 0] ![128, 128] inb_S1024x128_S128x128_640_0, w5⟩,
        ⟨Rect.unit (s := S1024x128) ![512, 0] ![128, 128] inb_S1024x128_S128x128_512_0, w4⟩,
        ⟨Rect.unit (s := S1024x128) ![384, 0] ![128, 128] inb_S1024x128_S128x128_384_0, w3⟩,
        ⟨Rect.unit (s := S1024x128) ![256, 0] ![128, 128] inb_S1024x128_S128x128_256_0, w2⟩,
        ⟨Rect.unit (s := S1024x128) ![128, 0] ![128, 128] inb_S1024x128_S128x128_128_0, w1⟩,
        ⟨Rect.unit (s := S1024x128) ![0, 0] ![128, 128] inb_S1024x128_S128x128_0_0, w0⟩] :
          List (View.Piece (Elt Ideal) S1024x128 .f32)), y ∈ p.1.set :=
  View.cover_of_tiledL (s := S1024x128) _ S128x128.size (by sl_kernel_rfl) y

/-- What the first point leaves in the sums block: for segment g, channel k, the sum over the block's 4096 rows of
    membership times the row's channel k (the block was zeroed first). -/
theorem pieceA (c : Dev nD) (i : grid0.Coords) (arg1 : Memref sig .tc .vmem S4096x128 .f32) (harg1 : arg1.IsWhole) (arg2 : Memref sig .tc .vmem S4096x1 .i32) (harg2 : arg2.IsWhole) (arg3 : Memref sig .tc .vmem S1024x128 .f32) (harg3 : arg3.IsWhole) (arg4 : Memref sig .tc .vmem S1024x1 .f32) (harg4 : arg4.IsWhole) (hc0 : cond0_0 i)
    (x0 : Vec Ideal S4096x128 .f32) (x1 : Vec Ideal S4096x1 .i32) (g : Fin 1024) (k : Fin 128) :
    out0_A_2 (F := Ideal) c i arg1 harg1 arg2 harg2 arg3 harg3 arg4 harg4 hc0 x0 x1 (ix2 g k)
      = ∑ r : Fin 4096, hot (x1 (ix2 r 0)) (seg g) * x0 (ix2 r k) := by
  unfold out0_A_2
  rw [View.read_writes_eq_canon _ _ _ (cover0_A_2 c i arg1 harg1 arg2 harg2 arg3 harg3 arg4 harg4 hc0 x0 x1)]
  unfold kernelRun0_A
  dsimp only
  sl_unfold_words
  simp only [View.readAt_eq_ld, harg1.read_unread, harg2.read_unread,
    View.ld_unit_zero (S := S4096x128) hz2, View.ld_unit_zero (S := S4096x1) hz2]
  refine (canon_eight (sumsG x0 x1 zeroBlock) _ _ _ _ _ _ _ _ _ ?_ (ix2 g k) (cover_chunks _ _ _ _ _ _ _ _ _)).trans ?_
  ·
    refine List.forall_mem_cons.mpr ⟨fun x => (congrFun (pay2_eq x0 x1 _) x).trans
      (chunk_piece x0 x1 zeroBlock 896 (by omega) _ _
        (readCov_chunksOverZero _ 896 _ _ (by repeat (first | exact .zero _ | refine .cons _ _ _ _ (by omega) ?_))) x), ?_⟩
    refine List.forall_mem_cons.mpr ⟨fun x => (congrFun (pay30_eq x0 x1 _) x).trans
      (chunk_piece x0 x1 zeroBlock 768 (by omega) _ _
        (readCov_chunksOverZero _ 768 _ _ (by repeat (first | exact .zero _ | refine .cons _ _ _ _ (by omega) ?_))) x), ?_⟩
    refine List.forall_mem_cons.mpr ⟨fun x => (congrFun (pay27_eq x0 x1 _) x).trans
      (chunk_piece x0 x1 zeroBlock 640 (by omega) _ _
        (readCov_chunksOverZero _ 640 _ _ (by repeat (first | exact .zero _ | refine .cons _ _ _ _ (by omega) ?_))) x), ?_⟩
    refine List.forall_mem_cons.mpr ⟨fun x => (congrFun (pay23_eq x0 x1 _) x).trans
      (chunk_piece x0 x1 zeroBlock 512 (by omega) _ _
        (readCov_chunksOverZero _ 512 _ _ (by repeat (first | exact .zero _ | refine .cons _ _ _ _ (by omega) ?_))) x), ?_⟩
    refine List.forall_mem_cons.mpr ⟨fun x => (congrFun (pay20_eq x0 x1 _) x).trans
      (chunk_piece x0 x1 zeroBlock 384 (by omega) _ _
        (readCov_chunksOverZero _ 384 _ _ (by repeat (first | exact .zero _ | refine .cons _ _ _ _ (by omega) ?_))) x), ?_⟩
    refine List.forall_mem_cons.mpr ⟨fun x => (congrFun (pay17_eq x0 x1 _) x).trans
      (chunk_piece x0 x1 zeroBlock 256 (by omega) _ _
        (readCov_chunksOverZero _ 256 _ _ (by repeat (first | exact .zero _ | refine .cons _ _ _ _ (by omega) ?_))) x), ?_⟩
    refine List.forall_mem_cons.mpr ⟨fun x => (congrFun (pay14_eq x0 x1 _) x).trans
      (chunk_piece x0 x1 zeroBlock 128 (by omega) _ _
        (readCov_chunksOverZero _ 128 _ _ (by repeat (first | exact .zero _ | refine .cons _ _ _ _ (by omega) ?_))) x), ?_⟩
    refine List.forall_mem_cons.mpr ⟨fun x => (congrFun (pay10_eq x0 x1 _) x).trans
      (chunk_piece x0 x1 zeroBlock 0 (by omega) _ _
        (readCov_chunksOverZero _ 0 _ _ (by repeat (first | exact .zero _ | refine .cons _ _ _ _ (by omega) ?_))) x), ?_⟩
    exact fun _ h => absurd h List.not_mem_nil
  · show (0 : EReal) + _ = _
    exact zero_add _

/-! ## The blocks the points see -/

/-- The block of rows point `t` sees. -/
abbrev xblk (c : Dev nD) (t : Fin cfg0.N) : Vec Ideal S4096x128 .f32 := iblk0 V c 0 t
/-- The block of segment ids point `t` sees. -/
abbrev bblk (c : Dev nD) (t : Fin cfg0.N) : Vec Ideal S4096x1 .i32 := iblk0 V c 1 t

/-- The two input windows' block index at point `t` is `(t, 0)`; the sums window's is `(0, 0)` at every point. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0)

/-- Row `r` of the block at point `t` is row `4096 t + r` of the array. -/
theorem xblk_apply (c : Dev nD) (t : Fin cfg0.N) (r : Fin 4096) (k : Fin 128) (h : t.val * 4096 + r.val < 1048576) :
    xblk V c t (ix2 r k) = xIn V c (ix2 ⟨t.val * 4096 + r.val, h⟩ k) := by
  show iblk0 V c 0 t (ix2 r k) = V c main_arg0 (ix2 ⟨t.val * 4096 + r.val, h⟩ k)
  unfold iblk0
  rw [View.read_apply]
  show V c main_arg0 _ = V c main_arg0 _
  congr 1
  funext a
  apply Fin.ext
  match a with
  | ⟨0, _⟩ => show win0_0.index t 0 * 4096 + 1 * r.val = t.val * 4096 + r.val; rw [(idx_facts t).1]; omega
  | ⟨1, _⟩ => show win0_0.index t 1 * 128 + 1 * k.val = k.val; rw [(idx_facts t).2.1]; omega

/-- Row `r` of the ids' block at point `t` is row `4096 t + r` of the ids. -/
theorem bblk_apply (c : Dev nD) (t : Fin cfg0.N) (r : Fin 4096) (h : t.val * 4096 + r.val < 1048576) :
    bblk V c t (ix2 r 0) = bIn V c (ix2 ⟨t.val * 4096 + r.val, h⟩ 0) := by
  show iblk0 V c 1 t (ix2 r 0) = V c main_v0 (ix2 ⟨t.val * 4096 + r.val, h⟩ 0)
  unfold iblk0
  rw [View.read_apply]
  show V c main_v0 _ = V c main_v0 _
  congr 1
  funext a
  apply Fin.ext
  match a with
  | ⟨0, _⟩ => show win0_1.index t 0 * 4096 + 1 * r.val = t.val * 4096 + r.val; rw [(idx_facts t).2.2.1]; omega
  | ⟨1, _⟩ => show win0_1.index t 1 * 1 + 1 * (0 : Fin 1).val = (0 : Fin 1).val; rw [(idx_facts t).2.2.2.1]; rfl

/-! ## The running sums -/

/-- Membership in segment `g` times channel `k`, of the row with number `i` (zero past the last row). -/
def term (c : Dev nD) (g : Fin 1024) (k : Fin 128) (i : ℕ) : EReal :=
  if h : i < 1048576 then hot (bIn V c (ix2 ⟨i, h⟩ 0)) (seg g) * xIn V c (ix2 ⟨i, h⟩ k) else 0

/-- The sum over the rows of the block at point `t` is the sum over the row numbers `4096 t … 4096 t + 4095`. -/
theorem block_sum (c : Dev nD) (t : Fin cfg0.N) (g : Fin 1024) (k : Fin 128) :
    ∑ r : Fin 4096, hot (bblk V c t (ix2 r 0)) (seg g) * xblk V c t (ix2 r k)
      = ∑ r : Fin 4096, term V c g k (t.val * 4096 + r.val) := by
  have hN : t.val < 256 := lt_of_lt_of_eq t.isLt (show cfg0.N = 256 from N_0)
  refine Finset.sum_congr rfl fun r _ => ?_
  have h : t.val * 4096 + r.val < 1048576 := by have := r.isLt; omega
  unfold term
  rw [dif_pos h, xblk_apply V c t r k h, bblk_apply V c t r h]

/-- After point `n` the sums block holds, at segment `g` and channel `k`, the sum over the rows of the blocks
    `0 … n`: the first point starts from zero, every later one adds its block's rows to what the one before left. -/
theorem running (c : Dev nD) (g : Fin 1024) (k : Fin 128) : ∀ (n : ℕ) (hn : n < cfg0.N),
    (outsAt0 V c n hn).1 (ix2 g k) = ∑ t : Fin (n + 1), ∑ r : Fin 4096, term V c g k (t.val * 4096 + r.val)
  | 0, hn => by
    rw [outsAt0_A V c ⟨0, hn⟩ rfl]
    dsimp only
    refine (pieceA c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) ((hcond0_0 ⟨0, hn⟩).mpr rfl)
      (xblk V c ⟨0, hn⟩) (bblk V c ⟨0, hn⟩) g k).trans ?_
    rw [block_sum V c ⟨0, hn⟩ g k, Fin.sum_univ_one]
    rfl
  | n + 1, hn => by
    have hN : cfg0.N = 256 := N_0
    have hB : ¬(⟨n + 1, hn⟩ : Fin cfg0.N).val % 256 = 0 := by dsimp only; omega
    rw [outsAt0_B V c ⟨n + 1, hn⟩ hB]
    dsimp only
    refine (pieceB c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (ms0_3 ⟨n + 1, hn⟩) (hs0_3 ⟨n + 1, hn⟩)
      (fun h => hB ((hcond0_0 ⟨n + 1, hn⟩).mp h)) (xblk V c ⟨n + 1, hn⟩) (bblk V c ⟨n + 1, hn⟩)
      (outsAt0 V c n (Nat.lt_of_succ_lt hn)).1 (outsAt0 V c n (Nat.lt_of_succ_lt hn)).2 g k).trans ?_
    rw [running c g k n (Nat.lt_of_succ_lt hn), block_sum V c ⟨n + 1, hn⟩ g k, Fin.sum_univ_castSucc (n := n + 1)]
    rfl

/-! ## The array after the region -/

/-- Every segment's sum, as contents of the sums array. -/
def allSums (c : Dev nD) : Vec Ideal S1024x128 .f32 :=
  fun j => segSum (fun n k => xIn V c (ix2 n k)) (fun n => bIn V c (ix2 n 0)) (j 0) (j 1)

/-- After the last point the sums block holds every segment's sum: 256 blocks of 4096 rows are all the rows. -/
theorem after_last (c : Dev nD) (n : ℕ) (hn : n < cfg0.N) (e : n = 255) : (outsAt0 V c n hn).1 = allSums V c := by
  funext j
  obtain ⟨g, k, rfl⟩ : ∃ g k, j = ix2 g k := ⟨j 0, j 1, eq_ix2 j⟩
  rw [running V c g k n hn]
  subst e
  rw [Cert.LibSums.sum_blocks 256 4096 (term V c g k)]
  show ∑ i : Fin 1048576, term V c g k i.val = segSum _ _ g k
  unfold segSum
  refine Finset.sum_congr rfl fun i _ => ?_
  unfold term
  rw [dif_pos i.isLt]

/-- The sums window's block is the whole array at every point: what is written back from a staging buffer holding
    `X` is `X` read through the block. -/
theorem cut_eq_read (t : Fin cfg0.N) (X : Vec Ideal S1024x128 .f32) :
    (cfg0.win 2).cut (grid0.coords t) X = ((cfg0.win 2).blk t).view.read (Elt Ideal) X := by
  have hz' : (fun a => win0_2.index t a * main_v3_0.ty.shape.size a) = fun _ => 0 := funext fun a => by
    match a with
    | ⟨0, _⟩ => show win0_2.index t 0 * _ = 0; rw [(idx_facts t).2.2.2.2.1]; exact Nat.zero_mul _
    | ⟨1, _⟩ => show win0_2.index t 1 * _ = 0; rw [(idx_facts t).2.2.2.2.2]; exact Nat.zero_mul _
  exact (Memref.read_access_unit_zero (Elt Ideal) main_v3_0 hz' (fun a => by rw [congrFun hz' a]; simp) X).symm

/-- The one write-back, after the last point, writes every segment's sum. -/
theorem flushed_eq (c : Dev nD) (t : Fin cfg0.N) (hf : (cfg0.win 2).flush t = true) :
    (dat0 V c).flushed 2 t = ((cfg0.win 2).blk t).view.read (Elt Ideal) (allSums V c) := by
  have hN : cfg0.N = 256 := N_0
  have h255 : t.val = 255 := by have := (flush0_2 t).mp hf; have := t.isLt; omega
  show (cfg0.win 2).cut (grid0.coords t) ((dat0 V c).after 2 t) = _
  rw [after0_2, after_last V c t.val t.isLt h255]
  exact cut_eq_read t (allSums V c)

/-- Every index of the sums array is in the sums window's block, at every point. -/
theorem mem_blk (c : Dev nD) (t : Fin cfg0.N) (i : ((cfg0.win 2).arr.view.loc (c.tc : Thread nD τ)).2.ty.Idx) :
    i ∈ ((cfg0.win 2).blk t).view.set := by
  show i ∈ ((View.whole main_v3_0).slice (win0_2.rect t)).set
  rw [View.set_slice_whole, Rect.mem_set_unit]
  intro a
  have h0 : (i 0 : Nat) < 1024 := (i 0).isLt
  have h1 : (i 1 : Nat) < 128 := (i 1).isLt
  match a with
  | ⟨0, _⟩ =>
    show win0_2.index t 0 * 1024 ≤ (i 0 : Nat) ∧ (i 0 : Nat) < win0_2.index t 0 * 1024 + 1024
    rw [(idx_facts t).2.2.2.2.1]; omega
  | ⟨1, _⟩ =>
    show win0_2.index t 1 * 128 ≤ (i 1 : Nat) ∧ (i 1 : Nat) < win0_2.index t 1 * 128 + 128
    rw [(idx_facts t).2.2.2.2.2]; omega

/-- So the sums array ends holding every segment's sum. -/
theorem sums_final (c : Dev nD) : (dat0 V c).arrAt 2 cfg0.N = allSums V c :=
  (dat0 V c).arrAt_eq_of_cover 2 (allSums V c) (flushed_eq V c) fun i =>
    ⟨⟨255, by rw [show cfg0.N = 256 from N_0]; decide⟩, (flush0_2 _).mpr rfl, mem_blk c _ i⟩

/-- After the region the sums array holds every segment's sum. -/
theorem sums_eq (c : Dev nD) (g : Fin 1024) (k : Fin 128) :
    ((dat0 (F := Ideal) V c).arrAt 2 cfg0.N : Vec Ideal S1024x128 .f32) (ix2 g k)
      = segSum (fun n k => xIn V c (ix2 n k)) (fun n => bIn V c (ix2 n 0)) g k := by
  refine (congrFun (sums_final V c) (ix2 g k)).trans ?_
  show allSums V c (ix2 g k) = _
  unfold allSums
  rfl

end Cert.KernelIdeal.SumsValue

end
-- ==== Proof.KCounts.lean ====
/-
  The first region: the segments' counts.

  The grid has 256 points; point `t` sees rows `4096 t … 4096 t + 4095` and their segment ids. The two output blocks
  are the whole arrays at every point: the first point zeroes them, every point adds, for each of the 1024 segments, the
  rows of its block that carry the segment's id (and their number), and the arrays are written back once, after the last
  point. So after the region the sums array holds, at segment `g` and channel `k`, the sum over ALL rows with id `g` of
  channel `k`, and the counts array their number: 256 blocks of 4096 rows are all 1048576 rows.
-/
import proofs.«410003_j3539053052006_1_alg».proof.Proof.Gen.KernelIdeal.Frame
import proofs.«410003_j3539053052006_1_alg».proof.Proof.Spec
import proofs.«410003_j3539053052006_1_alg».proof.Proof.LibSums
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.StableHlo.Predicate

set_option maxRecDepth 16384

noncomputable section

namespace Cert.KernelIdeal.CountsValue

open Cert.KernelIdeal Cert.KernelIdeal.Gen Cert.SegGate
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The rows' segment ids as the region finds them (one column). -/
abbrev bIn (c : Dev nD) : Vec Ideal S1048576x1 .i32 := V c main_v0

/-! ## What one point leaves in the counts block

The body makes, for each of the 8 chunks of 128 segments, one update of rows `128 c … 128 c + 127` of the block: it adds
to them the column sums of the chunk's membership matrix (entry `(r, j)` is one when row `r`'s id word is the word of
segment `128 c + j`), computed as a product with a column of ones that contracts the 4096 rows. -/

/-- A widened bit read as a signed integer, as an extended real: one when the bit is set, zero otherwise. -/
private theorem bit_val (b : BitVec 1) : (((b.setWidth 32).toInt : ℝ) : EReal) = if b = 1#1 then 1 else 0 := by
  rcases BitVec.eq_zero_or_eq_one b with rfl | rfl
  · simp
  · simp

/-- The membership matrix of one chunk of 128 segments: row `r`, column `j` is one when row `r`'s id word is the word
    `j + off`, zero otherwise. -/
private theorem onehot_apply (off : BitVec 32) (v6 : IVec S4096x1 32) (r : Fin 4096) (j : Fin 128) :
    (sitofp .f32 (extui 32 (cmpi .eq (broadcastTo S4096x128 v6 broadcasts_S4096x1_S4096x128)
        (addi (iota .tc S4096x128 32 [1] iota_S4096x128_d1_w32) (broadcast S4096x128 off))) natLt_1_32) : FVec Ideal S4096x128 .f32) (ix2 r j)
      = hot (v6 (ix2 r 0)) (BitVec.ofNat 32 j.val + off) := by
  rw [sitofp_apply, extui_apply]
  show ((((IntOp.cmpi .eq (broadcastTo S4096x128 v6 broadcasts_S4096x1_S4096x128 (ix2 r j))
      (IntOp.addi (iota .tc S4096x128 32 [1] iota_S4096x128_d1_w32 (ix2 r j)) off)).setWidth 32).toInt : ℝ) : EReal) = _
  rw [bit_val, broadcastTo_apply v6 broadcasts_S4096x1_S4096x128 (ix2 r j) (ix2 r 0) (fun a => match a with
      | ⟨0, _⟩ => rfl
      | ⟨1, _⟩ => rfl), iota_single_apply]
  unfold hot
  simp only [StableHlo.Predicate.cmpi_eq_iff]
  rfl

/-- The word of column `j` of the chunk that starts at segment `o`. -/
private theorem word_add (j : Fin 128) (o : ℕ) : BitVec.ofNat 32 j.val + BitVec.ofNat 32 o = BitVec.ofNat 32 (o + j.val) := by
  apply BitVec.eq_of_toNat_eq
  simp only [BitVec.toNat_add, BitVec.toNat_ofNat]
  omega

/-! The count product contracts the rows (axis 0 of both operands): its four operand coordinates. -/

private theorem cnt_lhs_0 (i : S128x1.Idx) (q : dot_S4096x128_S4096x1_S128x1_0_0_1_1_n_n.contr.Idx) :
    (dot_S4096x128_S4096x1_S128x1_0_0_1_1_n_n.lhsIdx i q 0).val = (q ⟨0, by decide⟩).val :=
  dot_S4096x128_S4096x1_S128x1_0_0_1_1_n_n.lhsIdx_val_of_single rfl i q
private theorem cnt_lhs_1 (i : S128x1.Idx) (q : dot_S4096x128_S4096x1_S128x1_0_0_1_1_n_n.contr.Idx) :
    (dot_S4096x128_S4096x1_S128x1_0_0_1_1_n_n.lhsIdx i q 1).val = (i 0).val := by
  unfold DotDims.lhsIdx
  rw [dif_neg (show ¬(1 : Fin S4096x128.rank) ∈ dot_S4096x128_S4096x1_S128x1_0_0_1_1_n_n.lhsBatch by decide), dif_pos (show (1 : Fin S4096x128.rank) ∈ dot_S4096x128_S4096x1_S128x1_0_0_1_1_n_n.lhsNonContracting by decide)]
  rfl
private theorem cnt_rhs_0 (i : S128x1.Idx) (q : dot_S4096x128_S4096x1_S128x1_0_0_1_1_n_n.contr.Idx) :
    (dot_S4096x128_S4096x1_S128x1_0_0_1_1_n_n.rhsIdx i q 0).val = (q ⟨0, by decide⟩).val :=
  dot_S4096x128_S4096x1_S128x1_0_0_1_1_n_n.rhsIdx_val_of_single rfl i q
private theorem cnt_rhs_1 (i : S128x1.Idx) (q : dot_S4096x128_S4096x1_S128x1_0_0_1_1_n_n.contr.Idx) :
    (dot_S4096x128_S4096x1_S128x1_0_0_1_1_n_n.rhsIdx i q 1).val = (i 1).val := by
  unfold DotDims.rhsIdx
  rw [dif_neg (show ¬(1 : Fin S4096x1.rank) ∈ dot_S4096x128_S4096x1_S128x1_0_0_1_1_n_n.rhsBatch by decide), dif_pos (show (1 : Fin S4096x1.rank) ∈ dot_S4096x128_S4096x1_S128x1_0_0_1_1_n_n.rhsNonContracting by decide)]
  rfl

/-- The count product into a zero accumulator, at column `j`: the sum over the block's rows of membership times the
    right operand's entry. -/
private theorem cnt_matmul (A : FVec Ideal S4096x128 .bf16) (B : FVec Ideal S4096x1 .bf16) (j : Fin 128) :
    matmul dot_S4096x128_S4096x1_S128x1_0_0_1_1_n_n none A B (constant S128x1 .f32 0x00000000#32) (ix2 j 0)
      = ∑ r : Fin 4096, A (ix2 r j) * B (ix2 r 0) := by
  show FloatOps.matmul dot_S4096x128_S4096x1_S128x1_0_0_1_1_n_n none A B (constant S128x1 .f32 0x00000000#32) (ix2 j 0) = _
  rw [Ideal.matmul_constant_zero_apply, ← Equiv.sum_comp (ValueIdx.contrEquiv1 dot_S4096x128_S4096x1_S128x1_0_0_1_1_n_n 4096 rfl rfl).symm]
  refine Finset.sum_congr rfl fun k _ => ?_
  have hk := ValueIdx.contrEquiv1_symm_val dot_S4096x128_S4096x1_S128x1_0_0_1_1_n_n 4096 rfl rfl k
  have el : dot_S4096x128_S4096x1_S128x1_0_0_1_1_n_n.lhsIdx (ix2 j 0) ((ValueIdx.contrEquiv1 dot_S4096x128_S4096x1_S128x1_0_0_1_1_n_n 4096 rfl rfl).symm k) = ix2 k j := funext fun a => Fin.ext (by
    match a with
    | ⟨0, _⟩ => exact (cnt_lhs_0 _ _).trans hk
    | ⟨1, _⟩ => exact cnt_lhs_1 _ _)
  have er : dot_S4096x128_S4096x1_S128x1_0_0_1_1_n_n.rhsIdx (ix2 j 0) ((ValueIdx.contrEquiv1 dot_S4096x128_S4096x1_S128x1_0_0_1_1_n_n 4096 rfl rfl).symm k) = ix2 k 0 := funext fun a => Fin.ext (by
    match a with
    | ⟨0, _⟩ => exact (cnt_rhs_0 _ _).trans hk
    | ⟨1, _⟩ => exact cnt_rhs_1 _ _)
  rw [el, er]

/-- One chunk's update of the counts at column `j`: what was there plus the sum down the rows of the membership matrix
    (the right operand is the column of ones). -/
private theorem chunk_apply (oh : FVec Ideal S4096x128 .bf16) (acc : FVec Ideal S128x1 .f32) (v : Vec Ideal S128x1 .f32) (j : Fin 128)
    (hacc : acc = constant S128x1 .f32 0x00000000#32) :
    addf (shapeCast S128x1 v shapeCasts_S128x1_S128x1)
        (matmul dot_S4096x128_S4096x1_S128x1_0_0_1_1_n_n none oh (k0_pay8 (F := Ideal)) acc) (ix2 j 0)
      = v (ix2 j 0) + ∑ r : Fin 4096, oh (ix2 r j) := by
  subst hacc
  rw [addf_apply, shapeCast_self, cnt_matmul]
  refine congrArg (v (ix2 j 0) + ·) (Finset.sum_congr rfl fun r _ => ?_)
  show oh (ix2 r j) * Ideal.ofBits .bf16 0x3F80#16 = _
  rw [Ideal.ofBits_one_bf16, mul_one]

/-- The counts block after a point, as one function of the block's index: what the block held before, plus the number
    of the point's 4096 rows whose id is the index's segment. -/
private def cnt (x1 : Vec Ideal S4096x1 .i32) (xo3 : Vec Ideal S1024x1 .f32) : Vec Ideal S1024x1 .f32 :=
  fun y => xo3 y + ∑ r : Fin 4096, hot (x1 (ix2 r 0)) (BitVec.ofNat 32 (y 0).val)

private theorem hz2 : (![0, 0] : Fin 2 → Nat) = fun _ => 0 := funext fun a => by fin_cases a <;> rfl

/-! The eight chunks' updates, one per store of the counts block: chunk `c` holds segments `128 c … 128 c + 127`. -/

private theorem piece0 (v5 : Vec Ideal S4096x1 .i32) (v : Vec Ideal S128x1 .f32) (j : Fin 128) :
    k0_pay11 (F := Ideal) v5 v (ix2 j 0)
      = v (ix2 j 0) + ∑ r : Fin 4096, hot (k0_pay7 (F := Ideal) v5 (ix2 r 0)) (BitVec.ofNat 32 (0 + j.val)) := by
  unfold k0_pay11
  refine (chunk_apply _ _ v j rfl).trans ?_
  refine congrArg (v (ix2 j 0) + ·) (Finset.sum_congr rfl fun r _ => ?_)
  unfold k0_pay9
  exact (onehot_apply 0#32 (k0_pay7 (F := Ideal) v5) r j).trans (congrArg (hot _) (word_add j 0))

private theorem piece1 (v5 : Vec Ideal S4096x1 .i32) (v : Vec Ideal S128x1 .f32) (j : Fin 128) :
    k0_pay15 (F := Ideal) k0_pay8 (k0_pay12 v5) (constant S128x1 .f32 0#32) v (ix2 j 0)
      = v (ix2 j 0) + ∑ r : Fin 4096, hot (k0_pay7 (F := Ideal) v5 (ix2 r 0)) (BitVec.ofNat 32 (128 + j.val)) := by
  unfold k0_pay15
  refine (chunk_apply _ _ v j rfl).trans ?_
  refine congrArg (v (ix2 j 0) + ·) (Finset.sum_congr rfl fun r _ => ?_)
  unfold k0_pay12
  exact (onehot_apply 128#32 (k0_pay7 (F := Ideal) v5) r j).trans (congrArg (hot _) (word_add j 128))

private theorem piece2 (v6 : IVec S4096x1 32) (v : Vec Ideal S128x1 .f32) (j : Fin 128) :
    k0_pay18 (F := Ideal) v6 k0_pay8 v (ix2 j 0)
      = v (ix2 j 0) + ∑ r : Fin 4096, hot (v6 (ix2 r 0)) (BitVec.ofNat 32 (256 + j.val)) := by
  unfold k0_pay18
  refine (chunk_apply _ _ v j rfl).trans ?_
  refine congrArg (v (ix2 j 0) + ·) (Finset.sum_congr rfl fun r _ => ?_)
  unfold k0_pay16
  exact (onehot_apply 256#32 v6 r j).trans (congrArg (hot _) (word_add j 256))

private theorem piece3 (v6 : IVec S4096x1 32) (v : Vec Ideal S128x1 .f32) (j : Fin 128) :
    k0_pay21 (F := Ideal) k0_pay8 (k0_pay19 v6) v (ix2 j 0)
      = v (ix2 j 0) + ∑ r : Fin 4096, hot (v6 (ix2 r 0)) (BitVec.ofNat 32 (384 + j.val)) := by
  unfold k0_pay21
  refine (chunk_apply _ _ v j rfl).trans ?_
  refine congrArg (v (ix2 j 0) + ·) (Finset.sum_congr rfl fun r _ => ?_)
  unfold k0_pay19
  exact (onehot_apply 384#32 v6 r j).trans (congrArg (hot _) (word_add j 384))

private theorem piece4 (v6 : IVec S4096x1 32) (v : Vec Ideal S128x1 .f32) (j : Fin 128) :
    k0_pay24 (F := Ideal) v6 k0_pay8 v (ix2 j 0)
      = v (ix2 j 0) + ∑ r : Fin 4096, hot (v6 (ix2 r 0)) (BitVec.ofNat 32 (512 + j.val)) := by
  unfold k0_pay24
  refine (chunk_apply _ _ v j rfl).trans ?_
  refine congrArg (v (ix2 j 0) + ·) (Finset.sum_congr rfl fun r _ => ?_)
  unfold k0_pay22
  exact (onehot_apply 512#32 v6 r j).trans (congrArg (hot _) (word_add j 512))

private theorem piece5 (v6 : IVec S4096x1 32) (v : Vec Ideal S128x1 .f32) (j : Fin 128) :
    k0_pay28 (F := Ideal) k0_pay8 (k0_pay25 v6) v (ix2 j 0)
      = v (ix2 j 0) + ∑ r : Fin 4096, hot (v6 (ix2 r 0)) (BitVec.ofNat 32 (640 + j.val)) := by
  unfold k0_pay28
  refine (chunk_apply _ _ v j rfl).trans ?_
  refine congrArg (v (ix2 j 0) + ·) (Finset.sum_congr rfl fun r _ => ?_)
  unfold k0_pay26 k0_pay25
  exact (onehot_apply 640#32 v6 r j).trans (congrArg (hot _) (word_add j 640))

private theorem piece6 (v6 : IVec S4096x1 32) (v : Vec Ideal S128x1 .f32) (j : Fin 128) :
    k0_pay31 (F := Ideal) v6 k0_pay8 v (ix2 j 0)
      = v (ix2 j 0) + ∑ r : Fin 4096, hot (v6 (ix2 r 0)) (BitVec.ofNat 32 (768 + j.val)) := by
  unfold k0_pay31
  refine (chunk_apply _ _ v j rfl).trans ?_
  refine congrArg (v (ix2 j 0) + ·) (Finset.sum_congr rfl fun r _ => ?_)
  unfold k0_pay29
  exact (onehot_apply 768#32 v6 r j).trans (congrArg (hot _) (word_add j 768))

private theorem piece7 (v6 : IVec S4096x1 32) (v : Vec Ideal S128x1 .f32) (j : Fin 128) :
    k0_pay3 (F := Ideal) k0_pay8 (k0_pay32 v6) v (ix2 j 0)
      = v (ix2 j 0) + ∑ r : Fin 4096, hot (v6 (ix2 r 0)) (BitVec.ofNat 32 (896 + j.val)) := by
  unfold k0_pay3
  refine (chunk_apply _ _ v j rfl).trans ?_
  refine congrArg (v (ix2 j 0) + ·) (Finset.sum_congr rfl fun r _ => ?_)
  unfold k0_pay1 k0_pay32
  exact (onehot_apply 896#32 v6 r j).trans (congrArg (hot _) (word_add j 896))

/-- The id column a point loads (through the whole staging buffer, then a shape cast to the same shape) is the point's
    block of ids. -/
private theorem v6_eq (arg2 : Memref sig .tc .vmem S4096x1 .i32) (harg2 : arg2.IsWhole) (x1 : Vec Ideal S4096x1 .i32)
    (inb0 : ∀ a, (![0, 0] : Fin 2 → ℕ) a + S4096x1.size a ≤ S4096x1.size a) :
    k0_pay7 (F := Ideal) (View.readAt (Elt Ideal) arg2.view (Rect.unit (s := S4096x1) ![0, 0] S4096x1.size inb0).toLoadRect (harg2.unread x1)) = x1 := by
  unfold k0_pay7
  rw [shapeCast_self, View.readAt_eq_ld, harg2.read_unread, View.ld_unit_zero (S := S4096x1) hz2]

/-- A chunk's update read where it is stored: the loaded slice of the block is the block at rows `o … o + 127`, the
    loaded id column is the point's id column, so the stored value at row `j` of the slice is `cnt` at row `o + j`. -/
private theorem chunk_close (arg4 : Memref sig .tc .vmem S1024x1 .f32) (harg4 : arg4.IsWhole) (v6 : IVec S4096x1 32)
    (x1 : Vec Ideal S4096x1 .i32) (xo3 : Vec Ideal S1024x1 .f32) (hv6 : v6 = x1) (o : ℕ)
    (inb : ∀ a, (![o, 0] : Fin 2 → ℕ) a + S128x1.size a ≤ S1024x1.size a) (j : Fin 128) :
    View.readAt (Elt Ideal) arg4.view (Rect.unit (s := S1024x1) ![o, 0] S128x1.size inb).toLoadRect (harg4.unread xo3) (ix2 j 0)
      + ∑ r : Fin 4096, hot (v6 (ix2 r 0)) (BitVec.ofNat 32 (o + j.val))
    = cnt x1 xo3 ((Rect.unit (s := S1024x1) ![o, 0] S128x1.size inb).emb (ix2 j 0)) := by
  subst hv6
  rw [View.readAt_eq_ld, harg4.read_unread]
  unfold cnt
  show xo3 ((Rect.unit (s := S1024x1) ![o, 0] S128x1.size inb).emb (ix2 j 0)) + _ = _
  refine congrArg (xo3 _ + ·) (Finset.sum_congr rfl fun r _ => congrArg (hot _) (congrArg (BitVec.ofNat 32) ?_))
  show o + j.val = o + 1 * j.val
  omega

/-! The first point. It zeroes the block, then makes the same eight updates; each update loads its slice after the
    stores before it, and those have not touched the slice's rows, so it loads zeros. -/

/-- The number of a point's 4096 rows whose id is the segment of row `y` of the counts block. -/
private def cntZ (x1 : Vec Ideal S4096x1 .i32) (y : S1024x1.Idx) : EReal :=
  ∑ r : Fin 4096, hot (x1 (ix2 r 0)) (BitVec.ofNat 32 (y 0).val)

/-- After the zero store alone every row of the block is zero. -/
private theorem zeroed (x1 : Vec Ideal S4096x1 .i32) (y : S1024x1.Idx) :
    View.canon (kernelRun0_A.sl.H3_1 (F := Ideal)) y = if (y 0).val < 0 then cntZ x1 y else 0 := by
  unfold kernelRun0_A.sl.H3_1
  rw [View.canon_unit_zero hz2, if_neg (Nat.not_lt_zero _)]
  unfold k0_pay5
  exact Ideal.ofBits_zero_f32

/-- One more chunk stored. If the stores so far (`L`) leave the rows below `o` at their numbers and the rows from `o` on
    at zero, then the store of chunk `o … o + 127`, whose update adds the chunk's numbers to the slice it loads after
    `L`, leaves the rows below `o + 128` at their numbers and the rest at zero. -/
private theorem stepA (arg4 : Memref sig .tc .vmem S1024x1 .f32) (x1 : Vec Ideal S4096x1 .i32) (o : ℕ)
    (inb : ∀ a, (![o, 0] : Fin 2 → ℕ) a + S128x1.size a ≤ S1024x1.size a)
    (L : List (View.Piece (Elt Ideal) S1024x1 .f32))
    (pay : Vec Ideal S128x1 .f32 → FVec Ideal S128x1 .f32) (v6 : IVec S4096x1 32) (hv6 : v6 = x1)
    (hpay : ∀ (v : Vec Ideal S128x1 .f32) (j : Fin 128),
      pay v (ix2 j 0) = v (ix2 j 0) + ∑ r : Fin 4096, hot (v6 (ix2 r 0)) (BitVec.ofNat 32 (o + j.val)))
    (hL : ∀ y : S1024x1.Idx, View.canon L y = if (y 0).val < o then cntZ x1 y else 0) (y : S1024x1.Idx) :
    View.canon (⟨Rect.unit (s := S1024x1) ![o, 0] S128x1.size inb,
        pay (arg4.view.readCov L (Rect.unit (s := S1024x1) ![o, 0] S128x1.size inb).toLoadRect)⟩ :: L) y
      = if (y 0).val < o + 128 then cntZ x1 y else 0 := by
  subst hv6
  have hy1 : (y 1).val < 1 := (y 1).isLt
  by_cases h : o ≤ (y 0).val ∧ (y 0).val < o + 128
  · obtain ⟨j, rfl⟩ : ∃ j : Fin 128, y = (Rect.unit (s := S1024x1) ![o, 0] S128x1.size inb).emb (ix2 j 0) := by
      refine ⟨⟨(y 0).val - o, by omega⟩, funext fun a => Fin.ext ?_⟩
      match a with
      | ⟨0, _⟩ => show (y 0).val = o + 1 * ((y 0).val - o); omega
      | ⟨1, _⟩ => show (y 1).val = 0 + 1 * 0; omega
    rw [View.canon_cons_emb, hpay, View.readCov_eq_canon']
    have hz : View.canon L ((Rect.unit (s := S1024x1) ![o, 0] S128x1.size inb).toLoadRect.idx (ix2 j 0)) = 0 :=
      (hL _).trans (if_neg (by show ¬ (o + 1 * j.val < o); omega))
    have hlt : ((Rect.unit (s := S1024x1) ![o, 0] S128x1.size inb).emb (ix2 j 0) 0).val < o + 128 := by
      show o + 1 * j.val < o + 128
      have := j.isLt
      omega
    rw [if_pos hlt]
    show View.canon L _ + _ = _
    rw [hz, zero_add]
    unfold cntZ
    refine Finset.sum_congr rfl fun r _ => congrArg (hot _) (congrArg (BitVec.ofNat 32) ?_)
    show o + j.val = o + 1 * j.val
    omega
  · refine (View.canon_cons_of_not_mem ⟨Rect.unit (s := S1024x1) ![o, 0] S128x1.size inb, _⟩ L ?_).trans ?_
    · show y ∉ (Rect.unit (s := S1024x1) ![o, 0] S128x1.size inb).set
      rw [Rect.mem_set_unit]
      intro hm
      exact h (hm 0)
    · rw [hL]
      by_cases h2 : (y 0).val < o
      · rw [if_pos h2, if_pos (by omega)]
      · rw [if_neg h2, if_neg (by omega)]

/-- What the first point leaves in the counts block: for segment `g` the number of the block's 4096 rows with that id
    (the block was zeroed first). -/
theorem pieceA (c : Dev nD) (i : grid0.Coords) (arg1 : Memref sig .tc .vmem S4096x128 .f32) (harg1 : arg1.IsWhole) (arg2 : Memref sig .tc .vmem S4096x1 .i32) (harg2 : arg2.IsWhole) (arg3 : Memref sig .tc .vmem S1024x128 .f32) (harg3 : arg3.IsWhole) (arg4 : Memref sig .tc .vmem S1024x1 .f32) (harg4 : arg4.IsWhole) (hc0 : cond0_0 i)
    (x0 : Vec Ideal S4096x128 .f32) (x1 : Vec Ideal S4096x1 .i32) (g : Fin 1024) :
    out0_A_3 (F := Ideal) c i arg1 harg1 arg2 harg2 arg3 harg3 arg4 harg4 hc0 x0 x1 (ix2 g 0)
      = ∑ r : Fin 4096, hot (x1 (ix2 r 0)) (seg g) := by
  unfold out0_A_3
  rw [View.read_writes_eq_canon _ _ _ (cover0_A_3 c i arg1 harg1 arg2 harg2 arg3 harg3 arg4 harg4 hc0 x0 x1)]
  unfold kernelRun0_A
  dsimp only
  have e := v6_eq arg2 harg2 x1 inb_S4096x1_S4096x1_0_0
  have s1 := stepA arg4 x1 0 inb_S1024x1_S128x1_0_0 (kernelRun0_A.sl.H3_1 (F := Ideal))
    (fun v => k0_pay11 (F := Ideal) (View.readAt (Elt Ideal) arg2.view (Rect.unit (s := S4096x1) ![0, 0] S4096x1.size inb_S4096x1_S4096x1_0_0).toLoadRect (harg2.unread x1)) v)
    _ e (piece0 _) (zeroed x1)
  have s2 := stepA arg4 x1 128 inb_S1024x1_S128x1_128_0 (kernelRun0_A.sl.H3_2 (F := Ideal) c arg2 harg2 arg4 x1)
    (fun v => k0_pay15 (F := Ideal) k0_pay8 (kernelRun0_A.sl.r_2 c arg2 harg2 x1) kernelRun0_A.sl.cst_16 v)
    _ e (piece1 _) s1
  have s3 := stepA arg4 x1 256 inb_S1024x1_S128x1_256_0 (kernelRun0_A.sl.H3_3 (F := Ideal) c arg2 harg2 arg4 x1)
    (fun v => k0_pay18 (F := Ideal) (kernelRun0_A.sl.r_1 c arg2 harg2 x1) k0_pay8 v)
    _ e (piece2 _) s2
  have s4 := stepA arg4 x1 384 inb_S1024x1_S128x1_384_0 (kernelRun0_A.sl.H3_4 (F := Ideal) c arg2 harg2 arg4 x1)
    (fun v => k0_pay21 (F := Ideal) k0_pay8 (kernelRun0_A.sl.r_4 c arg2 harg2 x1) v)
    _ e (piece3 _) s3
  have s5 := stepA arg4 x1 512 inb_S1024x1_S128x1_512_0 (kernelRun0_A.sl.H3_5 (F := Ideal) c arg2 harg2 arg4 x1)
    (fun v => k0_pay24 (F := Ideal) (kernelRun0_A.sl.r_1 c arg2 harg2 x1) k0_pay8 v)
    _ e (piece4 _) s4
  have s6 := stepA arg4 x1 640 inb_S1024x1_S128x1_640_0 (kernelRun0_A.sl.H3_6 (F := Ideal) c arg2 harg2 arg4 x1)
    (fun v => k0_pay28 (F := Ideal) k0_pay8 (kernelRun0_A.sl.r_5 c arg2 harg2 x1) v)
    _ e (piece5 _) s5
  have s7 := stepA arg4 x1 768 inb_S1024x1_S128x1_768_0 (kernelRun0_A.sl.H3_7 (F := Ideal) c arg2 harg2 arg4 x1)
    (fun v => k0_pay31 (F := Ideal) (kernelRun0_A.sl.r_1 c arg2 harg2 x1) k0_pay8 v)
    _ e (piece6 _) s6
  have s8 := stepA arg4 x1 896 inb_S1024x1_S128x1_896_0 (kernelRun0_A.sl.H3_8 (F := Ideal) c arg2 harg2 arg4 x1)
    (fun v => k0_pay3 (F := Ideal) k0_pay8 (kernelRun0_A.sl.r_6 c arg2 harg2 x1) v)
    _ e (piece7 _) s7
  refine (s8 (ix2 g 0)).trans ?_
  rw [if_pos (show ((ix2 g (0 : Fin 1) : S1024x1.Idx) 0).val < 896 + 128 from g.isLt)]
  rfl

/-- What a later point leaves in the counts block: what the point before left, plus this block's number. -/
theorem pieceB (c : Dev nD) (i : grid0.Coords) (arg1 : Memref sig .tc .vmem S4096x128 .f32) (harg1 : arg1.IsWhole) (arg2 : Memref sig .tc .vmem S4096x1 .i32) (harg2 : arg2.IsWhole) (arg3 : Memref sig .tc .vmem S1024x128 .f32) (harg3 : arg3.IsWhole) (arg4 : Memref sig .tc .vmem S1024x1 .f32) (harg4 : arg4.IsWhole) (hc0 : ¬cond0_0 i)
    (x0 : Vec Ideal S4096x128 .f32) (x1 : Vec Ideal S4096x1 .i32) (xo2 : Vec Ideal S1024x128 .f32) (xo3 : Vec Ideal S1024x1 .f32)
    (g : Fin 1024) :
    out0_B_3 (F := Ideal) c i arg1 harg1 arg2 harg2 arg3 harg3 arg4 harg4 hc0 x0 x1 xo2 xo3 (ix2 g 0)
      = xo3 (ix2 g 0) + ∑ r : Fin 4096, hot (x1 (ix2 r 0)) (seg g) := by
  unfold out0_B_3
  rw [View.read_writes_eq_canon _ _ _ (cover0_B_3 c i arg1 harg1 arg2 harg2 arg3 harg3 arg4 harg4 hc0 x0 x1 xo2 xo3)]
  refine View.canon_apply_of_pieces (cnt x1 xo3) _ ?_ (ix2 g 0) (cover0_B_3 c i arg1 harg1 arg2 harg2 arg3 harg3 arg4 harg4 hc0 x0 x1 xo2 xo3 (ix2 g 0))
  unfold kernelRun0_B
  dsimp only
  sl_unfold_words
  refine List.forall_mem_cons.mpr ⟨?_, List.forall_mem_cons.mpr ⟨?_, List.forall_mem_cons.mpr ⟨?_, List.forall_mem_cons.mpr ⟨?_,
    List.forall_mem_cons.mpr ⟨?_, List.forall_mem_cons.mpr ⟨?_, List.forall_mem_cons.mpr ⟨?_, List.forall_mem_cons.mpr ⟨?_, fun _ h => nomatch h⟩⟩⟩⟩⟩⟩⟩⟩
  · intro x
    obtain ⟨j, q, rfl⟩ : ∃ (j : Fin 128) (q : Fin 1), x = ix2 j q := ⟨x 0, x 1, eq_ix2 x⟩
    obtain rfl : q = 0 := Subsingleton.elim _ _
    exact (piece7 _ _ j).trans (chunk_close arg4 harg4 _ x1 xo3 (v6_eq arg2 harg2 x1 _) 896 _ j)
  · intro x
    obtain ⟨j, q, rfl⟩ : ∃ (j : Fin 128) (q : Fin 1), x = ix2 j q := ⟨x 0, x 1, eq_ix2 x⟩
    obtain rfl : q = 0 := Subsingleton.elim _ _
    exact (piece6 _ _ j).trans (chunk_close arg4 harg4 _ x1 xo3 (v6_eq arg2 harg2 x1 _) 768 _ j)
  · intro x
    obtain ⟨j, q, rfl⟩ : ∃ (j : Fin 128) (q : Fin 1), x = ix2 j q := ⟨x 0, x 1, eq_ix2 x⟩
    obtain rfl : q = 0 := Subsingleton.elim _ _
    exact (piece5 _ _ j).trans (chunk_close arg4 harg4 _ x1 xo3 (v6_eq arg2 harg2 x1 _) 640 _ j)
  · intro x
    obtain ⟨j, q, rfl⟩ : ∃ (j : Fin 128) (q : Fin 1), x = ix2 j q := ⟨x 0, x 1, eq_ix2 x⟩
    obtain rfl : q = 0 := Subsingleton.elim _ _
    exact (piece4 _ _ j).trans (chunk_close arg4 harg4 _ x1 xo3 (v6_eq arg2 harg2 x1 _) 512 _ j)
  · intro x
    obtain ⟨j, q, rfl⟩ : ∃ (j : Fin 128) (q : Fin 1), x = ix2 j q := ⟨x 0, x 1, eq_ix2 x⟩
    obtain rfl : q = 0 := Subsingleton.elim _ _
    exact (piece3 _ _ j).trans (chunk_close arg4 harg4 _ x1 xo3 (v6_eq arg2 harg2 x1 _) 384 _ j)
  · intro x
    obtain ⟨j, q, rfl⟩ : ∃ (j : Fin 128) (q : Fin 1), x = ix2 j q := ⟨x 0, x 1, eq_ix2 x⟩
    obtain rfl : q = 0 := Subsingleton.elim _ _
    exact (piece2 _ _ j).trans (chunk_close arg4 harg4 _ x1 xo3 (v6_eq arg2 harg2 x1 _) 256 _ j)
  · intro x
    obtain ⟨j, q, rfl⟩ : ∃ (j : Fin 128) (q : Fin 1), x = ix2 j q := ⟨x 0, x 1, eq_ix2 x⟩
    obtain rfl : q = 0 := Subsingleton.elim _ _
    exact (piece1 _ _ j).trans (chunk_close arg4 harg4 _ x1 xo3 (v6_eq arg2 harg2 x1 _) 128 _ j)
  · intro x
    obtain ⟨j, q, rfl⟩ : ∃ (j : Fin 128) (q : Fin 1), x = ix2 j q := ⟨x 0, x 1, eq_ix2 x⟩
    obtain rfl : q = 0 := Subsingleton.elim _ _
    exact (piece0 _ _ j).trans (chunk_close arg4 harg4 _ x1 xo3 (v6_eq arg2 harg2 x1 _) 0 _ j)

/-! ## The blocks the points see -/

/-- The block of rows point `t` sees (the counts do not read it). -/
abbrev xblk (c : Dev nD) (t : Fin cfg0.N) : Vec Ideal S4096x128 .f32 := iblk0 V c 0 t
/-- The block of segment ids point `t` sees. -/
abbrev bblk (c : Dev nD) (t : Fin cfg0.N) : Vec Ideal S4096x1 .i32 := iblk0 V c 1 t

/-- The ids window's block index at point `t` is `(t, 0)`; the counts window's is `(0, 0)` at every point. -/
theorem idx_facts : ∀ t : Fin cfg0.N, win0_1.index t (0 : Fin 2) = t.val ∧ win0_1.index t (1 : Fin 2) = 0
    ∧ win0_3.index t (0 : Fin 2) = 0 ∧ win0_3.index t (1 : Fin 2) = 0 :=
  (by decide +kernel : ∀ t : Fin grid0.N, win0_1.index t (0 : Fin 2) = t.val ∧ win0_1.index t (1 : Fin 2) = 0
    ∧ win0_3.index t (0 : Fin 2) = 0 ∧ win0_3.index t (1 : Fin 2) = 0)

/-- Row `r` of the ids' block at point `t` is row `4096 t + r` of the ids. -/
theorem bblk_apply (c : Dev nD) (t : Fin cfg0.N) (r : Fin 4096) (h : t.val * 4096 + r.val < 1048576) :
    bblk V c t (ix2 r 0) = bIn V c (ix2 ⟨t.val * 4096 + r.val, h⟩ 0) := by
  show iblk0 V c 1 t (ix2 r 0) = V c main_v0 (ix2 ⟨t.val * 4096 + r.val, h⟩ 0)
  unfold iblk0
  rw [View.read_apply]
  show V c main_v0 _ = V c main_v0 _
  congr 1
  funext a
  apply Fin.ext
  match a with
  | ⟨0, _⟩ => show win0_1.index t 0 * 4096 + 1 * r.val = t.val * 4096 + r.val; rw [(idx_facts t).1]; omega
  | ⟨1, _⟩ => show win0_1.index t 1 * 1 + 1 * (0 : Fin 1).val = (0 : Fin 1).val; rw [(idx_facts t).2.1]; rfl

/-! ## The running counts -/

/-- Membership in segment `g` of the row with number `i` (zero past the last row). -/
def term (c : Dev nD) (g : Fin 1024) (i : ℕ) : EReal :=
  if h : i < 1048576 then hot (bIn V c (ix2 ⟨i, h⟩ 0)) (seg g) else 0

/-- The number of rows of the block at point `t` with id `g` is the sum of membership over the row numbers
    `4096 t … 4096 t + 4095`. -/
theorem block_sum (c : Dev nD) (t : Fin cfg0.N) (g : Fin 1024) :
    ∑ r : Fin 4096, hot (bblk V c t (ix2 r 0)) (seg g) = ∑ r : Fin 4096, term V c g (t.val * 4096 + r.val) := by
  have hN : t.val < 256 := lt_of_lt_of_eq t.isLt (show cfg0.N = 256 from N_0)
  refine Finset.sum_congr rfl fun r _ => ?_
  have h : t.val * 4096 + r.val < 1048576 := by have := r.isLt; omega
  unfold term
  rw [dif_pos h, bblk_apply V c t r h]

/-- After point `n` the counts block holds, at segment `g`, the number of rows with id `g` in the blocks `0 … n`: the
    first point starts from zero, every later one adds its block's number to what the one before left. -/
theorem running (c : Dev nD) (g : Fin 1024) : ∀ (n : ℕ) (hn : n < cfg0.N),
    (outsAt0 V c n hn).2 (ix2 g 0) = ∑ t : Fin (n + 1), ∑ r : Fin 4096, term V c g (t.val * 4096 + r.val)
  | 0, hn => by
    rw [outsAt0_A V c ⟨0, hn⟩ rfl]
    dsimp only
    refine (pieceA c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) ((hcond0_0 ⟨0, hn⟩).mpr rfl)
      (xblk V c ⟨0, hn⟩) (bblk V c ⟨0, hn⟩) g).trans ?_
    rw [block_sum V c ⟨0, hn⟩ g, Fin.sum_univ_one]
    rfl
  | n + 1, hn => by
    have hN : cfg0.N = 256 := N_0
    have hB : ¬(⟨n + 1, hn⟩ : Fin cfg0.N).val % 256 = 0 := by dsimp only; omega
    rw [outsAt0_B V c ⟨n + 1, hn⟩ hB]
    dsimp only
    refine (pieceB c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (ms0_3 ⟨n + 1, hn⟩) (hs0_3 ⟨n + 1, hn⟩)
      (fun h => hB ((hcond0_0 ⟨n + 1, hn⟩).mp h)) (xblk V c ⟨n + 1, hn⟩) (bblk V c ⟨n + 1, hn⟩)
      (outsAt0 V c n (Nat.lt_of_succ_lt hn)).1 (outsAt0 V c n (Nat.lt_of_succ_lt hn)).2 g).trans ?_
    rw [running c g n (Nat.lt_of_succ_lt hn), block_sum V c ⟨n + 1, hn⟩ g, Fin.sum_univ_castSucc (n := n + 1)]
    rfl

/-! ## The array after the region -/

/-- Every segment's number of rows, as contents of the counts array (one column). -/
def allCounts (c : Dev nD) : Vec Ideal S1024x1 .f32 :=
  fun j => segCount (fun n => bIn V c (ix2 n 0)) (j 0)

/-- After the last point the counts block holds every segment's number of rows: 256 blocks of 4096 rows are all the
    rows. -/
theorem after_last (c : Dev nD) (n : ℕ) (hn : n < cfg0.N) (e : n = 255) : (outsAt0 V c n hn).2 = allCounts V c := by
  funext j
  obtain ⟨g, rfl⟩ : ∃ g, j = ix2 g 0 := ⟨j 0, by
    have h1 : (j 1).val < 1 := idx2_lt1 j
    have e1 : j 1 = (0 : Fin 1) := Fin.ext (by show (j 1).val = 0; omega)
    exact (eq_ix2 j).trans (congrArg (ix2 (j 0)) e1)⟩
  rw [running V c g n hn]
  subst e
  rw [Cert.LibSums.sum_blocks 256 4096 (term V c g)]
  show ∑ i : Fin 1048576, term V c g i.val = segCount _ g
  unfold segCount
  refine Finset.sum_congr rfl fun i _ => ?_
  unfold term
  rw [dif_pos i.isLt]

/-- The counts window's block is the whole array at every point: what is written back from a staging buffer holding
    `X` is `X` read through the block. -/
theorem cut_eq_read (t : Fin cfg0.N) (X : Vec Ideal S1024x1 .f32) :
    (cfg0.win 3).cut (grid0.coords t) X = ((cfg0.win 3).blk t).view.read (Elt Ideal) X := by
  have hz' : (fun a => win0_3.index t a * main_v3_1.ty.shape.size a) = fun _ => 0 := funext fun a => by
    match a with
    | ⟨0, _⟩ => show win0_3.index t 0 * _ = 0; rw [(idx_facts t).2.2.1]; exact Nat.zero_mul _
    | ⟨1, _⟩ => show win0_3.index t 1 * _ = 0; rw [(idx_facts t).2.2.2]; exact Nat.zero_mul _
  exact (Memref.read_access_unit_zero (Elt Ideal) main_v3_1 hz' (fun a => by rw [congrFun hz' a]; simp) X).symm

/-- The one write-back, after the last point, writes every segment's number of rows. -/
theorem flushed_eq (c : Dev nD) (t : Fin cfg0.N) (hf : (cfg0.win 3).flush t = true) :
    (dat0 V c).flushed 3 t = ((cfg0.win 3).blk t).view.read (Elt Ideal) (allCounts V c) := by
  have hN : cfg0.N = 256 := N_0
  have h255 : t.val = 255 := by have := (flush0_3 t).mp hf; have := t.isLt; omega
  show (cfg0.win 3).cut (grid0.coords t) ((dat0 V c).after 3 t) = _
  rw [after0_3, after_last V c t.val t.isLt h255]
  exact cut_eq_read t (allCounts V c)

/-- Every index of the counts array is in the counts window's block, at every point. -/
theorem mem_blk (c : Dev nD) (t : Fin cfg0.N) (i : ((cfg0.win 3).arr.view.loc (c.tc : Thread nD τ)).2.ty.Idx) :
    i ∈ ((cfg0.win 3).blk t).view.set := by
  show i ∈ ((View.whole main_v3_1).slice (win0_3.rect t)).set
  rw [View.set_slice_whole, Rect.mem_set_unit]
  intro a
  have h0 : (i 0 : Nat) < 1024 := (i 0).isLt
  have h1 : (i 1 : Nat) < 1 := (i 1).isLt
  match a with
  | ⟨0, _⟩ =>
    show win0_3.index t 0 * 1024 ≤ (i 0 : Nat) ∧ (i 0 : Nat) < win0_3.index t 0 * 1024 + 1024
    rw [(idx_facts t).2.2.1]; omega
  | ⟨1, _⟩ =>
    show win0_3.index t 1 * 1 ≤ (i 1 : Nat) ∧ (i 1 : Nat) < win0_3.index t 1 * 1 + 1
    rw [(idx_facts t).2.2.2]; omega

/-- So the counts array ends holding every segment's number of rows. -/
theorem counts_final (c : Dev nD) : (dat0 V c).arrAt 3 cfg0.N = allCounts V c :=
  (dat0 V c).arrAt_eq_of_cover 3 (allCounts V c) (flushed_eq V c) fun i =>
    ⟨⟨255, by rw [show cfg0.N = 256 from N_0]; decide⟩, (flush0_3 _).mpr rfl, mem_blk c _ i⟩

/-- After the region the counts array holds every segment's number of rows. -/
theorem counts_eq (c : Dev nD) (g : Fin 1024) :
    ((dat0 (F := Ideal) V c).arrAt 3 cfg0.N : Vec Ideal S1024x1 .f32) (ix2 g 0)
      = segCount (fun n => bIn V c (ix2 n 0)) g := by
  refine (congrFun (counts_final V c) (ix2 g 0)).trans ?_
  show allCounts V c (ix2 g 0) = _
  unfold allCounts
  rfl

end Cert.KernelIdeal.CountsValue

end
-- ==== Proof.KGate.lean ====
/-
  The second region: the gate of every segment from the segments' sums and counts.

  The region has one grid point and every window's block is its whole array, so the output array after the region is
  the body's one store, a function of the six input arrays as the region finds them: at segment `g` and channel `c`,
  `gate` of the sums, the counts, the two weight matrices and the two bias rows.
-/
import proofs.«410003_j3539053052006_1_alg».proof.Proof.Gen.KernelIdeal.Frame
import proofs.«410003_j3539053052006_1_alg».proof.Proof.Spec
import proofs.«410003_j3539053052006_1_alg».proof.Proof.LibSums
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.GateValue

open Cert.KernelIdeal Cert.KernelIdeal.Gen Cert.SegGate
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The segments' sums as the region finds them. -/
abbrev sumsIn (c : Dev nD) : Vec Ideal S1024x128 .f32 := V c main_v3_0
/-- The segments' counts as the region finds them (one column). -/
abbrev countsIn (c : Dev nD) : Vec Ideal S1024x1 .f32 := V c main_v3_1
/-- The first layer's weights. -/
abbrev wsIn (c : Dev nD) : Vec Ideal S32x128 .f32 := V c main_arg2
/-- The first layer's bias (one row). -/
abbrev bsIn (c : Dev nD) : Vec Ideal S1x32 .f32 := V c main_v1
/-- The second layer's weights. -/
abbrev weIn (c : Dev nD) : Vec Ideal S128x32 .f32 := V c main_arg4
/-- The second layer's bias (one row). -/
abbrev beIn (c : Dev nD) : Vec Ideal S1x128 .f32 := V c main_v2

/-! ## Layout operations and the two matrix products, read at an index -/

/-- A `[a, 1]` column broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The logistic function of a vector, at an index. -/
private theorem logistic_apply {s : Shape} {φ : FTy} (a : FVec Ideal s φ) (i : s.Idx) :
    logistic a i = Ideal.logistic (a i) := rfl

/-! The first product contracts axis 1 of both operands: its left index is (row of the result, position), its right
    index (column of the result, position). -/

private theorem lhs_mm1_0 (i : S1024x32.Idx) (q : dot_S1024x128_S32x128_S1024x32_1_1_0_0_n_n.contr.Idx) :
    (dot_S1024x128_S32x128_S1024x32_1_1_0_0_n_n.lhsIdx i q 0).val = (i 0).val := by
  unfold DotDims.lhsIdx
  rw [dif_neg (show ¬(0 : Fin S1024x128.rank) ∈ dot_S1024x128_S32x128_S1024x32_1_1_0_0_n_n.lhsBatch by decide), dif_pos (show (0 : Fin S1024x128.rank) ∈ dot_S1024x128_S32x128_S1024x32_1_1_0_0_n_n.lhsNonContracting by decide)]
  rfl
private theorem lhs_mm1_1 (i : S1024x32.Idx) (q : dot_S1024x128_S32x128_S1024x32_1_1_0_0_n_n.contr.Idx) :
    (dot_S1024x128_S32x128_S1024x32_1_1_0_0_n_n.lhsIdx i q 1).val = (q ⟨0, by decide⟩).val :=
  dot_S1024x128_S32x128_S1024x32_1_1_0_0_n_n.lhsIdx_val_of_single rfl i q
private theorem rhs_mm1_0 (i : S1024x32.Idx) (q : dot_S1024x128_S32x128_S1024x32_1_1_0_0_n_n.contr.Idx) :
    (dot_S1024x128_S32x128_S1024x32_1_1_0_0_n_n.rhsIdx i q 0).val = (i 1).val := by
  unfold DotDims.rhsIdx
  rw [dif_neg (show ¬(0 : Fin S32x128.rank) ∈ dot_S1024x128_S32x128_S1024x32_1_1_0_0_n_n.rhsBatch by decide), dif_pos (show (0 : Fin S32x128.rank) ∈ dot_S1024x128_S32x128_S1024x32_1_1_0_0_n_n.rhsNonContracting by decide)]
  rfl
private theorem rhs_mm1_1 (i : S1024x32.Idx) (q : dot_S1024x128_S32x128_S1024x32_1_1_0_0_n_n.contr.Idx) :
    (dot_S1024x128_S32x128_S1024x32_1_1_0_0_n_n.rhsIdx i q 1).val = (q ⟨0, by decide⟩).val :=
  dot_S1024x128_S32x128_S1024x32_1_1_0_0_n_n.rhsIdx_val_of_single rfl i q

/-- The first product into a zero accumulator, at `(g, s)`: the sum over the 128 channels of left row `g` times right
    row `s`. -/
private theorem mm1_apply (l : FVec Ideal S1024x128 .bf16) (r : FVec Ideal S32x128 .bf16) (g : Fin 1024) (s : Fin 32) :
    matmul dot_S1024x128_S32x128_S1024x32_1_1_0_0_n_n none l r (constant S1024x32 .f32 0x00000000#32) (ix2 g s)
      = ∑ k : Fin 128, l (ix2 g k) * r (ix2 s k) := by
  simp only [matmul]
  rw [Ideal.matmul_constant_zero_apply, ← Equiv.sum_comp (contrEquiv1 dot_S1024x128_S32x128_S1024x32_1_1_0_0_n_n 128 rfl rfl).symm]
  refine Finset.sum_congr rfl fun k _ => ?_
  have hk := contrEquiv1_symm_val dot_S1024x128_S32x128_S1024x32_1_1_0_0_n_n 128 rfl rfl k
  have el : dot_S1024x128_S32x128_S1024x32_1_1_0_0_n_n.lhsIdx (ix2 g s) ((contrEquiv1 dot_S1024x128_S32x128_S1024x32_1_1_0_0_n_n 128 rfl rfl).symm k) = ix2 g k := funext fun a => Fin.ext (by
    match a with
    | ⟨0, _⟩ => exact lhs_mm1_0 _ _
    | ⟨1, _⟩ => exact (lhs_mm1_1 _ _).trans hk)
  have er : dot_S1024x128_S32x128_S1024x32_1_1_0_0_n_n.rhsIdx (ix2 g s) ((contrEquiv1 dot_S1024x128_S32x128_S1024x32_1_1_0_0_n_n 128 rfl rfl).symm k) = ix2 s k := funext fun a => Fin.ext (by
    match a with
    | ⟨0, _⟩ => exact rhs_mm1_0 _ _
    | ⟨1, _⟩ => exact (rhs_mm1_1 _ _).trans hk)
  rw [el, er]

/-! The second product likewise contracts axis 1 of both operands, over the 32 hidden values. -/

private theorem lhs_mm2_0 (i : S1024x128.Idx) (q : dot_S1024x32_S128x32_S1024x128_1_1_0_0_n_n.contr.Idx) :
    (dot_S1024x32_S128x32_S1024x128_1_1_0_0_n_n.lhsIdx i q 0).val = (i 0).val := by
  unfold DotDims.lhsIdx
  rw [dif_neg (show ¬(0 : Fin S1024x32.rank) ∈ dot_S1024x32_S128x32_S1024x128_1_1_0_0_n_n.lhsBatch by decide), dif_pos (show (0 : Fin S1024x32.rank) ∈ dot_S1024x32_S128x32_S1024x128_1_1_0_0_n_n.lhsNonContracting by decide)]
  rfl
private theorem lhs_mm2_1 (i : S1024x128.Idx) (q : dot_S1024x32_S128x32_S1024x128_1_1_0_0_n_n.contr.Idx) :
    (dot_S1024x32_S128x32_S1024x128_1_1_0_0_n_n.lhsIdx i q 1).val = (q ⟨0, by decide⟩).val :=
  dot_S1024x32_S128x32_S1024x128_1_1_0_0_n_n.lhsIdx_val_of_single rfl i q
private theorem rhs_mm2_0 (i : S1024x128.Idx) (q : dot_S1024x32_S128x32_S1024x128_1_1_0_0_n_n.contr.Idx) :
    (dot_S1024x32_S128x32_S1024x128_1_1_0_0_n_n.rhsIdx i q 0).val = (i 1).val := by
  unfold DotDims.rhsIdx
  rw [dif_neg (show ¬(0 : Fin S128x32.rank) ∈ dot_S1024x32_S128x32_S1024x128_1_1_0_0_n_n.rhsBatch by decide), dif_pos (show (0 : Fin S128x32.rank) ∈ dot_S1024x32_S128x32_S1024x128_1_1_0_0_n_n.rhsNonContracting by decide)]
  rfl
private theorem rhs_mm2_1 (i : S1024x128.Idx) (q : dot_S1024x32_S128x32_S1024x128_1_1_0_0_n_n.contr.Idx) :
    (dot_S1024x32_S128x32_S1024x128_1_1_0_0_n_n.rhsIdx i q 1).val = (q ⟨0, by decide⟩).val :=
  dot_S1024x32_S128x32_S1024x128_1_1_0_0_n_n.rhsIdx_val_of_single rfl i q

/-- The second product into a zero accumulator, at `(g, c)`: the sum over the 32 hidden values of left row `g` times
    right row `c`. -/
private theorem mm2_apply (l : FVec Ideal S1024x32 .bf16) (r : FVec Ideal S128x32 .bf16) (g : Fin 1024) (c : Fin 128) :
    matmul dot_S1024x32_S128x32_S1024x128_1_1_0_0_n_n none l r (constant S1024x128 .f32 0x00000000#32) (ix2 g c)
      = ∑ s : Fin 32, l (ix2 g s) * r (ix2 c s) := by
  simp only [matmul]
  rw [Ideal.matmul_constant_zero_apply, ← Equiv.sum_comp (contrEquiv1 dot_S1024x32_S128x32_S1024x128_1_1_0_0_n_n 32 rfl rfl).symm]
  refine Finset.sum_congr rfl fun k _ => ?_
  have hk := contrEquiv1_symm_val dot_S1024x32_S128x32_S1024x128_1_1_0_0_n_n 32 rfl rfl k
  have el : dot_S1024x32_S128x32_S1024x128_1_1_0_0_n_n.lhsIdx (ix2 g c) ((contrEquiv1 dot_S1024x32_S128x32_S1024x128_1_1_0_0_n_n 32 rfl rfl).symm k) = ix2 g k := funext fun a => Fin.ext (by
    match a with
    | ⟨0, _⟩ => exact lhs_mm2_0 _ _
    | ⟨1, _⟩ => exact (lhs_mm2_1 _ _).trans hk)
  have er : dot_S1024x32_S128x32_S1024x128_1_1_0_0_n_n.rhsIdx (ix2 g c) ((contrEquiv1 dot_S1024x32_S128x32_S1024x128_1_1_0_0_n_n 32 rfl rfl).symm k) = ix2 c k := funext fun a => Fin.ext (by
    match a with
    | ⟨0, _⟩ => exact rhs_mm2_0 _ _
    | ⟨1, _⟩ => exact (rhs_mm2_1 _ _).trans hk)
  rw [el, er]

/-! ## The body's one payload at an index -/

/-- The payload at segment `g` and channel `k` is the gate of the six loaded arrays. -/
private theorem pay_apply (x0 : Vec Ideal S1024x128 .f32) (x1 : Vec Ideal S1024x1 .f32) (x2 : Vec Ideal S32x128 .f32)
    (x3 : Vec Ideal S1x32 .f32) (x4 : Vec Ideal S128x32 .f32) (x5 : Vec Ideal S1x128 .f32) (g : Fin 1024) (k : Fin 128) :
    k1_pay1 (F := Ideal) x0 x1 x2 x3 x4 x5 (ix2 g k)
      = gate (fun g k => x0 (ix2 g k)) (fun g => x1 (ix2 g 0)) (fun s k => x2 (ix2 s k)) (fun s => x3 (ix2 0 s))
          (fun c' s => x4 (ix2 c' s)) (fun c' => x5 (ix2 0 c')) g k := by
  unfold k1_pay1 gate
  simp only [shapeCast_self, Ideal.ofBits_def, Ideal.ofBits_zero_f32, Ideal.ofBits_one_f32]
  rw [logistic_apply, addf_apply, mm2_apply, broadcastTo_1b_ab_apply]
  refine congrArg Ideal.logistic (congrArg (· + x5 (ix2 0 k)) (Finset.sum_congr rfl fun s _ => ?_))
  rw [truncf_apply, truncf_apply, maximumf_apply, broadcast_apply, addf_apply, mm1_apply, broadcastTo_1b_ab_apply]
  refine congrArg (fun t => max (t + x3 (ix2 0 s)) 0 * x4 (ix2 k s)) (Finset.sum_congr rfl fun j _ => ?_)
  rw [truncf_apply, truncf_apply, divf_apply, broadcastTo_a1_ab_apply, maximumf_apply, broadcast_apply]

/-! ## What the body leaves in the output's buffer -/

private theorem zeros_eq : (![0, 0] : Fin 2 → Nat) = fun _ => 0 := funext fun a => by fin_cases a <;> rfl

/-- The output's buffer after the body, at segment `g` and channel `k`: the body's one store covers the buffer, and its
    loads are the whole input buffers. -/
private theorem out_apply (x0 : Vec Ideal S1024x128 .f32) (x1 : Vec Ideal S1024x1 .f32) (x2 : Vec Ideal S32x128 .f32)
    (x3 : Vec Ideal S1x32 .f32) (x4 : Vec Ideal S128x32 .f32) (x5 : Vec Ideal S1x128 .f32) (g : Fin 1024) (k : Fin 128) :
    out1_6 (F := Ideal) x0 x1 x2 x3 x4 x5 (ix2 g k)
      = gate (fun g k => x0 (ix2 g k)) (fun g => x1 (ix2 g 0)) (fun s k => x2 (ix2 s k)) (fun s => x3 (ix2 0 s))
          (fun c' s => x4 (ix2 c' s)) (fun c' => x5 (ix2 0 c')) g k := by
  unfold out1_6
  rw [View.canon_unit_zero zeros_eq]
  simp only [View.ld_unit_zero (S := S1024x128) zeros_eq, View.ld_unit_zero (S := S1024x1) zeros_eq,
    View.ld_unit_zero (S := S32x128) zeros_eq, View.ld_unit_zero (S := S1x32) zeros_eq,
    View.ld_unit_zero (S := S128x32) zeros_eq, View.ld_unit_zero (S := S1x128) zeros_eq]
  exact pay_apply x0 x1 x2 x3 x4 x5 g k

/-! ## The one point's blocks are the whole arrays -/

/-- Every window's block index is zero on both axes, at the region's one point. -/
private theorem index_zero : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Window 0's block is the array of the sums. -/
private theorem blk0_apply (c : Dev nD) (t : Fin cfg1.N) (g : Fin 1024) (k : Fin 128) :
    (iblk1 V c 0 t : Vec Ideal S1024x128 .f32) (ix2 g k) = (V c main_v3_0 : Vec Ideal S1024x128 .f32) (ix2 g k) := by
  obtain ⟨e0, e1, -⟩ := index_zero t
  unfold iblk1
  rw [View.read_apply]
  show (V c main_v3_0 : Vec Ideal S1024x128 .f32) _ = _
  congr 1
  funext a
  apply Fin.ext
  match a with
  | ⟨0, _⟩ => show win1_0.index t (0 : Fin 2) * 1024 + 1 * g.val = g.val; rw [e0]; omega
  | ⟨1, _⟩ => show win1_0.index t (1 : Fin 2) * 128 + 1 * k.val = k.val; rw [e1]; omega

/-- Window 1's block is the column of the counts. -/
private theorem blk1_apply (c : Dev nD) (t : Fin cfg1.N) (g : Fin 1024) (z : Fin 1) :
    (iblk1 V c 1 t : Vec Ideal S1024x1 .f32) (ix2 g z) = (V c main_v3_1 : Vec Ideal S1024x1 .f32) (ix2 g z) := by
  obtain ⟨-, -, e0, e1, -⟩ := index_zero t
  unfold iblk1
  rw [View.read_apply]
  show (V c main_v3_1 : Vec Ideal S1024x1 .f32) _ = _
  congr 1
  funext a
  apply Fin.ext
  match a with
  | ⟨0, _⟩ => show win1_1.index t (0 : Fin 2) * 1024 + 1 * g.val = g.val; rw [e0]; omega
  | ⟨1, _⟩ => show win1_1.index t (1 : Fin 2) * 1 + 1 * z.val = z.val; rw [e1]; omega

/-- Window 2's block is the first layer's weight matrix. -/
private theorem blk2_apply (c : Dev nD) (t : Fin cfg1.N) (s : Fin 32) (k : Fin 128) :
    (iblk1 V c 2 t : Vec Ideal S32x128 .f32) (ix2 s k) = (V c main_arg2 : Vec Ideal S32x128 .f32) (ix2 s k) := by
  obtain ⟨-, -, -, -, e0, e1, -⟩ := index_zero t
  unfold iblk1
  rw [View.read_apply]
  show (V c main_arg2 : Vec Ideal S32x128 .f32) _ = _
  congr 1
  funext a
  apply Fin.ext
  match a with
  | ⟨0, _⟩ => show win1_2.index t (0 : Fin 2) * 32 + 1 * s.val = s.val; rw [e0]; omega
  | ⟨1, _⟩ => show win1_2.index t (1 : Fin 2) * 128 + 1 * k.val = k.val; rw [e1]; omega

/-- Window 3's block is the first layer's bias row. -/
private theorem blk3_apply (c : Dev nD) (t : Fin cfg1.N) (z : Fin 1) (s : Fin 32) :
    (iblk1 V c 3 t : Vec Ideal S1x32 .f32) (ix2 z s) = (V c main_v1 : Vec Ideal S1x32 .f32) (ix2 z s) := by
  obtain ⟨-, -, -, -, -, -, e0, e1, -⟩ := index_zero t
  unfold iblk1
  rw [View.read_apply]
  show (V c main_v1 : Vec Ideal S1x32 .f32) _ = _
  congr 1
  funext a
  apply Fin.ext
  match a with
  | ⟨0, _⟩ => show win1_3.index t (0 : Fin 2) * 1 + 1 * z.val = z.val; rw [e0]; omega
  | ⟨1, _⟩ => show win1_3.index t (1 : Fin 2) * 32 + 1 * s.val = s.val; rw [e1]; omega

/-- Window 4's block is the second layer's weight matrix. -/
private theorem blk4_apply (c : Dev nD) (t : Fin cfg1.N) (k : Fin 128) (s : Fin 32) :
    (iblk1 V c 4 t : Vec Ideal S128x32 .f32) (ix2 k s) = (V c main_arg4 : Vec Ideal S128x32 .f32) (ix2 k s) := by
  obtain ⟨-, -, -, -, -, -, -, -, e0, e1, -⟩ := index_zero t
  unfold iblk1
  rw [View.read_apply]
  show (V c main_arg4 : Vec Ideal S128x32 .f32) _ = _
  congr 1
  funext a
  apply Fin.ext
  match a with
  | ⟨0, _⟩ => show win1_4.index t (0 : Fin 2) * 128 + 1 * k.val = k.val; rw [e0]; omega
  | ⟨1, _⟩ => show win1_4.index t (1 : Fin 2) * 32 + 1 * s.val = s.val; rw [e1]; omega

/-- Window 5's block is the second layer's bias row. -/
private theorem blk5_apply (c : Dev nD) (t : Fin cfg1.N) (z : Fin 1) (k : Fin 128) :
    (iblk1 V c 5 t : Vec Ideal S1x128 .f32) (ix2 z k) = (V c main_v2 : Vec Ideal S1x128 .f32) (ix2 z k) := by
  obtain ⟨-, -, -, -, -, -, -, -, -, -, e0, e1, -⟩ := index_zero t
  unfold iblk1
  rw [View.read_apply]
  show (V c main_v2 : Vec Ideal S1x128 .f32) _ = _
  congr 1
  funext a
  apply Fin.ext
  match a with
  | ⟨0, _⟩ => show win1_5.index t (0 : Fin 2) * 1 + 1 * z.val = z.val; rw [e0]; omega
  | ⟨1, _⟩ => show win1_5.index t (1 : Fin 2) * 128 + 1 * k.val = k.val; rw [e1]; omega

/-! ## From the one point's write-back to the array -/

/-- The gate of every segment and channel as one array, from six arrays. -/
private def gateArr (x0 : Vec Ideal S1024x128 .f32) (x1 : Vec Ideal S1024x1 .f32) (x2 : Vec Ideal S32x128 .f32)
    (x3 : Vec Ideal S1x32 .f32) (x4 : Vec Ideal S128x32 .f32) (x5 : Vec Ideal S1x128 .f32) : Vec Ideal S1024x128 .f32 :=
  fun j => gate (fun g k => x0 (ix2 g k)) (fun g => x1 (ix2 g 0)) (fun s k => x2 (ix2 s k)) (fun s => x3 (ix2 0 s))
    (fun c' s => x4 (ix2 c' s)) (fun c' => x5 (ix2 0 c')) (j 0) (j 1)

/-- The output's buffer after the body is that array of the six input buffers. -/
private theorem out_eq (x0 : Vec Ideal S1024x128 .f32) (x1 : Vec Ideal S1024x1 .f32) (x2 : Vec Ideal S32x128 .f32)
    (x3 : Vec Ideal S1x32 .f32) (x4 : Vec Ideal S128x32 .f32) (x5 : Vec Ideal S1x128 .f32) :
    out1_6 (F := Ideal) x0 x1 x2 x3 x4 x5 = gateArr x0 x1 x2 x3 x4 x5 := by
  funext j
  obtain ⟨p, q, rfl⟩ : ∃ (p : Fin 1024) (q : Fin 128), j = ix2 p q := ⟨j 0, j 1, eq_ix2 j⟩
  exact out_apply x0 x1 x2 x3 x4 x5 p q

/-- What the region's one point writes back is its block (the whole array) of the gate of the input arrays as the region
    finds them. -/
private theorem flushed_eq (c : Dev nD) (t : Fin cfg1.N) :
    (dat1 (F := Ideal) V c).flushed 6 t = ((cfg1.win 6).blk t).view.read (Elt Ideal)
      (gateArr (V c main_v3_0) (V c main_v3_1) (V c main_arg2) (V c main_v1) (V c main_arg4) (V c main_v2)) := by
  show (cfg1.win 6).cut (grid1.coords t) ((dat1 (F := Ideal) V c).after 6 t) = _
  rw [after1_6]
  funext j
  show out1_6 (F := Ideal) (iblk1 V c 0 t) (iblk1 V c 1 t) (iblk1 V c 2 t) (iblk1 V c 3 t) (iblk1 V c 4 t) (iblk1 V c 5 t) j
    = gateArr (V c main_v3_0) (V c main_v3_1) (V c main_arg2) (V c main_v1) (V c main_arg4) (V c main_v2) (((cfg1.win 6).blk t).view.emb j)
  refine (congrFun (out_eq _ _ _ _ _ _) j).trans ?_
  have h0 : (fun (g : Fin 1024) (k : Fin 128) => (iblk1 V c 0 t : Vec Ideal S1024x128 .f32) (ix2 g k))
      = fun g k => (V c main_v3_0 : Vec Ideal S1024x128 .f32) (ix2 g k) := funext fun g => funext fun k => blk0_apply V c t g k
  have h1 : (fun (g : Fin 1024) => (iblk1 V c 1 t : Vec Ideal S1024x1 .f32) (ix2 g 0))
      = fun g => (V c main_v3_1 : Vec Ideal S1024x1 .f32) (ix2 g 0) := funext fun g => blk1_apply V c t g 0
  have h2 : (fun (s : Fin 32) (k : Fin 128) => (iblk1 V c 2 t : Vec Ideal S32x128 .f32) (ix2 s k))
      = fun s k => (V c main_arg2 : Vec Ideal S32x128 .f32) (ix2 s k) := funext fun s => funext fun k => blk2_apply V c t s k
  have h3 : (fun (s : Fin 32) => (iblk1 V c 3 t : Vec Ideal S1x32 .f32) (ix2 0 s))
      = fun s => (V c main_v1 : Vec Ideal S1x32 .f32) (ix2 0 s) := funext fun s => blk3_apply V c t 0 s
  have h4 : (fun (k : Fin 128) (s : Fin 32) => (iblk1 V c 4 t : Vec Ideal S128x32 .f32) (ix2 k s))
      = fun k s => (V c main_arg4 : Vec Ideal S128x32 .f32) (ix2 k s) := funext fun k => funext fun s => blk4_apply V c t k s
  have h5 : (fun (k : Fin 128) => (iblk1 V c 5 t : Vec Ideal S1x128 .f32) (ix2 0 k))
      = fun k => (V c main_v2 : Vec Ideal S1x128 .f32) (ix2 0 k) := funext fun k => blk5_apply V c t 0 k
  unfold gateArr
  rw [h0, h1, h2, h3, h4, h5]
  obtain ⟨-, -, -, -, -, -, -, -, -, -, -, -, e0, e1⟩ := index_zero t
  congr 1
  · apply Fin.ext
    show (j 0).val = win1_6.index t (0 : Fin 2) * 1024 + 1 * (j 0).val
    rw [e0]; omega
  · apply Fin.ext
    show (j 1).val = win1_6.index t (1 : Fin 2) * 128 + 1 * (j 1).val
    rw [e1]; omega

/-- An index of the output array is in a point's block iff each coordinate is in the block's range on its axis. -/
private theorem mem_blk (t : Fin cfg1.N) (i : S1024x128.Idx) :
    i ∈ ((cfg1.win 6).blk t).view.set ↔ ∀ a : Fin 2, win1_6.index t a * S1024x128.size a ≤ (i a).val ∧ (i a).val < win1_6.index t a * S1024x128.size a + S1024x128.size a := by
  show i ∈ ((View.whole main_v4).slice (win1_6.rect t)).set ↔ _
  rw [View.set_slice_whole, Rect.mem_set_unit]
  exact Iff.rfl

/-- The one point's block covers the output array. -/
private theorem covered (i : S1024x128.Idx) :
    ∃ t : Fin cfg1.N, (cfg1.win 6).flush t = true ∧ i ∈ ((cfg1.win 6).blk t).view.set := by
  obtain ⟨-, -, -, -, -, -, -, -, -, -, -, -, e0, e1⟩ := index_zero t1_0
  have hi0 : (i 0).val < 1024 := (i 0).isLt
  have hi1 : (i 1).val < 128 := (i 1).isLt
  refine ⟨t1_0, flush1_6 t1_0, ?_⟩
  rw [mem_blk]
  intro a
  match a with
  | ⟨0, _⟩ => show win1_6.index t1_0 (0 : Fin 2) * 1024 ≤ (i 0).val ∧ (i 0).val < win1_6.index t1_0 (0 : Fin 2) * 1024 + 1024; rw [e0]; omega
  | ⟨1, _⟩ => show win1_6.index t1_0 (1 : Fin 2) * 128 ≤ (i 1).val ∧ (i 1).val < win1_6.index t1_0 (1 : Fin 2) * 128 + 128; rw [e1]; omega

/-- After the region its output array holds, at segment `g` and channel `k`, the gate computed from the input arrays. -/
theorem gate_eq (c : Dev nD) (g : Fin 1024) (k : Fin 128) :
    ((dat1 (F := Ideal) V c).arrAt 6 cfg1.N : Vec Ideal S1024x128 .f32) (ix2 g k)
      = gate (fun g k => sumsIn V c (ix2 g k)) (fun g => countsIn V c (ix2 g 0))
          (fun s k => wsIn V c (ix2 s k)) (fun s => bsIn V c (ix2 0 s))
          (fun c' s => weIn V c (ix2 c' s)) (fun c' => beIn V c (ix2 0 c')) g k := by
  have h := (dat1 (F := Ideal) V c).arrAt_eq_of_cover 6
    (gateArr (V c main_v3_0) (V c main_v3_1) (V c main_arg2) (V c main_v1) (V c main_arg4) (V c main_v2))
    (fun t _ => flushed_eq V c t) covered
  rw [h]
  rfl

end Cert.KernelIdeal.GateValue

end
-- ==== Proof.KScale.lean ====
/-
  The third region: every row times the gate of its segment.

  The grid has 256 points; point `t` reads rows `4096 t … 4096 t + 4095`, their segment ids and the whole gate array,
  and writes the same rows of the output. For a row with id `a` the body adds up, over eight chunks of 128 segments, the
  products of the membership number of `a` in a segment with that segment's gate: the sum over all 1024 segments of
  `hot a g * E g k`; the row is multiplied by it. The output blocks tile the array, so after the region the array holds
  that product at every row and channel.
-/
import proofs.«410003_j3539053052006_1_alg».proof.Proof.Gen.KernelIdeal.Frame
import proofs.«410003_j3539053052006_1_alg».proof.Proof.Spec
import proofs.«410003_j3539053052006_1_alg».proof.Proof.LibSums
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.StableHlo.Predicate

set_option maxRecDepth 16384

noncomputable section

namespace Cert.KernelIdeal.ScaleValue

open Cert.KernelIdeal Cert.KernelIdeal.Gen Cert.SegGate
open Idealize.ShloMosaic Idealize.ShloMosaic.TcCoe Idealize.ShloMosaic.ValueIdx
open Idealize.ShloMosaic.Pipeline (Dat)

/-- The zero offsets of a whole block, however they are spelt. -/
private theorem hz : (![0, 0] : Fin 2 → Nat) = fun _ => 0 := funext fun a => by fin_cases a <;> rfl

/-! ## One chunk's product at an index -/

/-- The product's operand indices, axis by axis: the left operand is read at (row, middle), the right one at (middle, column). -/
private theorem lhs_dot_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
private theorem lhs_dot_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
private theorem rhs_dot_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
private theorem rhs_dot_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- A [4096,128] by [128,128] product into the zero accumulator, at row `r` and column `k`: the sum over the 128
    middle positions of the products. -/
private theorem matmul_at (L : FVec Ideal S4096x128 .bf16) (R : FVec Ideal S128x128 .bf16) (r : Fin 4096) (k : Fin 128) :
    matmul dot_S4096x128_S128x128_S4096x128_1_0_0_1_n_n none L R (constant S4096x128 .f32 0x00000000#32) (ix2 r k)
      = ∑ j : Fin 128, L (ix2 r j) * R (ix2 j k) := by
  show FloatOps.matmul dot_S4096x128_S128x128_S4096x128_1_0_0_1_n_n none L R (constant (F := Ideal) S4096x128 .f32 0x00000000#32) (ix2 r k) = _
  rw [Ideal.matmul_constant_zero_apply, ← Equiv.sum_comp (ValueIdx.contrEquiv1 dot_S4096x128_S128x128_S4096x128_1_0_0_1_n_n 128 rfl rfl).symm]
  refine Finset.sum_congr rfl fun j _ => ?_
  have hk := ValueIdx.contrEquiv1_symm_val dot_S4096x128_S128x128_S4096x128_1_0_0_1_n_n 128 rfl rfl j
  have el : dot_S4096x128_S128x128_S4096x128_1_0_0_1_n_n.lhsIdx (ix2 r k) ((ValueIdx.contrEquiv1 dot_S4096x128_S128x128_S4096x128_1_0_0_1_n_n 128 rfl rfl).symm j) = ix2 r j := funext fun a => Fin.ext (by
    match a with
    | ⟨0, _⟩ => exact lhs_dot_0 _ _
    | ⟨1, _⟩ => exact (lhs_dot_1 _ _).trans hk)
  have er : dot_S4096x128_S128x128_S4096x128_1_0_0_1_n_n.rhsIdx (ix2 r k) ((ValueIdx.contrEquiv1 dot_S4096x128_S128x128_S4096x128_1_0_0_1_n_n 128 rfl rfl).symm j) = ix2 j k := funext fun a => Fin.ext (by
    match a with
    | ⟨0, _⟩ => exact (rhs_dot_0 _ _).trans hk
    | ⟨1, _⟩ => exact rhs_dot_1 _ _)
  rw [el, er]

/-- The membership number the body computes for row `r` and position `j` of the chunk that starts at segment `off`:
    one when the row's id word is the word of `off + j`, zero otherwise. -/
private theorem onehot_at (x1 : IVec S4096x1 32) (off : ℕ) (hb : S4096x1.Broadcasts S4096x128) (hi : S4096x128.Iotas .tc 32 [1])
    (hw : 1 < 32) (r : Fin 4096) (j : Fin 128) :
    (sitofp .f32 (extui 32 (cmpi .eq (broadcastTo S4096x128 x1 hb) (addi (iota .tc S4096x128 32 [1] hi) (broadcast S4096x128 (BitVec.ofNat 32 off)))) hw) : FVec Ideal S4096x128 .f32) (ix2 r j)
      = hot (x1 (ix2 r 0)) (BitVec.ofNat 32 (off + j.val)) := by
  rw [sitofp_apply, extui_apply]
  show FloatOps.sitofp .f32 ((IntOp.cmpi .eq (broadcastTo S4096x128 x1 hb (ix2 r j)) (IntOp.addi (iota .tc S4096x128 32 [1] hi (ix2 r j)) (BitVec.ofNat 32 off))).setWidth 32) = _
  rw [broadcastTo_apply x1 hb (ix2 r j) (ix2 r 0) (fun a => by
    match a with
    | ⟨0, _⟩ => rfl
    | ⟨1, _⟩ => rfl), iota_single_apply]
  have e : IntOp.addi (BitVec.ofNat 32 ((ix2 r j : S4096x128.Idx) 1).val) (BitVec.ofNat 32 off) = BitVec.ofNat 32 (off + j.val) := by
    show BitVec.ofNat 32 j.val + BitVec.ofNat 32 off = _
    rw [← BitVec.ofNat_add, Nat.add_comm]
  rw [e]
  unfold hot
  by_cases h : x1 (ix2 r 0) = BitVec.ofNat 32 (off + j.val)
  · rw [if_pos h, StableHlo.Predicate.cmpi_eq_iff.mpr h]
    show (((1#1 : BitVec 1).setWidth 32).toInt : ℝ) = ((1 : ℝ) : EReal)
    norm_num
  · rw [if_neg h, eq_zero_of_ne_one (fun e => h (StableHlo.Predicate.cmpi_eq_iff.mp e))]
    show (((0#1 : BitVec 1).setWidth 32).toInt : ℝ) = ((0 : ℝ) : EReal)
    norm_num

/-! ## The body's result at an index -/

/-- The summand of segment number `i` for a row whose id word is `a`, at channel `k` (zero past the last segment). -/
private def term (a : BitVec 32) (x2 : Vec Ideal S1024x128 .f32) (k : Fin 128) (i : ℕ) : EReal :=
  if h : i < 1024 then hot a (seg ⟨i, h⟩) * x2 (ix2 ⟨i, h⟩ k) else 0

/-- The chunk of the gate array loaded through the rectangle at rows `off … off + 127` holds those rows. -/
private theorem ld_gate_at (x2 : Vec Ideal S1024x128 .f32) (off : ℕ)
    (inb : ∀ a, (![off, 0] : Fin 2 → Nat) a + S128x128.size a ≤ S1024x128.size a) (h : off + 128 ≤ 1024) (j k : Fin 128) :
    (View.ld x2 (Rect.unit (s := S1024x128) ![off, 0] S128x128.size inb) : Vec Ideal S128x128 .f32) (ix2 j k)
      = x2 (ix2 ⟨off + j.val, by omega⟩ k) := by
  show x2 _ = x2 _
  refine congrArg x2 (funext fun a => Fin.ext ?_)
  match a with
  | ⟨0, _⟩ => show off + 1 * j.val = off + j.val; omega
  | ⟨1, _⟩ => show 0 + 1 * k.val = k.val; omega

/-- One chunk's product at row `r`, channel `k`: the summands of the chunk's 128 segments (`G` the chunk's rows of the
    gate array). -/
private theorem chunk_at (x1 : IVec S4096x1 32) (x2 : Vec Ideal S1024x128 .f32) (off : ℕ) (h : off + 128 ≤ 1024) (k : Fin 128)
    (G : Vec Ideal S128x128 .f32) (hG : ∀ j : Fin 128, G (ix2 j k) = x2 (ix2 ⟨off + j.val, by omega⟩ k))
    (hb : S4096x1.Broadcasts S4096x128) (hi : S4096x128.Iotas .tc 32 [1]) (hw : 1 < 32)
    (ht : FTy.bits .bf16 < FTy.bits .f32) (hs : S128x128.ShapeCasts S128x128) (r : Fin 4096) :
    matmul dot_S4096x128_S128x128_S4096x128_1_0_0_1_n_n none
        (truncf .bf16 (sitofp (F := Ideal) .f32 (extui 32 (cmpi .eq (broadcastTo S4096x128 x1 hb) (addi (iota .tc S4096x128 32 [1] hi) (broadcast S4096x128 (BitVec.ofNat 32 off)))) hw)) ht)
        (truncf .bf16 (shapeCast S128x128 G hs) ht)
        (constant (F := Ideal) S4096x128 .f32 0x00000000#32) (ix2 r k)
      = ∑ j : Fin 128, term (x1 (ix2 r 0)) x2 k (off + j.val) := by
  rw [matmul_at]
  refine Finset.sum_congr rfl fun j _ => ?_
  rw [truncf_apply, truncf_apply, onehot_at, shapeCast_self, hG j]
  unfold term
  rw [dif_pos (by omega)]

/-- The eight chunks' summands are the 1024 segments' summands. -/
private theorem sum_chunks (a : BitVec 32) (x2 : Vec Ideal S1024x128 .f32) (k : Fin 128) :
    (∑ c : Fin 8, ∑ j : Fin 128, term a x2 k (c.val * 128 + j.val)) = ∑ g : Fin 1024, hot a (seg g) * x2 (ix2 g k) := by
  rw [Cert.LibSums.sum_blocks 8 128 (term a x2 k)]
  show (∑ i : Fin 1024, term a x2 k i.val) = _
  refine Finset.sum_congr rfl fun g _ => ?_
  unfold term
  rw [dif_pos g.isLt]

/-- What the body leaves at row `r`, channel `k` of its output block, from its three input blocks: the row's entry
    times the sum over all segments of the row's membership number times the segment's gate. -/
private theorem out_at (x0 : Vec Ideal S4096x128 .f32) (x1 : Vec Ideal S4096x1 .i32) (x2 : Vec Ideal S1024x128 .f32)
    (r : Fin 4096) (k : Fin 128) :
    out2_3 x0 x1 x2 (ix2 r k) = x0 (ix2 r k) * ∑ g : Fin 1024, hot (x1 (ix2 r 0)) (seg g) * x2 (ix2 g k) := by
  unfold out2_3
  rw [View.canon_unit_zero hz, View.ld_unit_zero (S := S4096x128) hz, View.ld_unit_zero (S := S4096x1) hz]
  have e2 : k2_pay2 (F := Ideal) x1 = x1 := by unfold k2_pay2; exact shapeCast_self _ _
  unfold k2_pay1 k2_pay5 k2_pay3 k2_pay4 k2_pay6
  simp only [e2, mulf_apply, addf_apply, broadcast_apply]
  rw [chunk_at x1 x2 0 (by omega) k (View.ld x2 r2_2) (fun j => ld_gate_at x2 0 _ (by omega) j k),
    chunk_at x1 x2 128 (by omega) k (View.ld x2 r2_3) (fun j => ld_gate_at x2 128 _ (by omega) j k),
    chunk_at x1 x2 256 (by omega) k (View.ld x2 r2_4) (fun j => ld_gate_at x2 256 _ (by omega) j k),
    chunk_at x1 x2 384 (by omega) k (View.ld x2 r2_5) (fun j => ld_gate_at x2 384 _ (by omega) j k),
    chunk_at x1 x2 512 (by omega) k (View.ld x2 r2_6) (fun j => ld_gate_at x2 512 _ (by omega) j k),
    chunk_at x1 x2 640 (by omega) k (View.ld x2 r2_7) (fun j => ld_gate_at x2 640 _ (by omega) j k),
    chunk_at x1 x2 768 (by omega) k (View.ld x2 r2_8) (fun j => ld_gate_at x2 768 _ (by omega) j k),
    chunk_at x1 x2 896 (by omega) k (View.ld x2 r2_9) (fun j => ld_gate_at x2 896 _ (by omega) j k)]
  rw [← sum_chunks, Fin.sum_univ_eight]
  show _ * (Ideal.ofBits .f32 0x00000000#32 + _ + _ + _ + _ + _ + _ + _ + _) = _
  rw [Ideal.ofBits_zero_f32, zero_add]
  rfl

/-! ## From the blocks to the array -/

variable (V : (c : Dev nD) → (b : Ref sig .tc) → Buf (Elt Ideal) ((c : Thread nD τ).loc b))

/-- The rows as the region finds them. -/
abbrev xIn (c : Dev nD) : Vec Ideal S1048576x128 .f32 := V c main_arg0
/-- The rows' segment ids as the region finds them (one column). -/
abbrev bIn (c : Dev nD) : Vec Ideal S1048576x1 .i32 := V c main_v0
/-- The segments' gates as the region finds them. -/
abbrev gateIn (c : Dev nD) : Vec Ideal S1024x128 .f32 := V c main_v4

/-- The windows' block indices at point `t`: the rows' windows (the rows, the ids, the output) are at block `t` of
    the row axis, the gate array's window stays at its one block. -/
private theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

private theorem lt_of_point (t : Fin cfg2.N) (r : Fin 4096) : t.val * 4096 + r.val < 1048576 := by
  have h : t.val < 256 := lt_of_lt_of_eq t.isLt N_2
  have := r.isLt
  omega

/-- The rows' block at point `t` is rows `4096 t … 4096 t + 4095`. -/
private theorem blk0_at (c : Dev nD) (t : Fin cfg2.N) (r : Fin 4096) (k : Fin 128) :
    (iblk2 V c 0 t : Vec Ideal S4096x128 .f32) (ix2 r k) = xIn V c (ix2 ⟨t.val * 4096 + r.val, lt_of_point t r⟩ k) := by
  obtain ⟨e0, e1, -⟩ := idx_facts t
  unfold iblk2
  rw [View.read_apply]
  show V c main_arg0 _ = V c main_arg0 _
  refine congrArg (V c main_arg0) (funext fun a => Fin.ext ?_)
  match a with
  | ⟨0, _⟩ => show win2_0.index t (0 : Fin 2) * 4096 + 1 * r.val = t.val * 4096 + r.val; rw [e0]; omega
  | ⟨1, _⟩ => show win2_0.index t (1 : Fin 2) * 128 + 1 * k.val = k.val; rw [e1]; omega

/-- The ids' block at point `t` is the ids of rows `4096 t … 4096 t + 4095`. -/
private theorem blk1_at (c : Dev nD) (t : Fin cfg2.N) (r : Fin 4096) :
    (iblk2 V c 1 t : Vec Ideal S4096x1 .i32) (ix2 r 0) = bIn V c (ix2 ⟨t.val * 4096 + r.val, lt_of_point t r⟩ 0) := by
  obtain ⟨-, -, e0, e1, -⟩ := idx_facts t
  unfold iblk2
  rw [View.read_apply]
  show V c main_v0 _ = V c main_v0 _
  refine congrArg (V c main_v0) (funext fun a => Fin.ext ?_)
  match a with
  | ⟨0, _⟩ => show win2_1.index t (0 : Fin 2) * 4096 + 1 * r.val = t.val * 4096 + r.val; rw [e0]; omega
  | ⟨1, _⟩ => show win2_1.index t (1 : Fin 2) * 1 + 1 * 0 = 0; rw [e1]

/-- The gate array's block at every point is the whole gate array. -/
private theorem blk2_at (c : Dev nD) (t : Fin cfg2.N) (g : Fin 1024) (k : Fin 128) :
    (iblk2 V c 2 t : Vec Ideal S1024x128 .f32) (ix2 g k) = gateIn V c (ix2 g k) := by
  obtain ⟨-, -, -, -, e0, e1, -⟩ := idx_facts t
  unfold iblk2
  rw [View.read_apply]
  show V c main_v4 _ = V c main_v4 _
  refine congrArg (V c main_v4) (funext fun a => Fin.ext ?_)
  match a with
  | ⟨0, _⟩ => show win2_2.index t (0 : Fin 2) * 1024 + 1 * g.val = g.val; rw [e0]; omega
  | ⟨1, _⟩ => show win2_2.index t (1 : Fin 2) * 128 + 1 * k.val = k.val; rw [e1]; omega

/-- What the output array ends holding: every row times the sum over the segments of membership times gate. -/
private def G (c : Dev nD) : Vec Ideal S1048576x128 .f32 := fun i =>
  scaledSum (fun n k => xIn V c (ix2 n k)) (fun n => bIn V c (ix2 n 0)) (fun g k => gateIn V c (ix2 g k)) (i 0) (i 1)

/-- The body's result at point `t`, row `r` of the block, channel `k`, is the array's entry at row `4096 t + r`. -/
private theorem out_blk_at (c : Dev nD) (t : Fin cfg2.N) (r : Fin 4096) (k : Fin 128) :
    out2_3 (iblk2 V c 0 t) (iblk2 V c 1 t) (iblk2 V c 2 t) (ix2 r k) = G V c (ix2 ⟨t.val * 4096 + r.val, lt_of_point t r⟩ k) := by
  refine (out_at (iblk2 V c 0 t) (iblk2 V c 1 t) (iblk2 V c 2 t) r k).trans ?_
  rw [blk0_at, blk1_at]
  simp only [blk2_at]
  rfl

/-- What point `t` writes back is block `t` of that array. -/
private theorem flushed_eq (c : Dev nD) (t : Fin cfg2.N) :
    (dat2 (F := Ideal) V c).flushed 3 t = ((cfg2.win 3).blk t).view.read (Elt Ideal) (G V c) := by
  show (cfg2.win 3).cut (grid2.coords t) ((dat2 (F := Ideal) V c).after 3 t) = _
  rw [after2_3]
  obtain ⟨-, -, -, -, -, -, e0, e1⟩ := idx_facts t
  funext j
  have hj0 : (j 0).val < 4096 := (j 0).isLt
  have hj1 : (j 1).val < 128 := (j 1).isLt
  have ej : j = ix2 ⟨(j 0).val, hj0⟩ ⟨(j 1).val, hj1⟩ := funext fun a => by
    match a with
    | ⟨0, _⟩ => rfl
    | ⟨1, _⟩ => rfl
  have hi : ((cfg2.win 3).blk t).view.emb j = ix2 ⟨t.val * 4096 + (j 0).val, lt_of_point t ⟨(j 0).val, hj0⟩⟩ ⟨(j 1).val, hj1⟩ := by
    funext a; apply Fin.ext
    match a with
    | ⟨0, _⟩ => show win2_3.index t (0 : Fin 2) * 4096 + 1 * (j 0).val = t.val * 4096 + (j 0).val; rw [e0]; omega
    | ⟨1, _⟩ => show win2_3.index t (1 : Fin 2) * 128 + 1 * (j 1).val = (j 1).val; rw [e1]; omega
  show out2_3 (iblk2 V c 0 t) (iblk2 V c 1 t) (iblk2 V c 2 t) j = G V c (((cfg2.win 3).blk t).view.emb j)
  rw [hi]
  exact (congrArg (out2_3 (iblk2 V c 0 t) (iblk2 V c 1 t) (iblk2 V c 2 t)) ej).trans (out_blk_at V c t ⟨(j 0).val, hj0⟩ ⟨(j 1).val, hj1⟩)

/-- An index of the array is in point `t`'s block iff each coordinate is in the block's range on its axis. -/
private theorem mem_blk (t : Fin cfg2.N) (i : S1048576x128.Idx) :
    i ∈ ((cfg2.win 3).blk t).view.set ↔ ∀ a : Fin 2, win2_3.index t a * S4096x128.size a ≤ (i a).val ∧ (i a).val < win2_3.index t a * S4096x128.size a + S4096x128.size a := by
  show i ∈ ((View.whole main_v5).slice (win2_3.rect t)).set ↔ _
  rw [View.set_slice_whole, Rect.mem_set_unit]
  exact Iff.rfl

/-- Every row is in some point's block: row `n` in that of point `n / 4096`. -/
private theorem covered (i : S1048576x128.Idx) :
    ∃ t : Fin cfg2.N, (cfg2.win 3).flush t = true ∧ i ∈ ((cfg2.win 3).blk t).view.set := by
  have hi0 : (i 0).val < 1048576 := (i 0).isLt
  have hi1 : (i 1).val < 128 := (i 1).isLt
  have hN : cfg2.N = 256 := N_2
  let t : Fin cfg2.N := ⟨(i 0).val / 4096, by rw [hN]; omega⟩
  obtain ⟨-, -, -, -, -, -, e0, e1⟩ := idx_facts t
  refine ⟨t, flush2_3 t, ?_⟩
  rw [mem_blk]
  intro a
  have ht : t.val = (i 0).val / 4096 := rfl
  match a with
  | ⟨0, _⟩ => show win2_3.index t (0 : Fin 2) * 4096 ≤ (i 0).val ∧ (i 0).val < win2_3.index t (0 : Fin 2) * 4096 + 4096; rw [e0]; omega
  | ⟨1, _⟩ => show win2_3.index t (1 : Fin 2) * 128 ≤ (i 1).val ∧ (i 1).val < win2_3.index t (1 : Fin 2) * 128 + 128; rw [e1]; omega

/-- After the region the output array holds every row times the sum over the segments of membership times gate. -/
theorem scaled_eq (c : Dev nD) (n : Fin 1048576) (k : Fin 128) :
    ((dat2 (F := Ideal) V c).arrAt 3 cfg2.N : Vec Ideal S1048576x128 .f32) (ix2 n k)
      = scaledSum (fun n k => xIn V c (ix2 n k)) (fun n => bIn V c (ix2 n 0)) (fun g k => gateIn V c (ix2 g k)) n k := by
  have h := (dat2 (F := Ideal) V c).arrAt_eq_of_cover 3 (G V c) (fun t _ => flushed_eq V c t) covered
  exact (congrFun h (ix2 n k)).trans rfl

end Cert.KernelIdeal.ScaleValue

end
-- ==== Proof.KValue.lean ====
/-
  The idealized kernel's result as a function of its arguments.

  The run leaves in the result array what the third region's last write-back leaves. Each region's output is a function
  of the arrays the region finds on entry: the third region's of the rows, the id column and the gate array; the gate
  array is the second region's output, a function of the sums, the counts, the weights and the bias rows; the sums and
  the counts are the first region's outputs, functions of the rows and the id column. The rows and the weights are the
  launch arrays themselves (nothing writes them), and the id column and the two bias rows are the launch arrays laid out
  again as a column and as rows by the three operations before the first region. Put together, the result is `layer` of
  the six launch arrays once every id is below 1024.
-/
import proofs.«410003_j3539053052006_1_alg».proof.Proof.Gen.KernelIdeal.Frame
import proofs.«410003_j3539053052006_1_alg».proof.Proof.Spec
import proofs.«410003_j3539053052006_1_alg».proof.Proof.KSums
import proofs.«410003_j3539053052006_1_alg».proof.Proof.KCounts
import proofs.«410003_j3539053052006_1_alg».proof.Proof.KGate
import proofs.«410003_j3539053052006_1_alg».proof.Proof.KScale
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.ResultValue

open Cert.KernelIdeal Cert.KernelIdeal.Gen Cert.SegGate
open Idealize.ShloMosaic Idealize.ShloMosaic.TcCoe Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The launch arrays -/

/-- The rows. -/
abbrev xA (c : Dev nD) : Vec Ideal S1048576x128 .f32 := m ((c : Thread nD τ).loc main_arg0)
/-- The rows' segment ids. -/
abbrev bA (c : Dev nD) : Vec Ideal S1048576 .i32 := m ((c : Thread nD τ).loc main_arg1)
/-- The first layer's weights and bias. -/
abbrev wsA (c : Dev nD) : Vec Ideal S32x128 .f32 := m ((c : Thread nD τ).loc main_arg2)
abbrev bsA (c : Dev nD) : Vec Ideal S32 .f32 := m ((c : Thread nD τ).loc main_arg3)
/-- The second layer's weights and bias. -/
abbrev weA (c : Dev nD) : Vec Ideal S128x32 .f32 := m ((c : Thread nD τ).loc main_arg4)
abbrev beA (c : Dev nD) : Vec Ideal S128 .f32 := m ((c : Thread nD τ).loc main_arg5)

/-! ## Before the first region: three arrays laid out again, the others untouched -/

/-- None of the three operations before the first region writes the rows. -/
theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))).trans rfl

/-- Nor the first layer's weights. -/
theorem W1_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))).trans rfl

/-- Nor the second layer's weights. -/
theorem W1_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))).trans rfl

/-- The id column is the ids laid out as a column. -/
theorem W1_v0 (c : Dev nD) :
    (V1 m ρ c main_v0 : Vec Ideal S1048576x1 .i32) = shapeCast S1048576x1 (bA m c) shapeCasts_S1048576_S1048576x1 := by
  show StableHlo.after hostOps0 (W0 m ρ c) (Proc.devRef .tc main_v0) = _
  after_results
  rfl

/-- The first bias row is the first bias laid out as a row. -/
theorem W1_v1 (c : Dev nD) :
    (V1 m ρ c main_v1 : Vec Ideal S1x32 .f32) = shapeCast S1x32 (bsA m c) shapeCasts_S32_S1x32 := by
  show StableHlo.after hostOps0 (W0 m ρ c) (Proc.devRef .tc main_v1) = _
  after_results
  rfl

/-- The second bias row is the second bias laid out as a row. -/
theorem W1_v2 (c : Dev nD) :
    (V1 m ρ c main_v2 : Vec Ideal S1x128 .f32) = shapeCast S1x128 (beA m c) shapeCasts_S128_S1x128 := by
  show StableHlo.after hostOps0 (W0 m ρ c) (Proc.devRef .tc main_v2) = _
  after_results
  rfl

/-- Row `n` of the id column is id `n`. -/
theorem col_apply (c : Dev nD) (n : Fin 1048576) :
    (V1 m ρ c main_v0 : Vec Ideal S1048576x1 .i32) (ix2 n 0) = bA m c (ix1 n) := by
  rw [W1_v0]
  refine shapeCast_apply (bA m c) shapeCasts_S1048576_S1048576x1 (ix2 n 0) (ix1 n) ?_
  rw [Shape.rowMajor_val_two, Shape.rowMajor_val_one]
  show n.val = n.val * 1 + 0
  omega

/-- Entry `s` of the first bias row is entry `s` of the first bias. -/
theorem row1_apply (c : Dev nD) (s : Fin 32) :
    (V1 m ρ c main_v1 : Vec Ideal S1x32 .f32) (ix2 0 s) = bsA m c (ix1 s) := by
  rw [W1_v1]
  exact shapeCast_a_1a_apply (bsA m c) shapeCasts_S32_S1x32 0 s

/-- Entry `k` of the second bias row is entry `k` of the second bias. -/
theorem row2_apply (c : Dev nD) (k : Fin 128) :
    (V1 m ρ c main_v2 : Vec Ideal S1x128 .f32) (ix2 0 k) = beA m c (ix1 k) := by
  rw [W1_v2]
  exact shapeCast_a_1a_apply (beA m c) shapeCasts_S128_S1x128 0 k

/-! ## After the first region: its two outputs, everything else as before -/

/-- The sums array after the first region is that region's first output. -/
theorem W2_sums (c : Dev nD) :
    (V2 m ρ c main_v3_0 : Vec Ideal S1024x128 .f32) = (dat0 (F := Ideal) (V1 m ρ) c).arrAt 2 cfg0.N := W2_arr m ρ c 2

/-- The counts array after the first region is that region's second output. -/
theorem W2_counts (c : Dev nD) :
    (V2 m ρ c main_v3_1 : Vec Ideal S1024x1 .f32) = (dat0 (F := Ideal) (V1 m ρ) c).arrAt 3 cfg0.N := W2_arr m ρ c 3

/-- The first region reads the rows and leaves them. -/
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)

/-- The first region reads the id column and leaves it. -/
theorem W2_v0 (c : Dev nD) : W2 m ρ c (Proc.devRef .tc main_v0) = V1 m ρ c main_v0 :=
  (W2_arr m ρ c 1).trans (((dat0 (V1 m ρ) c).arrAt_in 1 rfl _).trans (A_eq0 (V1 m ρ) c 1))

/-- The first region does not touch the weights and the bias rows. -/
theorem W2_arg2 (c : Dev nD) : W2 m ρ c (Proc.devRef .tc main_arg2) = m ((c : Thread nD τ).loc main_arg2) :=
  (W2_of_ne m ρ c main_arg2 (by decide)).trans (W1_arg2 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_v1 (c : Dev nD) : W2 m ρ c (Proc.devRef .tc main_v1) = V1 m ρ c main_v1 := W2_of_ne m ρ c main_v1 (by decide)
theorem W2_v2 (c : Dev nD) : W2 m ρ c (Proc.devRef .tc main_v2) = V1 m ρ c main_v2 := W2_of_ne m ρ c main_v2 (by decide)

/-! ## After the second region: the gate array, the rows and the id column as before -/

/-- The gate array after the second region is that region's output. -/
theorem W3_gate (c : Dev nD) :
    (V3 m ρ c main_v4 : Vec Ideal S1024x128 .f32) = (dat1 (F := Ideal) (V2 m ρ) c).arrAt 6 cfg1.N := W3_arr m ρ c 6

theorem W3_arg0 (c : Dev nD) : W3 m ρ c (Proc.devRef .tc main_arg0) = m ((c : Thread nD τ).loc main_arg0) :=
  (W3_of_ne m ρ c main_arg0 (by decide)).trans (W2_arg0 m ρ c)
theorem W3_v0 (c : Dev nD) : W3 m ρ c (Proc.devRef .tc main_v0) = V1 m ρ c main_v0 :=
  (W3_of_ne m ρ c main_v0 (by decide)).trans (W2_v0 m ρ c)

/-! ## The result -/

/-- The result array after the run is the third region's output. -/
theorem W4_result (c : Dev nD) :
    (W4 m ρ c (Proc.devRef .tc main_v5) : Vec Ideal S1048576x128 .f32) = (dat2 (F := Ideal) (V3 m ρ) c).arrAt 3 cfg2.N :=
  W4_arr m ρ c 3

/-- The sums the second region finds are the segment sums of the launch arrays. -/
theorem sums_fun (c : Dev nD) :
    (fun (g : Fin 1024) (k : Fin 128) => (V2 m ρ c main_v3_0 : Vec Ideal S1024x128 .f32) (ix2 g k))
      = segSum (fun n k => xA m c (ix2 n k)) (fun n => bA m c (ix1 n)) := by
  funext g k
  rw [W2_sums, SumsValue.sums_eq (V1 m ρ) c g k]
  have hx : (fun (n : Fin 1048576) (k : Fin 128) => (V1 m ρ c main_arg0 : Vec Ideal S1048576x128 .f32) (ix2 n k))
      = fun n k => xA m c (ix2 n k) := by
    funext n k; exact congrFun (W1_arg0 m ρ c) (ix2 n k)
  have hb : (fun (n : Fin 1048576) => (V1 m ρ c main_v0 : Vec Ideal S1048576x1 .i32) (ix2 n 0))
      = fun n => bA m c (ix1 n) := by
    funext n; exact col_apply m ρ c n
  show segSum (fun (n : Fin 1048576) (k : Fin 128) => (V1 m ρ c main_arg0 : Vec Ideal S1048576x128 .f32) (ix2 n k))
      (fun (n : Fin 1048576) => (V1 m ρ c main_v0 : Vec Ideal S1048576x1 .i32) (ix2 n 0)) g k = _
  rw [hx, hb]

/-- The counts the second region finds are the segment counts of the launch ids. -/
theorem counts_fun (c : Dev nD) :
    (fun (g : Fin 1024) => (V2 m ρ c main_v3_1 : Vec Ideal S1024x1 .f32) (ix2 g 0))
      = segCount (fun n => bA m c (ix1 n)) := by
  funext g
  rw [W2_counts, CountsValue.counts_eq (V1 m ρ) c g]
  have hb : (fun (n : Fin 1048576) => (V1 m ρ c main_v0 : Vec Ideal S1048576x1 .i32) (ix2 n 0))
      = fun n => bA m c (ix1 n) := by
    funext n; exact col_apply m ρ c n
  show segCount (fun (n : Fin 1048576) => (V1 m ρ c main_v0 : Vec Ideal S1048576x1 .i32) (ix2 n 0)) g = _
  rw [hb]

/-- The gate array the third region finds is the gate of the launch arrays. -/
theorem gate_fun (c : Dev nD) :
    (fun (g : Fin 1024) (k : Fin 128) => (V3 m ρ c main_v4 : Vec Ideal S1024x128 .f32) (ix2 g k))
      = gate (segSum (fun n k => xA m c (ix2 n k)) (fun n => bA m c (ix1 n))) (segCount (fun n => bA m c (ix1 n)))
          (fun s k => wsA m c (ix2 s k)) (fun s => bsA m c (ix1 s)) (fun c' s => weA m c (ix2 c' s))
          (fun c' => beA m c (ix1 c')) := by
  funext g k
  rw [W3_gate, GateValue.gate_eq (V2 m ρ) c g k]
  have hws : (fun (s : Fin 32) (k : Fin 128) => (V2 m ρ c main_arg2 : Vec Ideal S32x128 .f32) (ix2 s k))
      = fun s k => wsA m c (ix2 s k) := by
    funext s k; exact congrFun (W2_arg2 m ρ c) (ix2 s k)
  have hwe : (fun (c' : Fin 128) (s : Fin 32) => (V2 m ρ c main_arg4 : Vec Ideal S128x32 .f32) (ix2 c' s))
      = fun c' s => weA m c (ix2 c' s) := by
    funext c' s; exact congrFun (W2_arg4 m ρ c) (ix2 c' s)
  have hbs : (fun (s : Fin 32) => (V2 m ρ c main_v1 : Vec Ideal S1x32 .f32) (ix2 0 s)) = fun s => bsA m c (ix1 s) := by
    funext s; exact (congrFun (W2_v1 m ρ c) (ix2 0 s)).trans (row1_apply m ρ c s)
  have hbe : (fun (c' : Fin 128) => (V2 m ρ c main_v2 : Vec Ideal S1x128 .f32) (ix2 0 c')) = fun c' => beA m c (ix1 c') := by
    funext c'; exact (congrFun (W2_v2 m ρ c) (ix2 0 c')).trans (row2_apply m ρ c c')
  show gate (fun (g : Fin 1024) (k : Fin 128) => (V2 m ρ c main_v3_0 : Vec Ideal S1024x128 .f32) (ix2 g k))
      (fun (g : Fin 1024) => (V2 m ρ c main_v3_1 : Vec Ideal S1024x1 .f32) (ix2 g 0))
      (fun (s : Fin 32) (k : Fin 128) => (V2 m ρ c main_arg2 : Vec Ideal S32x128 .f32) (ix2 s k))
      (fun (s : Fin 32) => (V2 m ρ c main_v1 : Vec Ideal S1x32 .f32) (ix2 0 s))
      (fun (c' : Fin 128) (s : Fin 32) => (V2 m ρ c main_arg4 : Vec Ideal S128x32 .f32) (ix2 c' s))
      (fun (c' : Fin 128) => (V2 m ρ c main_v2 : Vec Ideal S1x128 .f32) (ix2 0 c')) g k = _
  rw [sums_fun, counts_fun, hws, hbs, hwe, hbe]

/-- THE RESULT: with every segment id below 1024 the result array holds, at row `n` and channel `k`, the layer's value
    of the six launch arrays. -/
theorem result_eq (c : Dev nD) (hb : ∀ i : S1048576.Idx, (bA m c i).toNat < 1024) (n : Fin 1048576) (k : Fin 128) :
    (W4 m ρ c (Proc.devRef .tc main_v5) : Vec Ideal S1048576x128 .f32) (ix2 n k)
      = layer (fun n k => xA m c (ix2 n k)) (fun n => bA m c (ix1 n)) (fun s k => wsA m c (ix2 s k))
          (fun s => bsA m c (ix1 s)) (fun c' s => weA m c (ix2 c' s)) (fun c' => beA m c (ix1 c')) n k := by
  rw [W4_result, ScaleValue.scaled_eq (V3 m ρ) c n k]
  have hx : (fun (n : Fin 1048576) (k : Fin 128) => (V3 m ρ c main_arg0 : Vec Ideal S1048576x128 .f32) (ix2 n k))
      = fun n k => xA m c (ix2 n k) := by
    funext n k; exact congrFun (W3_arg0 m ρ c) (ix2 n k)
  have hcol : (fun (n : Fin 1048576) => (V3 m ρ c main_v0 : Vec Ideal S1048576x1 .i32) (ix2 n 0))
      = fun n => bA m c (ix1 n) := by
    funext n; exact (congrFun (W3_v0 m ρ c) (ix2 n 0)).trans (col_apply m ρ c n)
  show scaledSum (fun (n : Fin 1048576) (k : Fin 128) => (V3 m ρ c main_arg0 : Vec Ideal S1048576x128 .f32) (ix2 n k))
      (fun (n : Fin 1048576) => (V3 m ρ c main_v0 : Vec Ideal S1048576x1 .i32) (ix2 n 0))
      (fun (g : Fin 1024) (k : Fin 128) => (V3 m ρ c main_v4 : Vec Ideal S1024x128 .f32) (ix2 g k)) n k = _
  rw [hx, hcol, gate_fun]
  exact scaledSum_eq _ _ _ (fun n => hb (ix1 n)) n k

end Cert.KernelIdeal.ResultValue

end
-- ==== Proof.RefParts.lean ====
/-
  The reference's three indexed operations, read at an index.

  A scatter-add into zeros of the rows at their segment ids leaves at segment `g`, channel `k`, the sum of channel `k`
  of the rows whose id, read as a signed integer, is `g`: an id outside `0 … 1023` lands outside the array and is
  dropped, and the word of a segment number below 1024 is that number read signed, so the rows that land on `g` are the
  rows whose id IS the word of `g`. The same with ones for the rows counts them. The gather reads the table at the
  row's id, a negative id first raised by 1024 and the result clamped into `0 … 1023`; an id below 1024 as a natural
  number is not negative and is its own clamp.
-/
import proofs.«410003_j3539053052006_1_alg».proof.Proof.Gen.ReferenceIdeal.Read
import proofs.«410003_j3539053052006_1_alg».proof.Proof.Spec
import proofs.«410003_j3539053052006_1_alg».proof.Proof.LibSums
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Predicate
import Idealize.ShloMosaic.PureOps.Ideal.Laws

set_option maxRecDepth 16384

noncomputable section

namespace Cert.ReferenceIdeal.RefParts

open Cert.ReferenceIdeal Cert.ReferenceIdeal.Gen Cert.SegGate
open Idealize.ShloMosaic Idealize.ShloMosaic.TcCoe Idealize.ShloMosaic.ValueIdx

/-! ## Words -/

/-- A word reads, signed, as a segment number exactly when it is that segment's word. -/
private theorem toInt_eq_seg_iff (a : BitVec 32) (g : Fin 1024) : a.toInt = (g.val : Int) ↔ a = seg g := by
  have hg : (seg g).toInt = (g.val : Int) :=
    StableHlo.Predicate.toInt_ofNat_small g.val (lt_trans g.isLt (by decide))
  constructor
  · intro h; exact BitVec.eq_of_toInt_eq (h.trans hg.symm)
  · intro h; rw [h]; exact hg

/-! ## The accumulating scatter at an index -/

/-- The accumulating scatter at an index, at the ideal values: the operand there plus the updates that land there. -/
private theorem scatterAdd_apply {s si su : Shape} {w : Nat} (d : ScatterDims s si su) (x : FVec Ideal s .f32) (idx : IVec si w)
    (upd : FVec Ideal su .f32) (i : s.Idx) :
    Host.scatterAdd (F := Ideal) d x idx upd i
      = x i + ∑ j, if d.resultIdx? j idx = some i then upd j else 0 := by
  unfold Host.scatterAdd
  rw [Ideal.hostScatterAdd_def]
  unfold Ideal.hostScatterAdd
  rw [Finset.sum_filter]

/-! ## The scatter of the rows: where update (n, k') lands

  The start index of update `(n, k')` is row `n` of the id column read signed, on axis 0; the window coordinate is
  `k'` on axis 1. The update lands on `(g, k)` exactly when the id read signed is `g` and `k' = k`. -/

private abbrev dS2 := scatter_S1024x128_S1048576x1_S1048576x128_1_0_0_1

private theorem siIdx2 (n : Fin 1048576) (k' : Fin 128) (c : Fin dS2.scatterDimsToOperandDims.length) :
    dS2.siIdx (ix2 n k') c = ix2 n (0 : Fin 1) := by
  funext b
  match b with
  | ⟨0, _⟩ => rfl
  | ⟨1, _⟩ => exact Fin.ext (by have h : c.val < 1 := c.isLt; show c.val = 0; omega)

private theorem start2_0 (n : Fin 1048576) (k' : Fin 128) (idx : IVec S1048576x1 32) :
    dS2.start (ix2 n k') idx 0 = (idx (ix2 n (0 : Fin 1))).toInt := by
  unfold ScatterDims.start
  rw [dif_pos (show (0 : Fin 2) ∈ dS2.scatterDimsToOperandDims from List.mem_singleton.mpr rfl), siIdx2]

private theorem start2_1 (n : Fin 1048576) (k' : Fin 128) (idx : IVec S1048576x1 32) :
    dS2.start (ix2 n k') idx 1 = 0 := by
  unfold ScatterDims.start
  rw [dif_neg (show ¬ (1 : Fin 2) ∈ dS2.scatterDimsToOperandDims from by decide)]

private theorem window2_0 (n : Fin 1048576) (k' : Fin 128) : dS2.window (ix2 n k') 0 = 0 := by
  unfold ScatterDims.window
  rw [dif_neg (show ¬ (0 : Fin 2) ∈ dS2.sKept from by decide)]

private theorem window2_1 (n : Fin 1048576) (k' : Fin 128) : dS2.window (ix2 n k') 1 = k'.val := by
  unfold ScatterDims.window
  rw [dif_pos (show (1 : Fin 2) ∈ dS2.sKept from by decide)]
  rfl

private theorem resultIdx2_iff (n : Fin 1048576) (k' : Fin 128) (idx : IVec S1048576x1 32) (g : Fin 1024) (k : Fin 128) :
    dS2.resultIdx? (ix2 n k') idx = some (ix2 g k) ↔ ((idx (ix2 n (0 : Fin 1))).toInt = (g.val : Int) ∧ k' = k) := by
  unfold ScatterDims.resultIdx?
  constructor
  · intro h
    split at h
    · rename_i hc
      have hf := Option.some.inj h
      have h0 := congrArg Fin.val (congrFun hf 0)
      have h1 := congrArg Fin.val (congrFun hf 1)
      have c0 := hc 0
      have c1 := hc 1
      simp only [start2_0, start2_1, window2_0, window2_1] at h0 h1 c0 c1
      change ((idx (ix2 n (0 : Fin 1))).toInt + ((0 : Nat) : Int)).toNat = g.val at h0
      change ((0 : Int) + (k'.val : Int)).toNat = k.val at h1
      refine ⟨by omega, Fin.ext (by omega)⟩
    · exact absurd h (by simp)
  · rintro ⟨hz, rfl⟩
    have hc : ∀ a, 0 ≤ dS2.start (ix2 n k') idx a + dS2.window (ix2 n k') a
        ∧ dS2.start (ix2 n k') idx a + dS2.window (ix2 n k') a < S1024x128.size a := by
      intro a
      match a with
      | ⟨0, _⟩ =>
        show 0 ≤ dS2.start (ix2 n k') idx 0 + dS2.window (ix2 n k') 0
          ∧ dS2.start (ix2 n k') idx 0 + dS2.window (ix2 n k') 0 < ((1024 : Nat) : Int)
        rw [start2_0, window2_0, hz]
        have := g.isLt
        omega
      | ⟨1, _⟩ =>
        show 0 ≤ dS2.start (ix2 n k') idx 1 + dS2.window (ix2 n k') 1
          ∧ dS2.start (ix2 n k') idx 1 + dS2.window (ix2 n k') 1 < ((128 : Nat) : Int)
        rw [start2_1, window2_1]
        have := k'.isLt
        omega
    rw [dif_pos hc]
    congr 1
    funext a
    match a with
    | ⟨0, _⟩ =>
      apply Fin.ext
      show (dS2.start (ix2 n k') idx 0 + dS2.window (ix2 n k') 0).toNat = g.val
      rw [start2_0, window2_0, hz]
      omega
    | ⟨1, _⟩ =>
      apply Fin.ext
      show (dS2.start (ix2 n k') idx 1 + dS2.window (ix2 n k') 1).toNat = k'.val
      rw [start2_1, window2_1]
      omega

private theorem idx_v1_col (n : Fin 1048576) : Cert.ReferenceIdeal.Read.idx_main_v1 (ix2 n (0 : Fin 1)) = ix1 n := by
  funext a
  match a with
  | ⟨0, _⟩ => rfl

/-! ## The scatter of ones: where update n lands

  The same with no window axis: update `n` lands on `g` exactly when row `n` of the id column read signed is `g`. -/

private abbrev dS1 := scatter_S1024_S1048576x1_S1048576_n_0_0_1

private theorem siIdx1 (n : Fin 1048576) (c : Fin dS1.scatterDimsToOperandDims.length) :
    dS1.siIdx (ix1 n) c = ix2 n (0 : Fin 1) := by
  funext b
  match b with
  | ⟨0, _⟩ => rfl
  | ⟨1, _⟩ => exact Fin.ext (by have h : c.val < 1 := c.isLt; show c.val = 0; omega)

private theorem start1_0 (n : Fin 1048576) (idx : IVec S1048576x1 32) :
    dS1.start (ix1 n) idx 0 = (idx (ix2 n (0 : Fin 1))).toInt := by
  unfold ScatterDims.start
  rw [dif_pos (show (0 : Fin 1) ∈ dS1.scatterDimsToOperandDims from List.mem_singleton.mpr rfl), siIdx1]

private theorem window1_0 (n : Fin 1048576) : dS1.window (ix1 n) 0 = 0 := by
  unfold ScatterDims.window
  rw [dif_neg (show ¬ (0 : Fin 1) ∈ dS1.sKept from by decide)]

private theorem resultIdx1_iff (n : Fin 1048576) (idx : IVec S1048576x1 32) (g : Fin 1024) :
    dS1.resultIdx? (ix1 n) idx = some (ix1 g) ↔ (idx (ix2 n (0 : Fin 1))).toInt = (g.val : Int) := by
  unfold ScatterDims.resultIdx?
  constructor
  · intro h
    split at h
    · rename_i hc
      have hf := Option.some.inj h
      have h0 := congrArg Fin.val (congrFun hf 0)
      have c0 := hc 0
      simp only [start1_0, window1_0] at h0 c0
      change ((idx (ix2 n (0 : Fin 1))).toInt + ((0 : Nat) : Int)).toNat = g.val at h0
      omega
    · exact absurd h (by simp)
  · intro hz
    have hc : ∀ a, 0 ≤ dS1.start (ix1 n) idx a + dS1.window (ix1 n) a
        ∧ dS1.start (ix1 n) idx a + dS1.window (ix1 n) a < S1024.size a := by
      intro a
      match a with
      | ⟨0, _⟩ =>
        show 0 ≤ dS1.start (ix1 n) idx 0 + dS1.window (ix1 n) 0
          ∧ dS1.start (ix1 n) idx 0 + dS1.window (ix1 n) 0 < ((1024 : Nat) : Int)
        rw [start1_0, window1_0, hz]
        have := g.isLt
        omega
    rw [dif_pos hc]
    congr 1
    funext a
    match a with
    | ⟨0, _⟩ =>
      apply Fin.ext
      show (dS1.start (ix1 n) idx 0 + dS1.window (ix1 n) 0).toNat = g.val
      rw [start1_0, window1_0, hz]
      omega

private theorem idx_v5_col (n : Fin 1048576) : Cert.ReferenceIdeal.Read.idx_main_v5 (ix2 n (0 : Fin 1)) = ix1 n := by
  funext a
  match a with
  | ⟨0, _⟩ => rfl

/-! ## The gather: which table element row n, channel k reads

  On axis 0 the start index of row `n`, read signed and clamped into `0 … 1023`; on axis 1 the offset coordinate `k`. -/

private abbrev dG := gather_S1024x128_S1048576x1_S1048576x128_1_0_n_n_0_1_1128

private theorem siIdxG (n : Fin 1048576) (k : Fin 128) (c : Fin dG.startIndexMap.length) :
    dG.siIdx (ix2 n k) c = ix2 n (0 : Fin 1) := by
  funext b
  match b with
  | ⟨0, _⟩ => rfl
  | ⟨1, _⟩ => exact Fin.ext (by have h : c.val < 1 := c.isLt; show c.val = 0; omega)

private theorem startG_0 (n : Fin 1048576) (k : Fin 128) (idx : IVec S1048576x1 32) :
    dG.start (ix2 n k) idx 0 = min (idx (ix2 n (0 : Fin 1))).toInt.toNat 1023 := by
  unfold GatherDims.start
  rw [dif_pos (show (0 : Fin 2) ∈ dG.startIndexMap from List.mem_singleton.mpr rfl), siIdxG]
  rfl

private theorem startG_1 (n : Fin 1048576) (k : Fin 128) (idx : IVec S1048576x1 32) :
    dG.start (ix2 n k) idx 1 = 0 := by
  unfold GatherDims.start
  rw [dif_neg (show ¬ (1 : Fin 2) ∈ dG.startIndexMap from by decide)]

private theorem batchG (n : Fin 1048576) (k : Fin 128) (a : Fin 2) : dG.batchCoord (ix2 n k) a = 0 :=
  GatherDims.batchCoord_eq_zero _ _ _ (show ¬ a ∈ dG.operandBatchingDims from List.not_mem_nil)

private theorem offG_0 (n : Fin 1048576) (k : Fin 128) : dG.offCoord (ix2 n k) 0 = 0 :=
  GatherDims.offCoord_eq_zero _ _ _ (show ¬ (0 : Fin 2) ∈ dG.sKept from by decide)

private theorem offG_1 (n : Fin 1048576) (k : Fin 128) : dG.offCoord (ix2 n k) 1 = k.val := by
  unfold GatherDims.offCoord
  rw [dif_pos (show (1 : Fin 2) ∈ dG.sKept from by decide)]
  rfl

/-- The gather's operand index at row `n`, channel `k`, when the row's start index is a word below 1024: the word's
    own segment number (it is not negative and is its own clamp) and `k`. -/
private theorem operandIdxG (n : Fin 1048576) (k : Fin 128) (idx : IVec S1048576x1 32) (w : BitVec 32)
    (hw : idx (ix2 n (0 : Fin 1)) = w) (hlt : w.toNat < 1024) :
    dG.operandIdx (ix2 n k) idx = ix2 (segOf w) k := by
  have hti : w.toInt = (w.toNat : Int) := StableHlo.Predicate.toInt_eq_toNat_of_lt (by omega)
  funext a
  match a with
  | ⟨0, _⟩ =>
    apply Fin.ext
    show dG.start (ix2 n k) idx 0 + dG.batchCoord (ix2 n k) 0 + dG.offCoord (ix2 n k) 0 = w.toNat % 1024
    rw [startG_0, batchG, offG_0, hw, hti]
    omega
  | ⟨1, _⟩ =>
    apply Fin.ext
    show dG.start (ix2 n k) idx 1 + dG.batchCoord (ix2 n k) 1 + dG.offCoord (ix2 n k) 1 = k.val
    rw [startG_1, batchG, offG_1]
    omega

private theorem idx_v34_col (n : Fin 1048576) : Cert.ReferenceIdeal.Read.idx_main_v34 (ix2 n (0 : Fin 1)) = ix1 n := by
  funext a
  match a with
  | ⟨0, _⟩ => rfl

/-- A word below 1024 is not negative, so the raise of negative ids by 1024 leaves it as it is. -/
private theorem v33_of_lt (x1 : (⟨S1048576, .i32⟩ : BufTy).Contents (Elt Ideal)) (i : S1048576.Idx) (h : (x1 i).toNat < 1024) :
    Cert.ReferenceIdeal.Read.val_main_v33 (F := Ideal) x1 i = x1 i := by
  rw [Cert.ReferenceIdeal.Read.val_main_v33_apply, Cert.ReferenceIdeal.Read.val_main_v30_apply,
    Cert.ReferenceIdeal.Read.val_main_v29_apply, Cert.ReferenceIdeal.Read.val_main_c_apply]
  have hne : ¬ IntOp.cmpi .slt (x1 i) 0#32 = 1#1 := by
    rw [StableHlo.Predicate.slt_iff_toNat (by omega) (by decide)]
    simp
  unfold Scalar.select
  exact if_neg hne

/-! ## The three operations read at an index -/

/-- The scatter-add of the rows into zeros holds every segment's sum. -/
theorem scatter_sums (x0 : (⟨S1048576x128, .f32⟩ : BufTy).Contents (Elt Ideal)) (x1 : (⟨S1048576, .i32⟩ : BufTy).Contents (Elt Ideal))
    (g : Fin 1024) (k : Fin 128) :
    Cert.ReferenceIdeal.Read.val_main_v2 (F := Ideal) x0 x1 (ix2 g k)
      = segSum (fun n k => x0 (ix2 n k)) (fun n => x1 (ix1 n)) g k := by
  unfold Cert.ReferenceIdeal.Read.val_main_v2
  generalize hidx : Cert.ReferenceIdeal.Read.val_main_v1 (F := Ideal) x1 = idx
  rw [scatterAdd_apply, Cert.ReferenceIdeal.Read.val_main_v0_apply, Cert.ReferenceIdeal.Read.val_main_cst_apply]
  rw [show (FloatOps.ofBits .f32 0x00000000#32 : Ideal .f32) = 0 from Ideal.ofBits_zero_f32, zero_add]
  rw [Cert.LibSums.sum_idx2']
  unfold segSum
  apply Finset.sum_congr rfl
  intro n _
  have hz : idx (ix2 n (0 : Fin 1)) = x1 (ix1 n) := by
    rw [← hidx, Cert.ReferenceIdeal.Read.val_main_v1_apply, idx_v1_col]
  -- update (n, k') lands on (g, k) exactly when k' = k and row n's id is the word of g
  have hstep : ∀ k' : Fin 128,
      (if dS2.resultIdx? (ix2 n k') idx = some (ix2 g k) then x0 (ix2 n k') else 0)
        = if k' = k then (if x1 (ix1 n) = seg g then x0 (ix2 n k') else 0) else 0 := by
    intro k'
    by_cases hk : k' = k
    · by_cases hs : x1 (ix1 n) = seg g
      · rw [if_pos hk, if_pos hs,
          if_pos ((resultIdx2_iff n k' idx g k).mpr ⟨by rw [hz]; exact (toInt_eq_seg_iff _ g).mpr hs, hk⟩)]
      · rw [if_pos hk, if_neg hs,
          if_neg (fun h => hs ((toInt_eq_seg_iff _ g).mp (by rw [← hz]; exact ((resultIdx2_iff n k' idx g k).mp h).1)))]
    · rw [if_neg hk, if_neg (fun h => hk ((resultIdx2_iff n k' idx g k).mp h).2)]
  refine (Finset.sum_congr rfl (fun k' _ => hstep k')).trans ?_
  rw [Finset.sum_ite_eq', if_pos (Finset.mem_univ k)]
  show (if x1 (ix1 n) = seg g then x0 (ix2 n k) else 0) = hot (x1 (ix1 n)) (seg g) * x0 (ix2 n k)
  by_cases hs : x1 (ix1 n) = seg g
  · rw [if_pos hs, hs, hot_self, one_mul]
  · rw [if_neg hs, hot_of_ne hs, zero_mul]

/-- The scatter-add of ones into zeros holds every segment's number of rows. -/
theorem scatter_counts (x1 : (⟨S1048576, .i32⟩ : BufTy).Contents (Elt Ideal)) (g : Fin 1024) :
    Cert.ReferenceIdeal.Read.val_main_v6 (F := Ideal) x1 (ix1 g) = segCount (fun n => x1 (ix1 n)) g := by
  unfold Cert.ReferenceIdeal.Read.val_main_v6
  generalize hidx : Cert.ReferenceIdeal.Read.val_main_v5 (F := Ideal) x1 = idx
  rw [scatterAdd_apply, Cert.ReferenceIdeal.Read.val_main_v4_apply, Cert.ReferenceIdeal.Read.val_main_cst_1_apply]
  rw [show (FloatOps.ofBits .f32 0x00000000#32 : Ideal .f32) = 0 from Ideal.ofBits_zero_f32, zero_add]
  rw [Cert.LibSums.sum_idx1]
  unfold segCount
  apply Finset.sum_congr rfl
  intro n _
  have hz : idx (ix2 n (0 : Fin 1)) = x1 (ix1 n) := by
    rw [← hidx, Cert.ReferenceIdeal.Read.val_main_v5_apply, idx_v5_col]
  rw [Cert.ReferenceIdeal.Read.val_main_v3_apply, Cert.ReferenceIdeal.Read.val_main_cst_0_apply]
  rw [show (FloatOps.ofBits .f32 0x3F800000#32 : Ideal .f32) = 1 from Ideal.ofBits_one_f32]
  show (if dS1.resultIdx? (ix1 n) idx = some (ix1 g) then (1 : EReal) else 0) = hot (x1 (ix1 n)) (seg g)
  by_cases hs : x1 (ix1 n) = seg g
  · rw [if_pos ((resultIdx1_iff n idx g).mpr (by rw [hz]; exact (toInt_eq_seg_iff _ g).mpr hs)), hs, hot_self]
  · rw [if_neg (fun h => hs ((toInt_eq_seg_iff _ g).mp (by rw [← hz]; exact (resultIdx1_iff n idx g).mp h))),
      hot_of_ne hs]

/-- With every id below 1024 the gather reads, for row `n`, the table's row of `n`'s own segment. -/
theorem gather_gate (x0 : (⟨S1048576x128, .f32⟩ : BufTy).Contents (Elt Ideal)) (x1 : (⟨S1048576, .i32⟩ : BufTy).Contents (Elt Ideal))
    (x2 : (⟨S32x128, .f32⟩ : BufTy).Contents (Elt Ideal)) (x3 : (⟨S32, .f32⟩ : BufTy).Contents (Elt Ideal))
    (x4 : (⟨S128x32, .f32⟩ : BufTy).Contents (Elt Ideal)) (x5 : (⟨S128, .f32⟩ : BufTy).Contents (Elt Ideal))
    (hb : ∀ i : S1048576.Idx, (x1 i).toNat < 1024) (n : Fin 1048576) (k : Fin 128) :
    Cert.ReferenceIdeal.Read.val_main_v35 (F := Ideal) x0 x1 x2 x3 x4 x5 (ix2 n k)
      = Cert.ReferenceIdeal.Read.val_main_v28 (F := Ideal) x0 x1 x2 x3 x4 x5 (ix2 (segOf (x1 (ix1 n))) k) := by
  unfold Cert.ReferenceIdeal.Read.val_main_v35
  generalize Cert.ReferenceIdeal.Read.val_main_v28 (F := Ideal) x0 x1 x2 x3 x4 x5 = tbl
  generalize hidx : Cert.ReferenceIdeal.Read.val_main_v34 (F := Ideal) x1 = idx
  unfold Host.gather
  have hz : idx (ix2 n (0 : Fin 1)) = x1 (ix1 n) := by
    rw [← hidx, Cert.ReferenceIdeal.Read.val_main_v34_apply, idx_v34_col, v33_of_lt x1 (ix1 n) (hb (ix1 n))]
  rw [operandIdxG n k idx (x1 (ix1 n)) hz (hb (ix1 n))]

end Cert.ReferenceIdeal.RefParts

end
-- ==== Proof.RefValue.lean ====
/-
  The reference computes the layer.

  The reference sums the rows into their segments by a scatter-add into zeros (an update whose id is not a segment
  number is dropped) and counts them by a scatter-add of ones; divides the sums by the counts raised to one; applies the
  two affine layers, the clamp at zero and the logistic function spelt as `1 / (1 + exp (-e))`; and reads, for every
  row, the gate at the row's id (a negative id first raised by 1024, then clamped into the table) and multiplies. With
  every id below 1024 the gather reads the gate of the row's own segment, and the whole is `layer`.
-/
import proofs.«410003_j3539053052006_1_alg».proof.Proof.Gen.ReferenceIdeal.Read
import proofs.«410003_j3539053052006_1_alg».proof.Proof.RefParts
import proofs.«410003_j3539053052006_1_alg».proof.Proof.Spec
import proofs.«410003_j3539053052006_1_alg».proof.Proof.LibSums
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Predicate
import Idealize.ShloMosaic.PureOps.Ideal.Laws

set_option maxRecDepth 16384

noncomputable section

namespace Cert.ReferenceIdeal.RefValue

open Cert.ReferenceIdeal Cert.ReferenceIdeal.Gen Cert.SegGate
open Idealize.ShloMosaic Idealize.ShloMosaic.TcCoe Idealize.ShloMosaic.ValueIdx

/-! ## The index maps of the layout operations, at an index given by its coordinates -/

theorem idx_count (g : Fin 1024) (k : Fin 128) :
    Read.idx_main_v9 (Read.idx_main_v10 (ix2 g k)) = ix1 g :=
  funext fun a => match a with | ⟨0, _⟩ => rfl

theorem lidx_hidden (g : Fin 1024) (s : Fin 32) (k : Fin 128) : Read.lidx_main_v13 (ix2 g s) k = ix2 g k :=
  funext fun a => match a with | ⟨0, _⟩ => rfl | ⟨1, _⟩ => rfl

theorem ridx_hidden (g : Fin 1024) (s : Fin 32) (k : Fin 128) :
    Read.idx_main_v12 (Read.ridx_main_v13 (ix2 g s) k) = ix2 s k :=
  funext fun a => match a with | ⟨0, _⟩ => rfl | ⟨1, _⟩ => rfl

theorem idx_bias_hidden (g : Fin 1024) (s : Fin 32) :
    Read.idx_main_v14 (Read.idx_main_v15 (ix2 g s)) = ix1 s :=
  funext fun a => match a with | ⟨0, _⟩ => rfl

theorem lidx_gate (g : Fin 1024) (c : Fin 128) (s : Fin 32) : Read.lidx_main_v19 (ix2 g c) s = ix2 g s :=
  funext fun a => match a with | ⟨0, _⟩ => rfl | ⟨1, _⟩ => rfl

theorem ridx_gate (g : Fin 1024) (c : Fin 128) (s : Fin 32) :
    Read.idx_main_v18 (Read.ridx_main_v19 (ix2 g c) s) = ix2 c s :=
  funext fun a => match a with | ⟨0, _⟩ => rfl | ⟨1, _⟩ => rfl

theorem idx_bias_gate (g : Fin 1024) (c : Fin 128) :
    Read.idx_main_v20 (Read.idx_main_v21 (ix2 g c)) = ix1 c :=
  funext fun a => match a with | ⟨0, _⟩ => rfl

/-! ## The stages -/

/-- The segment's mean, channel `k`: the segment's sum over the segment's count raised to one. -/
theorem mean_eq (x0 : (⟨S1048576x128, .f32⟩ : BufTy).Contents (Elt Ideal)) (x1 : (⟨S1048576, .i32⟩ : BufTy).Contents (Elt Ideal))
    (g : Fin 1024) (k : Fin 128) :
    Read.val_main_v11 (F := Ideal) x0 x1 (ix2 g k)
      = Ideal.div (segSum (fun n k => x0 (ix2 n k)) (fun n => x1 (ix1 n)) g k)
          (max (segCount (fun n => x1 (ix1 n)) g) 1) := by
  rw [Read.val_main_v11_apply, Read.val_main_v10_apply, Read.val_main_v9_apply, Read.val_main_v8_apply,
    Read.val_main_v7_apply, Read.val_main_cst_2_apply, idx_count, RefParts.scatter_sums, RefParts.scatter_counts]
  simp only [Ideal.hostDivf_def, Ideal.maximumf_def, Ideal.ofBits_def, Ideal.ofBits_one_f32]

/-- The hidden value `s` of segment `g`: the mean through the first affine layer, clamped at zero. -/
theorem hidden_eq (x0 : (⟨S1048576x128, .f32⟩ : BufTy).Contents (Elt Ideal)) (x1 : (⟨S1048576, .i32⟩ : BufTy).Contents (Elt Ideal))
    (x2 : (⟨S32x128, .f32⟩ : BufTy).Contents (Elt Ideal)) (x3 : (⟨S32, .f32⟩ : BufTy).Contents (Elt Ideal))
    (g : Fin 1024) (s : Fin 32) :
    Read.val_main_v17 (F := Ideal) x0 x1 x2 x3 (ix2 g s)
      = max ((∑ k : Fin 128, Ideal.div (segSum (fun n k => x0 (ix2 n k)) (fun n => x1 (ix1 n)) g k)
          (max (segCount (fun n => x1 (ix1 n)) g) 1) * x2 (ix2 s k)) + x3 (ix1 s)) 0 := by
  rw [Read.val_main_v17_apply, Read.val_main_v16_apply, Read.val_main_v13_apply, Read.val_main_v15_apply,
    Read.val_main_v14_apply, Read.val_main_call0_v0_apply, Read.val_main_call0_cst_apply, idx_bias_hidden]
  simp only [Read.val_main_v12_apply, lidx_hidden, ridx_hidden, mean_eq,
    Ideal.maximumf_def, Ideal.addf_def, Ideal.ofBits_def, Ideal.ofBits_zero_f32]

/-- The gate of segment `g`, channel `c`. -/
theorem gate_eq (x0 : (⟨S1048576x128, .f32⟩ : BufTy).Contents (Elt Ideal)) (x1 : (⟨S1048576, .i32⟩ : BufTy).Contents (Elt Ideal))
    (x2 : (⟨S32x128, .f32⟩ : BufTy).Contents (Elt Ideal)) (x3 : (⟨S32, .f32⟩ : BufTy).Contents (Elt Ideal))
    (x4 : (⟨S128x32, .f32⟩ : BufTy).Contents (Elt Ideal)) (x5 : (⟨S128, .f32⟩ : BufTy).Contents (Elt Ideal))
    (g : Fin 1024) (c : Fin 128) :
    Read.val_main_v28 (F := Ideal) x0 x1 x2 x3 x4 x5 (ix2 g c)
      = gate (segSum (fun n k => x0 (ix2 n k)) (fun n => x1 (ix1 n))) (segCount (fun n => x1 (ix1 n)))
          (fun s k => x2 (ix2 s k)) (fun s => x3 (ix1 s)) (fun c s => x4 (ix2 c s)) (fun c => x5 (ix1 c)) g c := by
  rw [Read.val_main_v28_apply, Read.val_main_v27_apply, Read.val_main_cst_4_apply, Read.val_main_v26_apply,
    Read.val_main_v25_apply, Read.val_main_cst_3_apply, Read.val_main_v24_apply, Read.val_main_v23_apply,
    Read.val_main_v22_apply, Read.val_main_v19_apply, Read.val_main_v21_apply, Read.val_main_v20_apply, idx_bias_gate]
  simp only [Read.val_main_v18_apply, lidx_gate, ridx_gate, hidden_eq,
    Ideal.hostDivf_def, Ideal.addf_def, Ideal.hostUnary_exp_def, Ideal.hostNegf_def, Ideal.negf_def,
    Ideal.ofBits_def, Ideal.ofBits_one_f32]
  rfl

/-- The reference's result at row `n`, channel `k`, is the layer's, when every segment id is below 1024. -/
theorem ref_eq (x0 : (⟨S1048576x128, .f32⟩ : BufTy).Contents (Elt Ideal)) (x1 : (⟨S1048576, .i32⟩ : BufTy).Contents (Elt Ideal))
    (x2 : (⟨S32x128, .f32⟩ : BufTy).Contents (Elt Ideal)) (x3 : (⟨S32, .f32⟩ : BufTy).Contents (Elt Ideal))
    (x4 : (⟨S128x32, .f32⟩ : BufTy).Contents (Elt Ideal)) (x5 : (⟨S128, .f32⟩ : BufTy).Contents (Elt Ideal))
    (hb : ∀ i : S1048576.Idx, (x1 i).toNat < 1024) (n : Fin 1048576) (k : Fin 128) :
    Cert.ReferenceIdeal.Read.val_main_v36 (F := Ideal) x0 x1 x2 x3 x4 x5 (ix2 n k)
      = layer (fun n k => x0 (ix2 n k)) (fun n => x1 (ix1 n)) (fun s k => x2 (ix2 s k)) (fun s => x3 (ix1 s))
          (fun c s => x4 (ix2 c s)) (fun c => x5 (ix1 c)) n k := by
  rw [Read.val_main_v36_apply, RefParts.gather_gate x0 x1 x2 x3 x4 x5 hb n k, gate_eq, Ideal.mulf_def]
  rfl

end Cert.ReferenceIdeal.RefValue

end
-- ==== Proof.PreRange.lean ====
/-
  What the precondition says of the segment ids.

  The precondition is a conjunction of seven tests, each an `and` over a whole array: five that a float array's entries
  are below infinity in absolute value, and two about the segment ids, read as signed integers: every id is at least
  zero, and every id is below 1024. Being all ones, it makes each test one at every entry; the two signed tests
  together say that every id, read as a natural number, is below 1024.
-/
import proofs.«410003_j3539053052006_1_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreRange

open Cert.Pre_finite_inputs Idealize.ShloMosaic

/-- The scalar shape has one index. -/
private instance : Subsingleton S_.Idx := ⟨fun a b => funext fun d => d.elim0⟩

/-- A word that, read signed, is at least zero and below 1024 is below 1024 read as a natural number: being at least
    zero signed its top bit is clear, so its signed and natural readings agree. -/
private theorem toNat_lt_of_signed (w : BitVec 32) (h0 : IntOp.cmpi .sge w 0#32 = 1#1)
    (h1 : IntOp.cmpi .slt w 1024#32 = 1#1) : w.toNat < 1024 := by
  rw [IntOp.cmpi_sge, show (0#32 : BitVec 32).toInt = 0 from by decide, BitVec.toInt_pos_iff] at h0
  rw [IntOp.cmpi_slt, BitVec.toInt_eq_toNat_of_lt h0, show (1024#32 : BitVec 32).toInt = 1024 from by decide] at h1
  omega

/-- Under the precondition every segment id is below 1024 as a natural number. -/
theorem batch_lt [Cert.Pre_finite_inputs.Facts] (a0 : FVec Ideal S1048576x128 .f32) (a1 : IVec S1048576 32)
    (a2 : FVec Ideal S32x128 .f32) (a3 : FVec Ideal S32 .f32) (a4 : FVec Ideal S128x32 .f32) (a5 : FVec Ideal S128 .f32)
    (h : Cert.Pre_finite_inputs.fn (F := Ideal) a0 a1 a2 a3 a4 a5 = fun _ => 1#1) (i : S1048576.Idx) :
    (a1 i).toNat < 1024 := by
  -- the precondition at its one index: the last two conjuncts are the two tests of the ids
  have e := congrFun h ValueIdx.ix0
  dsimp only [fn, fn_part1] at e
  change IntOp.andi _ _ = 1#1 at e
  obtain ⟨e27, e30⟩ := IntOp.andi_eq_one.1 e
  change IntOp.andi _ _ = 1#1 at e27
  obtain ⟨-, e26⟩ := IntOp.andi_eq_one.1 e27
  -- an `and` over the whole array that is one is one at every entry
  have p0 := Host.reduce_andi_all _ _ _ _ _ e26 i
  have p1 := Host.reduce_andi_all _ _ _ _ _ e30 i
  -- the broadcast constants read 0 and 1024 at the entry
  exact toNat_lt_of_signed (a1 i) p0 p1

end Cert.PreRange

end
-- ==== Proof.lean ====
/-
  A squeeze-and-excitation layer over segments: a Pallas kernel of three calls against its jnp reference.

  A million rows of 128 channels each carry a segment id. The reference sums the rows of each of 1024 segments and
  counts them (two scatter-adds), takes the means, passes them through two small affine layers (a clamp at zero after
  the first, the logistic function after the second) and multiplies every row by the gate of its own segment (a
  gather). The kernel does the same in three passes: the first accumulates the sums and counts over 256 blocks of 4096
  rows, each block's contribution a product with the matrix of membership numbers (one where the row's id is the
  segment, zero elsewhere); the second computes the gates; the third picks each row's gate by another product with the
  membership matrix and multiplies.

  Over the extended reals both are the function `layer` of the six arguments (Proof/Spec.lean), PROVIDED every id is a
  segment number: a row whose id is none has an all-zero membership row, so the kernel multiplies it by zero, while the
  reference's gather clamps the id into the table and multiplies by a gate, which is never zero. The precondition
  therefore asks, beside finite float inputs, that every id lie in 0 … 1023 (the range of the array the reference
  indexes with it); nothing else of it is used: `0 * y = 0` and `1 * y = y` hold for every extended real.

  The three frames are the generated ones (the reference's is its generated run with the result dropped); the kernel's
  idealization rewrote no operation, so `preserves` is `True`; `algebraic` takes as the common value the kernel's result
  array, which is `layer` of the arguments (Proof/KValue.lean, from the three regions' values), as is the reference's
  (Proof/RefValue.lean).
-/
import proofs.«410003_j3539053052006_1_alg».proof.Defs
import proofs.«410003_j3539053052006_1_alg».proof.Proof.Gen.Kernel
import proofs.«410003_j3539053052006_1_alg».proof.Proof.Gen.Kernel.Skeleton
import proofs.«410003_j3539053052006_1_alg».proof.Proof.Gen.Kernel.Launch
import proofs.«410003_j3539053052006_1_alg».proof.Proof.Gen.Kernel.Points
import proofs.«410003_j3539053052006_1_alg».proof.Proof.Gen.Kernel.Frame
import proofs.«410003_j3539053052006_1_alg».proof.Proof.Gen.KernelIdeal
import proofs.«410003_j3539053052006_1_alg».proof.Proof.Gen.KernelIdeal.Skeleton
import proofs.«410003_j3539053052006_1_alg».proof.Proof.Gen.KernelIdeal.Launch
import proofs.«410003_j3539053052006_1_alg».proof.Proof.Gen.KernelIdeal.Points
import proofs.«410003_j3539053052006_1_alg».proof.Proof.Gen.KernelIdeal.Frame
import proofs.«410003_j3539053052006_1_alg».proof.Proof.Gen.ReferenceIdeal
import proofs.«410003_j3539053052006_1_alg».proof.Proof.Gen.ReferenceIdeal.Run
import proofs.«410003_j3539053052006_1_alg».proof.Proof.Gen.ReferenceIdeal.Read
import proofs.«410003_j3539053052006_1_alg».proof.Proof.Gen.Pre_finite_inputs
import proofs.«410003_j3539053052006_1_alg».proof.Proof.KRun
import proofs.«410003_j3539053052006_1_alg».proof.Proof.KValue
import proofs.«410003_j3539053052006_1_alg».proof.Proof.RefValue
import proofs.«410003_j3539053052006_1_alg».proof.Proof.PreRange
import Idealize.ShloMosaic.Adequacy
import Idealize.ShloMosaic.Init

noncomputable section

namespace Cert.Proof

open Idealize.ShloMosaic Idealize.ShloMosaic.ValueIdx Idealize.SL.Sem

/-- The kernel as printed runs and leaves its arguments. -/
theorem frame_kernel [Cert.Kernel.Facts] [Cert.Pre_finite_inputs.Facts] : Cert.frame_Kernel :=
  fun m ρ _ => Cert.Kernel.Gen.frame m ρ

/-- The idealized kernel runs and leaves its arguments. -/
theorem frame_kernelIdeal [Cert.KernelIdeal.Facts] [Cert.Pre_finite_inputs.Facts] : Cert.frame_KernelIdeal :=
  fun m ρ _ => Cert.KernelIdeal.Gen.frame m ρ

/-- The idealized reference runs and leaves its arguments: its run, the result forgotten. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From arguments that agree, with finite floats and every id a segment number, the idealized kernel and the idealized
    reference end with the same result array: both hold `layer` of the arguments at every row and channel. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Gen.W4 m ρ c (Proc.devRef .tc Cert.KernelIdeal.main_v5),
    Cert.KernelIdeal.RunValue.run (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5⟩ := hagree c
  rw [h0, h1, h2, h3, h4, h5]
  refine (Cert.ReferenceIdeal.Read.val_main_v36_eq (F := Ideal) _ _ _ _ _ _).trans ?_
  -- every id is below 1024, by the precondition
  have hb := fun i => Cert.PreRange.batch_lt _ _ _ _ _ _ (hpre c) i
  funext j
  obtain ⟨n, k, rfl⟩ : ∃ (n : Fin 1048576) (k : Fin 128), j = ix2 n k := ⟨j 0, j 1, eq_ix2 j⟩
  rw [Cert.ReferenceIdeal.RefValue.ref_eq _ _ _ _ _ _ hb n k]
  exact (Cert.KernelIdeal.ResultValue.result_eq m ρ c hb n k).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
